-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1638400 : Shape := ⟨2, ![2, 1638400]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S2x1638400 : S_.BroadcastsInDim S2x1638400 (![] : Fin 0 → Fin S2x1638400.rank)
  reducesTo_S2x1638400_S_d0_1 : S2x1638400.ReducesTo [0, 1] S_

variable [Facts]

def fn_part1 {F : FTy → Type} [FloatOps F] (main_arg1 : IVec S2x1638400 32) (main_v13 : IVec S_ 1) (main_v15 : IVec S2x1638400 1) (main_c_5 : IVec S_ 32) : IVec S_ 1 :=
  let main_v16 : IVec S2x1638400 32 := broadcastInDim S2x1638400 ![] bcast_S_S2x1638400 main_c_5
  let main_v17 : IVec S2x1638400 1 := cmpi .slt main_arg1 main_v16
  let main_v18 : IVec S2x1638400 1 := andi main_v15 main_v17
  let main_c_6 : IVec S_ 1 := constantI S_ 1 1#1
  let main_v19 : IVec S_ 1 := (fun x v => Host.reduce IntOp.andi x v reducesTo_S2x1638400_S_d0_1 h_S_) main_v18 main_c_6
  let main_v20 : IVec S_ 1 := andi main_v13 main_v19
  main_v20

def fn {F : FTy → Type} [FloatOps F] (main_arg0 : FVec F S50000x256 .f32) (main_arg1 : IVec S2x1638400 32) (main_arg2 : FVec F S256x64 .f32) (main_arg3 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S2x1638400 32 := broadcastInDim S2x1638400 ![] bcast_S_S2x1638400 main_c_4
  let main_v15 : IVec S2x1638400 1 := cmpi .sge main_arg1 main_v14
  let main_c_5 : IVec S_ 32 := constantI S_ 32 50000#32
  fn_part1 (F := F) main_arg1 main_v13 main_v15 main_c_5
-- ==== Kernel.lean ====
abbrev S50000x256 : Shape := ⟨2, ![50000, 256]⟩
abbrev S2x1638400 : Shape := ⟨2, ![2, 1638400]⟩
abbrev S256x64 : Shape := ⟨2, ![256, 64]⟩
abbrev S64 : Shape := ⟨1, ![64]⟩
abbrev S1x1638400 : Shape := ⟨2, ![1, 1638400]⟩
abbrev S1638400 : Shape := ⟨1, ![1638400]⟩
abbrev S1x64 : Shape := ⟨2, ![1, 64]⟩
abbrev S50000x64 : Shape := ⟨2, ![50000, 64]⟩
abbrev S1000x256 : Shape := ⟨2, ![1000, 256]⟩
abbrev S1000x64 : Shape := ⟨2, ![1000, 64]⟩
abbrev S1000x8x8 : Shape := ⟨3, ![1000, 8, 8]⟩
abbrev S1000x8 : Shape := ⟨2, ![1000, 8]⟩
abbrev S1000x8x1 : Shape := ⟨3, ![1000, 8, 1]⟩
abbrev S_ : Shape := ⟨0, ![]⟩
abbrev S1638400x1 : Shape := ⟨2, ![1638400, 1]⟩
abbrev S1 : Shape := ⟨1, ![1]⟩
abbrev S1x1 : Shape := ⟨2, ![1, 1]⟩
abbrev S1638400x64 : Shape := ⟨2, ![1638400, 64]⟩
abbrev S1024x64 : Shape := ⟨2, ![1024, 64]⟩
abbrev S1024x8x8 : Shape := ⟨3, ![1024, 8, 8]⟩
abbrev S1024x8 : Shape := ⟨2, ![1024, 8]⟩
abbrev S1024 : Shape := ⟨1, ![1024]⟩
abbrev S1024x1 : Shape := ⟨2, ![1024, 1]⟩
abbrev S1024x8x1 : Shape := ⟨3, ![1024, 8, 1]⟩

abbrev nBuf : Space → Nat
  | .hbm => 169
  | .vmem => 46
  | .smem => 0
  | _ => 0

abbrev hbmTy0_0 (i : Nat) : BufTy := match i % 128 with
  | 0 => ⟨S50000x256, .f32⟩
  | 1 => ⟨S2x1638400, .i32⟩
  | 2 => ⟨S256x64, .f32⟩
  | 3 => ⟨S64, .f32⟩
  | 4 => ⟨S1x1638400, .i32⟩
  | 5 => ⟨S1638400, .i32⟩
  | 6 => ⟨S1x1638400, .i32⟩
  | 7 => ⟨S1638400, .i32⟩
  | 8 => ⟨S1x64, .f32⟩
  | 9 => ⟨S50000x64, .f32⟩
  | 10 => ⟨S_, .i32⟩
  | 11 => ⟨S1638400, .i32⟩
  | 12 => ⟨S1638400, .i1⟩
  | 13 => ⟨S_, .i32⟩
  | 14 => ⟨S1638400, .i32⟩
  | 15 => ⟨S1638400, .i32⟩
  | 16 => ⟨S1638400, .i32⟩
  | 17 => ⟨S1638400x1, .i32⟩
  | 18 => ⟨S1, .i32⟩
  | 19 => ⟨S_, .i32⟩
  | 20 => ⟨S1638400x1, .i32⟩
  | 21 => ⟨S1638400x1, .i1⟩
  | 22 => ⟨S1x1, .i32⟩
  | 23 => ⟨S1638400x1, .i32⟩
  | 24 => ⟨S1638400x1, .i1⟩
  | 25 => ⟨S1638400x1, .i1⟩
  | 26 => ⟨S_, .i1⟩
  | 27 => ⟨S1638400, .i1⟩
  | 28 => ⟨S1638400x64, .f32⟩
  | 29 => ⟨S1638400x64, .i1⟩
  | 30 => ⟨S_, .f32⟩
  | 31 => ⟨S1638400x64, .f32⟩
  | 32 => ⟨S1638400x64, .f32⟩
  | 33 => ⟨S_, .i32⟩
  | 34 => ⟨S1638400, .i32⟩
  | 35 => ⟨S1638400, .i1⟩
  | 36 => ⟨S_, .i32⟩
  | 37 => ⟨S1638400, .i32⟩
  | 38 => ⟨S1638400, .i32⟩
  | 39 => ⟨S1638400, .i32⟩
  | 40 => ⟨S1638400x1, .i32⟩
  | 41 => ⟨S1, .i32⟩
  | 42 => ⟨S_, .i32⟩
  | 43 => ⟨S1638400x1, .i32⟩
  | 44 => ⟨S1638400x1, .i1⟩
  | 45 => ⟨S1x1, .i32⟩
  | 46 => ⟨S1638400x1, .i32⟩
  | 47 => ⟨S1638400x1, .i1⟩
  | 48 => ⟨S1638400x1, .i1⟩
  | 49 => ⟨S_, .i1⟩
  | 50 => ⟨S1638400, .i1⟩
  | 51 => ⟨S1638400x64, .f32⟩
  | 52 => ⟨S1638400x64, .i1⟩
  | 53 => ⟨S_, .f32⟩
  | 54 => ⟨S1638400x64, .f32⟩
  | 55 => ⟨S1638400x64, .f32⟩
  | 56 => ⟨S1638400x64, .f32⟩
  | 57 => ⟨S_, .i32⟩
  | 58 => ⟨S1638400, .i32⟩
  | 59 => ⟨S1638400, .i1⟩
  | 60 => ⟨S_, .i32⟩
  | 61 => ⟨S1638400, .i32⟩
  | 62 => ⟨S1638400, .i32⟩
  | 63 => ⟨S1638400, .i32⟩
  | 64 => ⟨S1638400x1, .i32⟩
  | 65 => ⟨S50000x64, .f32⟩
  | 66 => ⟨S50000x64, .f32⟩
  | 67 => ⟨S_, .i32⟩
  | 68 => ⟨S1638400, .i32⟩
  | 69 => ⟨S1638400, .i1⟩
  | 70 => ⟨S_, .i32⟩
  | 71 => ⟨S1638400, .i32⟩
  | 72 => ⟨S1638400, .i32⟩
  | 73 => ⟨S1638400, .i32⟩
  | 74 => ⟨S1638400x1, .i32⟩
  | 75 => ⟨S1, .i32⟩
  | 76 => ⟨S_, .i32⟩
  | 77 => ⟨S1638400x1, .i32⟩
  | 78 => ⟨S1638400x1, .i1⟩
  | 79 => ⟨S1x1, .i32⟩
  | 80 => ⟨S1638400x1, .i32⟩
  | 81 => ⟨S1638400x1, .i1⟩
  | 82 => ⟨S1638400x1, .i1⟩
  | 83 => ⟨S_, .i1⟩
  | 84 => ⟨S1638400, .i1⟩
  | 85 => ⟨S1638400x64, .f32⟩
  | 86 => ⟨S1638400x64, .i1⟩
  | 87 => ⟨S_, .f32⟩
  | 88 => ⟨S1638400x64, .f32⟩
  | 89 => ⟨S1638400x64, .f32⟩
  | 90 => ⟨S1638400x64, .f32⟩
  | 91 => ⟨S_, .i32⟩
  | 92 => ⟨S1638400, .i32⟩
  | 93 => ⟨S1638400, .i1⟩
  | 94 => ⟨S_, .i32⟩
  | 95 => ⟨S1638400, .i32⟩
  | 96 => ⟨S1638400, .i32⟩
  | 97 => ⟨S1638400, .i32⟩
  | 98 => ⟨S1638400x1, .i32⟩
  | 99 => ⟨S50000x64, .f32⟩
  | 100 => ⟨S50000x64, .f32⟩
  | 101 => ⟨S_, .i32⟩
  | 102 => ⟨S1638400, .i32⟩
  | 103 => ⟨S1638400, .i1⟩
  | 104 => ⟨S_, .i32⟩
  | 105 => ⟨S1638400, .i32⟩
  | 106 => ⟨S1638400, .i32⟩
  | 107 => ⟨S1638400, .i32⟩
  | 108 => ⟨S1638400x1, .i32⟩
  | 109 => ⟨S1, .i32⟩
  | 110 => ⟨S_, .i32⟩
  | 111 => ⟨S1638400x1, .i32⟩
  | 112 => ⟨S1638400x1, .i1⟩
  | 113 => ⟨S1x1, .i32⟩
  | 114 => ⟨S1638400x1, .i32⟩
  | 115 => ⟨S1638400x1, .i1⟩
  | 116 => ⟨S1638400x1, .i1⟩
  | 117 => ⟨S_, .i1⟩
  | 118 => ⟨S1638400, .i1⟩
  | 119 => ⟨S1638400x64, .f32⟩
  | 120 => ⟨S1638400x64, .i1⟩
  | 121 => ⟨S_, .f32⟩
  | 122 => ⟨S1638400x64, .f32⟩
  | 123 => ⟨S1638400x64, .f32⟩
  | 124 => ⟨S1638400x64, .f32⟩
  | 125 => ⟨S_, .i32⟩
  | 126 => ⟨S1638400, .i32⟩
  | 127 => ⟨S1638400, .i1⟩
  | _ => ⟨S50000x256, .f32⟩

abbrev hbmTy0_1 (i : Nat) : BufTy := match i % 128 with
  | 0 => ⟨S_, .i32⟩
  | 1 => ⟨S1638400, .i32⟩
  | 2 => ⟨S1638400, .i32⟩
  | 3 => ⟨S1638400, .i32⟩
  | 4 => ⟨S1638400x1, .i32⟩
  | 5 => ⟨S50000x64, .f32⟩
  | 6 => ⟨S50000x64, .f32⟩
  | 7 => ⟨S_, .i32⟩
  | 8 => ⟨S1638400, .i32⟩
  | 9 => ⟨S1638400, .i1⟩
  | 10 => ⟨S_, .i32⟩
  | 11 => ⟨S1638400, .i32⟩
  | 12 => ⟨S1638400, .i32⟩
  | 13 => ⟨S1638400, .i32⟩
  | 14 => ⟨S1638400x1, .i32⟩
  | 15 => ⟨S1, .i32⟩
  | 16 => ⟨S_, .i32⟩
  | 17 => ⟨S1638400x1, .i32⟩
  | 18 => ⟨S1638400x1, .i1⟩
  | 19 => ⟨S1x1, .i32⟩
  | 20 => ⟨S1638400x1, .i32⟩
  | 21 => ⟨S1638400x1, .i1⟩
  | 22 => ⟨S1638400x1, .i1⟩
  | 23 => ⟨S_, .i1⟩
  | 24 => ⟨S1638400, .i1⟩
  | 25 => ⟨S1638400x64, .f32⟩
  | 26 => ⟨S1638400x64, .i1⟩
  | 27 => ⟨S_, .f32⟩
  | 28 => ⟨S1638400x64, .f32⟩
  | 29 => ⟨S1638400x64, .f32⟩
  | 30 => ⟨S1638400x64, .f32⟩
  | 31 => ⟨S_, .i32⟩
  | 32 => ⟨S1638400, .i32⟩
  | 33 => ⟨S1638400, .i1⟩
  | 34 => ⟨S_, .i32⟩
  | 35 => ⟨S1638400, .i32⟩
  | 36 => ⟨S1638400, .i32⟩
  | 37 => ⟨S1638400, .i32⟩
  | 38 => ⟨S1638400x1, .i32⟩
  | 39 => ⟨S50000x64, .f32⟩
  | 40 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x64, .f32⟩
  | .local _ .vmem, ⟨3, _⟩ => ⟨S1x64, .f32⟩
  | .local _ .vmem, ⟨4, _⟩ => ⟨S1000x64, .f32⟩
  | .local _ .vmem, ⟨5, _⟩ => ⟨S1000x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1000x64, .f32⟩
  | .local _ .vmem, ⟨13, _⟩ => ⟨S1000x64, .f32⟩
  | .local _ .vmem, ⟨14, _⟩ => ⟨S1000x64, .f32⟩
  | .local _ .vmem, ⟨15, _⟩ => ⟨S1000x64, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | .local _ .vmem, ⟨21, _⟩ => ⟨S1024x64, .f32⟩
  | .local _ .vmem, ⟨22, _⟩ => ⟨S1000x64, .f32⟩
  | .local _ .vmem, ⟨23, _⟩ => ⟨S1000x64, .f32⟩
  | .local _ .vmem, ⟨24, _⟩ => ⟨S1000x64, .f32⟩
  | .local _ .vmem, ⟨25, _⟩ => ⟨S1000x64, .f32⟩
  | .local _ .vmem, ⟨26, _⟩ => ⟨S1024x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1000x64, .f32⟩
  | .local _ .vmem, ⟨33, _⟩ => ⟨S1000x64, .f32⟩
  | .local _ .vmem, ⟨34, _⟩ => ⟨S1000x64, .f32⟩
  | .local _ .vmem, ⟨35, _⟩ => ⟨S1000x64, .f32⟩
  | .local _ .vmem, ⟨36, _⟩ => ⟨S1024x64, .f32⟩
  | .local _ .vmem, ⟨37, _⟩ => ⟨S1024x64, .f32⟩
  | .local _ .vmem, ⟨38, _⟩ => ⟨S1024x64, .f32⟩
  | .local _ .vmem, ⟨39, _⟩ => ⟨S1024x64, .f32⟩
  | .local _ .vmem, ⟨40, _⟩ => ⟨S1024x64, .f32⟩
  | .local _ .vmem, ⟨41, _⟩ => ⟨S1024x64, .f32⟩
  | .local _ .vmem, ⟨42, _⟩ => ⟨S1000x64, .f32⟩
  | .local _ .vmem, ⟨43, _⟩ => ⟨S1000x64, .f32⟩
  | .local _ .vmem, ⟨44, _⟩ => ⟨S1000x64, .f32⟩
  | .local _ .vmem, ⟨45, _⟩ => ⟨S1000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v7 : Ref sig .tc := ⟨.hbm, 55, rfl⟩
abbrev main_v8 : Ref sig .tc := ⟨.hbm, 56, rfl⟩
abbrev main_c : Ref sig .tc := ⟨.hbm, 57, rfl⟩
abbrev main_v9 : Ref sig .tc := ⟨.hbm, 58, rfl⟩
abbrev main_v10 : Ref sig .tc := ⟨.hbm, 59, rfl⟩
abbrev main_c_0 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v17 : Ref sig .tc := ⟨.hbm, 89, rfl⟩
abbrev main_v18 : Ref sig .tc := ⟨.hbm, 90, rfl⟩
abbrev main_c_1 : Ref sig .tc := ⟨.hbm, 91, rfl⟩
abbrev main_v19 : Ref sig .tc := ⟨.hbm, 92, rfl⟩
abbrev main_v20 : Ref sig .tc := ⟨.hbm, 93, rfl⟩
abbrev main_c_2 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_call3_c : Ref sig .tc := ⟨.hbm, 101, rfl⟩
abbrev main_call3_v0 : Ref sig .tc := ⟨.hbm, 102, rfl⟩
abbrev main_call3_v1 : Ref sig .tc := ⟨.hbm, 103, rfl⟩
abbrev main_call3_c_0 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_c_1 : Ref sig .tc := ⟨.hbm, 109, rfl⟩
abbrev main_call3_c_2 : Ref sig .tc := ⟨.hbm, 110, rfl⟩
abbrev main_call3_v6 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_c_3 : Ref sig .tc := ⟨.hbm, 117, rfl⟩
abbrev main_call3_v12 : Ref sig .tc := ⟨.hbm, 118, rfl⟩
abbrev main_call3_v13 : Ref sig .tc := ⟨.hbm, 119, rfl⟩
abbrev main_call3_v14 : Ref sig .tc := ⟨.hbm, 120, rfl⟩
abbrev main_call3_cst : Ref sig .tc := ⟨.hbm, 121, rfl⟩
abbrev main_call3_v15 : Ref sig .tc := ⟨.hbm, 122, rfl⟩
abbrev main_v27 : Ref sig .tc := ⟨.hbm, 123, rfl⟩
abbrev main_v28 : Ref sig .tc := ⟨.hbm, 124, rfl⟩
abbrev main_c_3 : Ref sig .tc := ⟨.hbm, 125, rfl⟩
abbrev main_v29 : Ref sig .tc := ⟨.hbm, 126, rfl⟩
abbrev main_v30 : Ref sig .tc := ⟨.hbm, 127, rfl⟩
abbrev main_c_4 : Ref sig .tc := ⟨.hbm, 128, rfl⟩
abbrev main_v31 : Ref sig .tc := ⟨.hbm, 129, rfl⟩
abbrev main_v32 : Ref sig .tc := ⟨.hbm, 130, rfl⟩
abbrev main_v33 : Ref sig .tc := ⟨.hbm, 131, rfl⟩
abbrev main_v34 : Ref sig .tc := ⟨.hbm, 132, rfl⟩
abbrev main_v35 : Ref sig .tc := ⟨.hbm, 133, rfl⟩
abbrev main_v36 : Ref sig .tc := ⟨.hbm, 134, rfl⟩
abbrev main_call4_c : Ref sig .tc := ⟨.hbm, 135, rfl⟩
abbrev main_call4_v0 : Ref sig .tc := ⟨.hbm, 136, rfl⟩
abbrev main_call4_v1 : Ref sig .tc := ⟨.hbm, 137, rfl⟩
abbrev main_call4_c_0 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_call4_v5 : Ref sig .tc := ⟨.hbm, 142, rfl⟩
abbrev main_call4_c_1 : Ref sig .tc := ⟨.hbm, 143, rfl⟩
abbrev main_call4_c_2 : Ref sig .tc := ⟨.hbm, 144, rfl⟩
abbrev main_call4_v6 : Ref sig .tc := ⟨.hbm, 145, rfl⟩
abbrev main_call4_v7 : Ref sig .tc := ⟨.hbm, 146, rfl⟩
abbrev main_call4_v8 : Ref sig .tc := ⟨.hbm, 147, rfl⟩
abbrev main_call4_v9 : Ref sig .tc := ⟨.hbm, 148, rfl⟩
abbrev main_call4_v10 : Ref sig .tc := ⟨.hbm, 149, rfl⟩
abbrev main_call4_v11 : Ref sig .tc := ⟨.hbm, 150, rfl⟩
abbrev main_call4_c_3 : Ref sig .tc := ⟨.hbm, 151, rfl⟩
abbrev main_call4_v12 : Ref sig .tc := ⟨.hbm, 152, rfl⟩
abbrev main_call4_v13 : Ref sig .tc := ⟨.hbm, 153, rfl⟩
abbrev main_call4_v14 : Ref sig .tc := ⟨.hbm, 154, rfl⟩
abbrev main_call4_cst : Ref sig .tc := ⟨.hbm, 155, rfl⟩
abbrev main_call4_v15 : Ref sig .tc := ⟨.hbm, 156, rfl⟩
abbrev main_v37 : Ref sig .tc := ⟨.hbm, 157, rfl⟩
abbrev main_v38 : Ref sig .tc := ⟨.hbm, 158, rfl⟩
abbrev main_c_5 : Ref sig .tc := ⟨.hbm, 159, rfl⟩
abbrev main_v39 : Ref sig .tc := ⟨.hbm, 160, rfl⟩
abbrev main_v40 : Ref sig .tc := ⟨.hbm, 161, rfl⟩
abbrev main_c_6 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg1_1 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg1_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc7_sem0_0 : DmaSem sig := 36
abbrev cc7_sem0_1 : DmaSem sig := 37
abbrev cc7_sem1_0 : DmaSem sig := 38
abbrev cc7_sem1_1 : DmaSem sig := 39
abbrev cc7_sem2_0 : DmaSem sig := 40
abbrev cc7_sem2_1 : DmaSem sig := 41
abbrev cc8_sem0_0 : DmaSem sig := 42
abbrev cc8_sem0_1 : DmaSem sig := 43
abbrev cc8_sem1_0 : DmaSem sig := 44
abbrev cc8_sem1_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1600], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![1600], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![1600], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1024x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![1600], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1024x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

class Facts₀ : Prop where
  slices_S2x1638400_S1x1638400_0_0 : S2x1638400.Slices ![0, 0] S1x1638400
  shapeCasts_S1x1638400_S1638400 : S1x1638400.ShapeCasts S1638400
  slices_S2x1638400_S1x1638400_1_0 : S2x1638400.Slices ![1, 0] S1x1638400
  shapeCasts_S64_S1x64 : S64.ShapeCasts S1x64
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  shapeCasts_S1000x64_S1000x8x8 : S1000x64.ShapeCasts S1000x8x8
  reduces_S1000x8x8_S1000x8 : S1000x8x8.Reduces [2] S1000x8
  shapeCasts_S1000x8_S1000x8x1 : S1000x8.ShapeCasts S1000x8x1
  broadcasts_S1000x8x1_S1000x8x8 : S1000x8x1.Broadcasts S1000x8x8
  shapeCasts_S1000x8x8_S1000x64 : S1000x8x8.ShapeCasts S1000x64
  inb_S1000x64_S1000x64_0_0 : ∀ a, (![0, 0] : Fin 2 → Nat) a + S1000x64.size a ≤ S1000x64.size a
  h_S1000x64 : 0 < S1000x64.numel
  bcast_S_S1638400 : S_.BroadcastsInDim S1638400 (![] : Fin 0 → Fin S1638400.rank)
  bcast_S1638400_S1638400x1_0 : S1638400.BroadcastsInDim S1638400x1 (![0] : Fin 1 → Fin S1638400x1.rank)
  bcast_S_S1638400x1 : S_.BroadcastsInDim S1638400x1 (![] : Fin 0 → Fin S1638400x1.rank)
  bcast_S1_S1x1_1 : S1.BroadcastsInDim S1x1 (![1] : Fin 1 → Fin S1x1.rank)
  bcast_S1x1_S1638400x1_0_1 : S1x1.BroadcastsInDim S1638400x1 (![0, 1] : Fin 2 → Fin S1638400x1.rank)
  reducesTo_S1638400x1_S1638400_d1 : S1638400x1.ReducesTo [1] S1638400
  h_S_ : 0 < S_.numel
  bcast_S1638400_S1638400x64_0 : S1638400.BroadcastsInDim S1638400x64 (![0] : Fin 1 → Fin S1638400x64.rank)
  bcast_S_S1638400x64 : S_.BroadcastsInDim S1638400x64 (![] : Fin 0 → Fin S1638400x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S1024x64_S1024x8x8 : S1024x64.ShapeCasts S1024x8x8
  reduces_S1024x8x8_S1024x8 : S1024x8x8.Reduces [2] S1024x8
  reduces_S1024x8_S1024 : S1024x8.Reduces [1] S1024
  shapeCasts_S1024_S1024x1 : S1024.ShapeCasts S1024x1
  broadcasts_S1024x1_S1024x8 : S1024x1.Broadcasts S1024x8
  shapeCasts_S1024x8_S1024x8x1 : S1024x8.ShapeCasts S1024x8x1
  broadcasts_S1024x8x1_S1024x8x8 : S1024x8x1.Broadcasts S1024x8x8
  shapeCasts_S1024x8x8_S1024x64 : S1024x8x8.ShapeCasts S1024x64
  shapeCasts_S1000x64_S1000x64 : S1000x64.ShapeCasts S1000x64
  dot_S1000x256_S256x64_S1000x64_1_0_0_1_n_n_wf : DotDims.WF S1000x256 S256x64 S1000x64 [1] [0] [0] [1] [] []
  gather_S50000x64_S1638400x1_S1638400x64_1_0_n_n_0_1_164_wf : GatherDims.WF S50000x64 S1638400x1 S1638400x64 [1] [0] [] [0] [] 1 ![1, 64]
  scatter_S50000x64_S1638400x1_S1638400x64_1_0_0_1_wf : ScatterDims.WF S50000x64 S1638400x1 S1638400x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S50000x64.size a
  hwx0_3 : ∀ i : grid0.Coords, EltTy.bits .f32 = 32 ∨ (Rect.block (s := S50000x64) S1000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S1638400x64.size a
  hwx1_0 : ∀ i : grid1.Coords, EltTy.bits .f32 = 32 ∨ (Rect.block (s := S1638400x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S1638400x64.size a
  hwx1_1 : ∀ i : grid1.Coords, EltTy.bits .f32 = 32 ∨ (Rect.block (s := S1638400x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S1638400x64.size a
  hwx1_2 : ∀ i : grid1.Coords, EltTy.bits .f32 = 32 ∨ (Rect.block (s := S1638400x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S50000x64.size a
  hwx2_0 : ∀ i : grid2.Coords, EltTy.bits .f32 = 32 ∨ (Rect.block (s := S50000x64) S1000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x64.size a ≤ S50000x64.size a
  hwx2_1 : ∀ i : grid2.Coords, EltTy.bits .f32 = 32 ∨ (Rect.block (s := S50000x64) S1000x64.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S1638400x64.size a
  hwx3_0 : ∀ i : grid3.Coords, EltTy.bits .f32 = 32 ∨ (Rect.block (s := S1638400x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S1638400x64.size a
  hwx3_1 : ∀ i : grid3.Coords, EltTy.bits .f32 = 32 ∨ (Rect.block (s := S1638400x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S1638400x64.size a
  hwx3_2 : ∀ i : grid3.Coords, EltTy.bits .f32 = 32 ∨ (Rect.block (s := S1638400x64) S1024x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S50000x64.size a
  hwx4_0 : ∀ i : grid4.Coords, EltTy.bits .f32 = 32 ∨ (Rect.block (s := S50000x64) S1000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x64.size a ≤ S50000x64.size a
  hwx4_1 : ∀ i : grid4.Coords, EltTy.bits .f32 = 32 ∨ (Rect.block (s := S50000x64) S1000x64.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x64.size a ≤ S1638400x64.size a
  hwx5_0 : ∀ i : grid5.Coords, EltTy.bits .f32 = 32 ∨ (Rect.block (s := S1638400x64) S1024x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x64.size a ≤ S1638400x64.size a
  hwx5_1 : ∀ i : grid5.Coords, EltTy.bits .f32 = 32 ∨ (Rect.block (s := S1638400x64) S1024x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x64.size a ≤ S1638400x64.size a
  hwx5_2 : ∀ i : grid5.Coords, EltTy.bits .f32 = 32 ∨ (Rect.block (s := S1638400x64) S1024x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x64.size a ≤ S50000x64.size a
  hwx6_0 : ∀ i : grid6.Coords, EltTy.bits .f32 = 32 ∨ (Rect.block (s := S50000x64) S1000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x64.size a ≤ S50000x64.size a
  hwx6_1 : ∀ i : grid6.Coords, EltTy.bits .f32 = 32 ∨ (Rect.block (s := S50000x64) S1000x64.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x64.size a ≤ S1638400x64.size a
  hwx7_0 : ∀ i : grid7.Coords, EltTy.bits .f32 = 32 ∨ (Rect.block (s := S1638400x64) S1024x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x64.size a ≤ S1638400x64.size a
  hwx7_1 : ∀ i : grid7.Coords, EltTy.bits .f32 = 32 ∨ (Rect.block (s := S1638400x64) S1024x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x64.size a ≤ S1638400x64.size a
  hwx7_2 : ∀ i : grid7.Coords, EltTy.bits .f32 = 32 ∨ (Rect.block (s := S1638400x64) S1024x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x64.size a ≤ S50000x64.size a
  hwx8_0 : ∀ i : grid8.Coords, EltTy.bits .f32 = 32 ∨ (Rect.block (s := S50000x64) S1000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1000x64.size a ≤ S50000x64.size a
  hwx8_1 : ∀ i : grid8.Coords, EltTy.bits .f32 = 32 ∨ (Rect.block (s := S50000x64) S1000x64.size (cc8_transform_1 i) (hinb8_1 i)).WholeWords (EltTy.packing .f32)

variable [Facts₀]

def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf
def gather_S50000x64_S1638400x1_S1638400x64_1_0_n_n_0_1_164 : GatherDims S50000x64 S1638400x1 S1638400x64 where
  offsetDims := [1]
  collapsedSliceDims := [0]
  operandBatchingDims := []
  startIndicesBatchingDims := []
  startIndexMap := [0]
  indexVectorDim := 1
  sliceSizes := ![1, 64]
  wf := gather_S50000x64_S1638400x1_S1638400x64_1_0_n_n_0_1_164_wf
def scatter_S50000x64_S1638400x1_S1638400x64_1_0_0_1 : ScatterDims S50000x64 S1638400x1 S1638400x64 where
  updateWindowDims := [1]
  insertedWindowDims := [0]
  scatterDimsToOperandDims := [0]
  indexVectorDim := 1
  wf := scatter_S50000x64_S1638400x1_S1638400x64_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v6) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18) S1024x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v25) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S1000x64.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v6) S1024x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v27) S1024x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S1024x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v35) S1000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v36) S1000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v6) S1024x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v37) S1024x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v38) S1024x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v45) S1000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v46) S1000x64.size cc8_transform_1 reads8_1 true false 2 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

class Facts : Prop extends Facts₀ where

variable [Facts]
-- ==== ReferenceIdeal.lean ====
abbrev S50000x256 : Shape := ⟨2, ![50000, 256]⟩
abbrev S2x1638400 : Shape := ⟨2, ![2, 1638400]⟩
abbrev S256x64 : Shape := ⟨2, ![256, 64]⟩
abbrev S64 : Shape := ⟨1, ![64]⟩
abbrev S1x1638400 : Shape := ⟨2, ![1, 1638400]⟩
abbrev S1638400 : Shape := ⟨1, ![1638400]⟩
abbrev S50000x64 : Shape := ⟨2, ![50000, 64]⟩
abbrev S1x64 : Shape := ⟨2, ![1, 64]⟩
abbrev S_ : Shape := ⟨0, ![]⟩
abbrev S50000x8x8 : Shape := ⟨3, ![50000, 8, 8]⟩
abbrev S50000x8 : Shape := ⟨2, ![50000, 8]⟩
abbrev S50000x8x1 : Shape := ⟨3, ![50000, 8, 1]⟩
abbrev S1638400x1 : Shape := ⟨2, ![1638400, 1]⟩
abbrev S1638400x64 : Shape := ⟨2, ![1638400, 64]⟩
abbrev S1638400x8x8 : Shape := ⟨3, ![1638400, 8, 8]⟩
abbrev S1638400x8 : Shape := ⟨2, ![1638400, 8]⟩
abbrev S1638400x8x1 : Shape := ⟨3, ![1638400, 8, 1]⟩

abbrev nBuf : Space → Nat
  | .hbm => 273
  | .vmem => 0
  | .smem => 0
  | _ => 0

abbrev hbmTy0_0 (i : Nat) : BufTy := match i % 128 with
  | 0 => ⟨S50000x256, .f32⟩
  | 1 => ⟨S2x1638400, .i32⟩
  | 2 => ⟨S256x64, .f32⟩
  | 3 => ⟨S64, .f32⟩
  | 4 => ⟨S1x1638400, .i32⟩
  | 5 => ⟨S1638400, .i32⟩
  | 6 => ⟨S1x1638400, .i32⟩
  | 7 => ⟨S1638400, .i32⟩
  | 8 => ⟨S50000x64, .f32⟩
  | 9 => ⟨S1x64, .f32⟩
  | 10 => ⟨S50000x64, .f32⟩
  | 11 => ⟨S50000x64, .f32⟩
  | 12 => ⟨S_, .f32⟩
  | 13 => ⟨S50000x64, .f32⟩
  | 14 => ⟨S50000x64, .i1⟩
  | 15 => ⟨S_, .f32⟩
  | 16 => ⟨S50000x64, .f32⟩
  | 17 => ⟨S50000x64, .f32⟩
  | 18 => ⟨S50000x64, .f32⟩
  | 19 => ⟨S50000x8x8, .f32⟩
  | 20 => ⟨S50000x8x8, .f32⟩
  | 21 => ⟨S_, .f32⟩
  | 22 => ⟨S50000x8, .f32⟩
  | 23 => ⟨S50000x8x1, .f32⟩
  | 24 => ⟨S50000x8x1, .f32⟩
  | 25 => ⟨S_, .f32⟩
  | 26 => ⟨S50000x8x1, .f32⟩
  | 27 => ⟨S50000x8x1, .f32⟩
  | 28 => ⟨S50000x8x8, .f32⟩
  | 29 => ⟨S50000x8x8, .f32⟩
  | 30 => ⟨S50000x64, .f32⟩
  | 31 => ⟨S50000x8x8, .f32⟩
  | 32 => ⟨S50000x8x8, .f32⟩
  | 33 => ⟨S_, .f32⟩
  | 34 => ⟨S50000x8, .f32⟩
  | 35 => ⟨S50000x8x1, .f32⟩
  | 36 => ⟨S50000x8x1, .f32⟩
  | 37 => ⟨S_, .f32⟩
  | 38 => ⟨S50000x8x1, .f32⟩
  | 39 => ⟨S50000x8x1, .f32⟩
  | 40 => ⟨S50000x8x8, .f32⟩
  | 41 => ⟨S50000x8x8, .f32⟩
  | 42 => ⟨S50000x64, .f32⟩
  | 43 => ⟨S_, .i32⟩
  | 44 => ⟨S1638400, .i32⟩
  | 45 => ⟨S1638400, .i1⟩
  | 46 => ⟨S_, .i32⟩
  | 47 => ⟨S1638400, .i32⟩
  | 48 => ⟨S1638400, .i32⟩
  | 49 => ⟨S1638400, .i32⟩
  | 50 => ⟨S1638400x1, .i32⟩
  | 51 => ⟨S1638400x64, .f32⟩
  | 52 => ⟨S1638400x8x8, .f32⟩
  | 53 => ⟨S_, .i32⟩
  | 54 => ⟨S1638400, .i32⟩
  | 55 => ⟨S1638400, .i1⟩
  | 56 => ⟨S_, .i32⟩
  | 57 => ⟨S1638400, .i32⟩
  | 58 => ⟨S1638400, .i32⟩
  | 59 => ⟨S1638400, .i32⟩
  | 60 => ⟨S1638400x1, .i32⟩
  | 61 => ⟨S1638400x64, .f32⟩
  | 62 => ⟨S1638400x8x8, .f32⟩
  | 63 => ⟨S1638400x8x8, .f32⟩
  | 64 => ⟨S_, .f32⟩
  | 65 => ⟨S1638400x8, .f32⟩
  | 66 => ⟨S_, .f32⟩
  | 67 => ⟨S1638400x8, .f32⟩
  | 68 => ⟨S1638400x8, .f32⟩
  | 69 => ⟨S_, .f32⟩
  | 70 => ⟨S1638400, .f32⟩
  | 71 => ⟨S_, .f32⟩
  | 72 => ⟨S1638400, .f32⟩
  | 73 => ⟨S1638400, .f32⟩
  | 74 => ⟨S1638400x1, .f32⟩
  | 75 => ⟨S1638400x8, .f32⟩
  | 76 => ⟨S1638400x8, .f32⟩
  | 77 => ⟨S1638400x8, .f32⟩
  | 78 => ⟨S_, .f32⟩
  | 79 => ⟨S1638400, .f32⟩
  | 80 => ⟨S1638400x1, .f32⟩
  | 81 => ⟨S1638400x8, .f32⟩
  | 82 => ⟨S1638400x8, .f32⟩
  | 83 => ⟨S1638400x8x1, .f32⟩
  | 84 => ⟨S1638400x8x8, .f32⟩
  | 85 => ⟨S1638400x8x8, .f32⟩
  | 86 => ⟨S1638400x64, .f32⟩
  | 87 => ⟨S_, .i32⟩
  | 88 => ⟨S1638400, .i32⟩
  | 89 => ⟨S1638400, .i1⟩
  | 90 => ⟨S_, .i32⟩
  | 91 => ⟨S1638400, .i32⟩
  | 92 => ⟨S1638400, .i32⟩
  | 93 => ⟨S1638400, .i32⟩
  | 94 => ⟨S1638400x1, .i32⟩
  | 95 => ⟨S50000x64, .f32⟩
  | 96 => ⟨S50000x8x8, .f32⟩
  | 97 => ⟨S50000x8x8, .f32⟩
  | 98 => ⟨S_, .f32⟩
  | 99 => ⟨S50000x8, .f32⟩
  | 100 => ⟨S50000x8x1, .f32⟩
  | 101 => ⟨S50000x8x1, .f32⟩
  | 102 => ⟨S_, .f32⟩
  | 103 => ⟨S50000x8x1, .f32⟩
  | 104 => ⟨S50000x8x1, .f32⟩
  | 105 => ⟨S50000x8x8, .f32⟩
  | 106 => ⟨S50000x8x8, .f32⟩
  | 107 => ⟨S50000x64, .f32⟩
  | 108 => ⟨S_, .i32⟩
  | 109 => ⟨S1638400, .i32⟩
  | 110 => ⟨S1638400, .i1⟩
  | 111 => ⟨S_, .i32⟩
  | 112 => ⟨S1638400, .i32⟩
  | 113 => ⟨S1638400, .i32⟩
  | 114 => ⟨S1638400, .i32⟩
  | 115 => ⟨S1638400x1, .i32⟩
  | 116 => ⟨S1638400x64, .f32⟩
  | 117 => ⟨S1638400x8x8, .f32⟩
  | 118 => ⟨S1638400x8x8, .f32⟩
  | 119 => ⟨S_, .f32⟩
  | 120 => ⟨S1638400x8, .f32⟩
  | 121 => ⟨S_, .f32⟩
  | 122 => ⟨S1638400x8, .f32⟩
  | 123 => ⟨S1638400x8, .f32⟩
  | 124 => ⟨S_, .f32⟩
  | 125 => ⟨S1638400, .f32⟩
  | 126 => ⟨S_, .f32⟩
  | 127 => ⟨S1638400, .f32⟩
  | _ => ⟨S50000x256, .f32⟩

abbrev hbmTy0_1 (i : Nat) : BufTy := match i % 128 with
  | 0 => ⟨S1638400, .f32⟩
  | 1 => ⟨S1638400x1, .f32⟩
  | 2 => ⟨S1638400x8, .f32⟩
  | 3 => ⟨S1638400x8, .f32⟩
  | 4 => ⟨S1638400x8, .f32⟩
  | 5 => ⟨S_, .f32⟩
  | 6 => ⟨S1638400, .f32⟩
  | 7 => ⟨S1638400x1, .f32⟩
  | 8 => ⟨S1638400x8, .f32⟩
  | 9 => ⟨S1638400x8, .f32⟩
  | 10 => ⟨S1638400x8x1, .f32⟩
  | 11 => ⟨S1638400x8x8, .f32⟩
  | 12 => ⟨S1638400x8x8, .f32⟩
  | 13 => ⟨S1638400x64, .f32⟩
  | 14 => ⟨S_, .i32⟩
  | 15 => ⟨S1638400, .i32⟩
  | 16 => ⟨S1638400, .i1⟩
  | 17 => ⟨S_, .i32⟩
  | 18 => ⟨S1638400, .i32⟩
  | 19 => ⟨S1638400, .i32⟩
  | 20 => ⟨S1638400, .i32⟩
  | 21 => ⟨S1638400x1, .i32⟩
  | 22 => ⟨S50000x64, .f32⟩
  | 23 => ⟨S50000x8x8, .f32⟩
  | 24 => ⟨S50000x8x8, .f32⟩
  | 25 => ⟨S_, .f32⟩
  | 26 => ⟨S50000x8, .f32⟩
  | 27 => ⟨S50000x8x1, .f32⟩
  | 28 => ⟨S50000x8x1, .f32⟩
  | 29 => ⟨S_, .f32⟩
  | 30 => ⟨S50000x8x1, .f32⟩
  | 31 => ⟨S50000x8x1, .f32⟩
  | 32 => ⟨S50000x8x8, .f32⟩
  | 33 => ⟨S50000x8x8, .f32⟩
  | 34 => ⟨S50000x64, .f32⟩
  | 35 => ⟨S_, .i32⟩
  | 36 => ⟨S1638400, .i32⟩
  | 37 => ⟨S1638400, .i1⟩
  | 38 => ⟨S_, .i32⟩
  | 39 => ⟨S1638400, .i32⟩
  | 40 => ⟨S1638400, .i32⟩
  | 41 => ⟨S1638400, .i32⟩
  | 42 => ⟨S1638400x1, .i32⟩
  | 43 => ⟨S1638400x64, .f32⟩
  | 44 => ⟨S1638400x8x8, .f32⟩
  | 45 => ⟨S1638400x8x8, .f32⟩
  | 46 => ⟨S_, .f32⟩
  | 47 => ⟨S1638400x8, .f32⟩
  | 48 => ⟨S_, .f32⟩
  | 49 => ⟨S1638400x8, .f32⟩
  | 50 => ⟨S1638400x8, .f32⟩
  | 51 => ⟨S_, .f32⟩
  | 52 => ⟨S1638400, .f32⟩
  | 53 => ⟨S_, .f32⟩
  | 54 => ⟨S1638400, .f32⟩
  | 55 => ⟨S1638400, .f32⟩
  | 56 => ⟨S1638400x1, .f32⟩
  | 57 => ⟨S1638400x8, .f32⟩
  | 58 => ⟨S1638400x8, .f32⟩
  | 59 => ⟨S1638400x8, .f32⟩
  | 60 => ⟨S_, .f32⟩
  | 61 => ⟨S1638400, .f32⟩
  | 62 => ⟨S1638400x1, .f32⟩
  | 63 => ⟨S1638400x8, .f32⟩
  | 64 => ⟨S1638400x8, .f32⟩
  | 65 => ⟨S1638400x8x1, .f32⟩
  | 66 => ⟨S1638400x8x8, .f32⟩
  | 67 => ⟨S1638400x8x8, .f32⟩
  | 68 => ⟨S1638400x64, .f32⟩
  | 69 => ⟨S_, .i32⟩
  | 70 => ⟨S1638400, .i32⟩
  | 71 => ⟨S1638400, .i1⟩
  | 72 => ⟨S_, .i32⟩
  | 73 => ⟨S1638400, .i32⟩
  | 74 => ⟨S1638400, .i32⟩
  | 75 => ⟨S1638400, .i32⟩
  | 76 => ⟨S1638400x1, .i32⟩
  | 77 => ⟨S50000x64, .f32⟩
  | 78 => ⟨S50000x8x8, .f32⟩
  | 79 => ⟨S50000x8x8, .f32⟩
  | 80 => ⟨S_, .f32⟩
  | 81 => ⟨S50000x8, .f32⟩
  | 82 => ⟨S50000x8x1, .f32⟩
  | 83 => ⟨S50000x8x1, .f32⟩
  | 84 => ⟨S_, .f32⟩
  | 85 => ⟨S50000x8x1, .f32⟩
  | 86 => ⟨S50000x8x1, .f32⟩
  | 87 => ⟨S50000x8x8, .f32⟩
  | 88 => ⟨S50000x8x8, .f32⟩
  | 89 => ⟨S50000x64, .f32⟩
  | 90 => ⟨S_, .i32⟩
  | 91 => ⟨S1638400, .i32⟩
  | 92 => ⟨S1638400, .i1⟩
  | 93 => ⟨S_, .i32⟩
  | 94 => ⟨S1638400, .i32⟩
  | 95 => ⟨S1638400, .i32⟩
  | 96 => ⟨S1638400, .i32⟩
  | 97 => ⟨S1638400x1, .i32⟩
  | 98 => ⟨S1638400x64, .f32⟩
  | 99 => ⟨S1638400x8x8, .f32⟩
  | 100 => ⟨S1638400x8x8, .f32⟩
  | 101 => ⟨S_, .f32⟩
  | 102 => ⟨S1638400x8, .f32⟩
  | 103 => ⟨S_, .f32⟩
  | 104 => ⟨S1638400x8, .f32⟩
  | 105 => ⟨S1638400x8, .f32⟩
  | 106 => ⟨S_, .f32⟩
  | 107 => ⟨S1638400, .f32⟩
  | 108 => ⟨S_, .f32⟩
  | 109 => ⟨S1638400, .f32⟩
  | 110 => ⟨S1638400, .f32⟩
  | 111 => ⟨S1638400x1, .f32⟩
  | 112 => ⟨S1638400x8, .f32⟩
  | 113 => ⟨S1638400x8, .f32⟩
  | 114 => ⟨S1638400x8, .f32⟩
  | 115 => ⟨S_, .f32⟩
  | 116 => ⟨S1638400, .f32⟩
  | 117 => ⟨S1638400x1, .f32⟩
  | 118 => ⟨S1638400x8, .f32⟩
  | 119 => ⟨S1638400x8, .f32⟩
  | 120 => ⟨S1638400x8x1, .f32⟩
  | 121 => ⟨S1638400x8x8, .f32⟩
  | 122 => ⟨S1638400x8x8, .f32⟩
  | 123 => ⟨S1638400x64, .f32⟩
  | 124 => ⟨S_, .i32⟩
  | 125 => ⟨S1638400, .i32⟩
  | 126 => ⟨S1638400, .i1⟩
  | 127 => ⟨S_, .i32⟩
  | _ => ⟨S50000x256, .f32⟩

abbrev hbmTy0_2 (i : Nat) : BufTy := match i % 128 with
  | 0 => ⟨S1638400, .i32⟩
  | 1 => ⟨S1638400, .i32⟩
  | 2 => ⟨S1638400, .i32⟩
  | 3 => ⟨S1638400x1, .i32⟩
  | 4 => ⟨S50000x64, .f32⟩
  | 5 => ⟨S50000x8x8, .f32⟩
  | 6 => ⟨S50000x8x8, .f32⟩
  | 7 => ⟨S_, .f32⟩
  | 8 => ⟨S50000x8, .f32⟩
  | 9 => ⟨S50000x8x1, .f32⟩
  | 10 => ⟨S50000x8x1, .f32⟩
  | 11 => ⟨S_, .f32⟩
  | 12 => ⟨S50000x8x1, .f32⟩
  | 13 => ⟨S50000x8x1, .f32⟩
  | 14 => ⟨S50000x8x8, .f32⟩
  | 15 => ⟨S50000x8x8, .f32⟩
  | 16 => ⟨S50000x64, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_v37 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_11 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_15 : Ref sig .tc := ⟨.hbm, 108, rfl⟩
abbrev main_v81 : Ref sig .tc := ⟨.hbm, 109, rfl⟩
abbrev main_v82 : Ref sig .tc := ⟨.hbm, 110, rfl⟩
abbrev main_c_16 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_17 : Ref sig .tc := ⟨.hbm, 119, rfl⟩
abbrev main_v90 : Ref sig .tc := ⟨.hbm, 120, rfl⟩
abbrev main_cst_18 : Ref sig .tc := ⟨.hbm, 121, rfl⟩
abbrev main_v91 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_cst_20 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_21 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_22 : Ref sig .tc := ⟨.hbm, 142, rfl⟩
abbrev main_v108 : Ref sig .tc := ⟨.hbm, 143, rfl⟩
abbrev main_v109 : Ref sig .tc := ⟨.hbm, 144, rfl⟩
abbrev main_c_23 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_24 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_25 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_c_26 : Ref sig .tc := ⟨.hbm, 163, rfl⟩
abbrev main_v125 : Ref sig .tc := ⟨.hbm, 164, rfl⟩
abbrev main_v126 : Ref sig .tc := ⟨.hbm, 165, rfl⟩
abbrev main_c_27 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_28 : Ref sig .tc := ⟨.hbm, 174, rfl⟩
abbrev main_v134 : Ref sig .tc := ⟨.hbm, 175, rfl⟩
abbrev main_cst_29 : Ref sig .tc := ⟨.hbm, 176, rfl⟩
abbrev main_v135 : Ref sig .tc := ⟨.hbm, 177, rfl⟩
abbrev main_v136 : Ref sig .tc := ⟨.hbm, 178, rfl⟩
abbrev main_cst_30 : Ref sig .tc := ⟨.hbm, 179, rfl⟩
abbrev main_v137 : Ref sig .tc := ⟨.hbm, 180, rfl⟩
abbrev main_cst_31 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_32 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_c_33 : Ref sig .tc := ⟨.hbm, 197, rfl⟩
abbrev main_v152 : Ref sig .tc := ⟨.hbm, 198, rfl⟩
abbrev main_v153 : Ref sig .tc := ⟨.hbm, 199, rfl⟩
abbrev main_c_34 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_cst_35 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_cst_36 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_c_37 : Ref sig .tc := ⟨.hbm, 218, rfl⟩
abbrev main_v169 : Ref sig .tc := ⟨.hbm, 219, rfl⟩
abbrev main_v170 : Ref sig .tc := ⟨.hbm, 220, rfl⟩
abbrev main_c_38 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_cst_39 : Ref sig .tc := ⟨.hbm, 229, rfl⟩
abbrev main_v178 : Ref sig .tc := ⟨.hbm, 230, rfl⟩
abbrev main_cst_40 : Ref sig .tc := ⟨.hbm, 231, rfl⟩
abbrev main_v179 : Ref sig .tc := ⟨.hbm, 232, rfl⟩
abbrev main_v180 : Ref sig .tc := ⟨.hbm, 233, rfl⟩
abbrev main_cst_41 : Ref sig .tc := ⟨.hbm, 234, rfl⟩
abbrev main_v181 : Ref sig .tc := ⟨.hbm, 235, rfl⟩
abbrev main_cst_42 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_cst_43 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_c_44 : Ref sig .tc := ⟨.hbm, 252, rfl⟩
abbrev main_v196 : Ref sig .tc := ⟨.hbm, 253, rfl⟩
abbrev main_v197 : Ref sig .tc := ⟨.hbm, 254, rfl⟩
abbrev main_c_45 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_cst_46 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_cst_47 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩

abbrev nD : Nat := 1
abbrev τ : Topo := Topo.v7x

variable {F : FTy → Type} [FloatOps F]

class Facts₀ : Prop where
  slices_S2x1638400_S1x1638400_0_0 : S2x1638400.Slices ![0, 0] S1x1638400
  shapeCasts_S1x1638400_S1638400 : S1x1638400.ShapeCasts S1638400
  slices_S2x1638400_S1x1638400_1_0 : S2x1638400.Slices ![1, 0] S1x1638400
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  shapeCasts_S50000x64_S50000x8x8 : S50000x64.ShapeCasts S50000x8x8
  reducesTo_S50000x8x8_S50000x8_d2 : S50000x8x8.ReducesTo [2] S50000x8
  h_S_ : 0 < S_.numel
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x8_0_1_2 : S50000x8x1.BroadcastsInDim S50000x8x8 (![0, 1, 2] : Fin 3 → Fin S50000x8x8.rank)
  shapeCasts_S50000x8x8_S50000x64 : S50000x8x8.ShapeCasts S50000x64
  bcast_S_S1638400 : S_.BroadcastsInDim S1638400 (![] : Fin 0 → Fin S1638400.rank)
  bcast_S1638400_S1638400x1_0 : S1638400.BroadcastsInDim S1638400x1 (![0] : Fin 1 → Fin S1638400x1.rank)
  shapeCasts_S1638400x64_S1638400x8x8 : S1638400x64.ShapeCasts S1638400x8x8
  reducesTo_S1638400x8x8_S1638400x8_d2 : S1638400x8x8.ReducesTo [2] S1638400x8
  bcast_S_S1638400x8 : S_.BroadcastsInDim S1638400x8 (![] : Fin 0 → Fin S1638400x8.rank)
  reducesTo_S1638400x8_S1638400_d1 : S1638400x8.ReducesTo [1] S1638400
  bcast_S1638400x1_S1638400x8_0_1 : S1638400x1.BroadcastsInDim S1638400x8 (![0, 1] : Fin 2 → Fin S1638400x8.rank)
  bcast_S1638400x8_S1638400x8x1_0_1 : S1638400x8.BroadcastsInDim S1638400x8x1 (![0, 1] : Fin 2 → Fin S1638400x8x1.rank)
  bcast_S1638400x8x1_S1638400x8x8_0_1_2 : S1638400x8x1.BroadcastsInDim S1638400x8x8 (![0, 1, 2] : Fin 3 → Fin S1638400x8x8.rank)
  shapeCasts_S1638400x8x8_S1638400x64 : S1638400x8x8.ShapeCasts S1638400x64
  dot_S50000x256_S256x64_S50000x64_1_0_0_1_n_n_wf : DotDims.WF S50000x256 S256x64 S50000x64 [1] [0] [0] [1] [] []
  gather_S50000x64_S1638400x1_S1638400x64_1_0_n_n_0_1_164_wf : GatherDims.WF S50000x64 S1638400x1 S1638400x64 [1] [0] [] [0] [] 1 ![1, 64]
  scatter_S50000x64_S1638400x1_S1638400x64_1_0_0_1_wf : ScatterDims.WF S50000x64 S1638400x1 S1638400x64 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S1638400x1_S1638400x64_1_0_n_n_0_1_164 : GatherDims S50000x64 S1638400x1 S1638400x64 where
  offsetDims := [1]
  collapsedSliceDims := [0]
  operandBatchingDims := []
  startIndicesBatchingDims := []
  startIndexMap := [0]
  indexVectorDim := 1
  sliceSizes := ![1, 64]
  wf := gather_S50000x64_S1638400x1_S1638400x64_1_0_n_n_0_1_164_wf
def scatter_S50000x64_S1638400x1_S1638400x64_1_0_0_1 : ScatterDims S50000x64 S1638400x1 S1638400x64 where
  updateWindowDims := [1]
  insertedWindowDims := [0]
  scatterDimsToOperandDims := [0]
  indexVectorDim := 1
  wf := scatter_S50000x64_S1638400x1_S1638400x64_1_0_0_1_wf

class Facts : Prop extends Facts₀ where

variable [Facts]
-- ==== Proof.Caps.lean ====
/-
  The mathematics both programs compute, stated once over the extended reals.

  A node's feature row has 64 lanes, read as 8 capsules of 8 entries: lane 8k+d is entry d of capsule k.
  * `normRow`: every capsule divided by the larger of its Euclidean length and a small constant.
  * `leaky`: x where x ≥ 0, a fixed slope times x elsewhere.
  * `denseRow`: a row of x times the weight matrix, plus the bias, through `leaky`, capsule-normalised twice.
  * `routeRow`: for an edge with source row z and target row ct, the per-capsule inner products ⟨z_k, ct_k⟩,
    a softmax of those over the 8 capsules, and each capsule of z scaled by its softmax weight.
  The array forms apply the row forms to every row.
-/
import Idealize.ShloMosaic.PureOps.Ideal
import Idealize.ShloMosaic.PureOps.Ideal.Laws
import Idealize.ShloMosaic.Lib.ValueIdx

noncomputable section

namespace Cert.Caps

open Idealize.ShloMosaic Idealize.ShloMosaic.ValueIdx

/-- Lane `8k + d`: entry `d` of capsule `k`. -/
def lane (k d : Fin 8) : Fin 64 := ⟨8 * k.val + d.val, by omega⟩

/-- The capsule a lane belongs to. -/
def capOf (j : Fin 64) : Fin 8 := ⟨j.val / 8, by omega⟩

theorem lane_capOf (j : Fin 64) : lane (capOf j) ⟨j.val % 8, Nat.mod_lt _ (by decide)⟩ = j := by
  apply Fin.ext; simp only [lane, capOf]; omega

theorem capOf_lane (k d : Fin 8) : capOf (lane k d) = k := by
  apply Fin.ext; simp only [lane, capOf]; omega

/-- The floor under a capsule's length (the printed word of 1e-12). -/
abbrev epsE : EReal := Ideal.ofBits .f32 0x2B8CBCCC#32
/-- The slope on the negative side (the printed word of 0.01). -/
abbrev slopeE : EReal := Ideal.ofBits .f32 0x3C23D70A#32
/-- The temperature the scores are divided by (the printed word of 1). -/
abbrev tauE : EReal := Ideal.ofBits .f32 0x3F800000#32
/-- The starting value of a maximum (the printed word of -∞). -/
abbrev ninfE : EReal := Ideal.ofBits .f32 0xFF800000#32
/-- The printed zero word. -/
abbrev zeroE : EReal := Ideal.ofBits .f32 0x00000000#32

/-- The squared length of capsule `k` of a row. -/
def capSq (v : Fin 64 → EReal) (k : Fin 8) : EReal := ∑ d : Fin 8, v (lane k d) * v (lane k d)

/-- Every capsule over the larger of its length and the floor. -/
def normRow (v : Fin 64 → EReal) : Fin 64 → EReal := fun j =>
  Ideal.div (v j) (max (Ideal.sqrt (capSq v (capOf j))) epsE)

/-- `x` where `x ≥ 0`, the slope times `x` elsewhere. -/
def leaky (a : EReal) : EReal :=
  Scalar.select (Ideal.cmp .oge a zeroE) a (slopeE * a)

/-- One row of the dense stage: `x·W + b`, `leaky`, then two capsule normalisations. -/
def denseRow (xr : Fin 256 → EReal) (w : Fin 256 → Fin 64 → EReal) (b : Fin 64 → EReal) : Fin 64 → EReal :=
  normRow (normRow fun j => leaky ((∑ k : Fin 256, xr k * w k j) + b j))

/-- The score of capsule `k` on an edge: the inner product of the two rows' capsules, over the temperature. -/
def score (z ct : Fin 64 → EReal) (k : Fin 8) : EReal :=
  Ideal.div (∑ d : Fin 8, z (lane k d) * ct (lane k d)) tauE

/-- The largest score (a maximum started at -∞, and taken against -∞ once more as both programs do). -/
def scoreMax (p : Fin 8 → EReal) : EReal := max ninfE ((Finset.univ : Finset (Fin 8)).fold max ninfE p)

/-- The softmax weight of capsule `k`. -/
def weight (p : Fin 8 → EReal) (k : Fin 8) : EReal :=
  Ideal.div (Ideal.exp (p k - scoreMax p)) (∑ k' : Fin 8, Ideal.exp (p k' - scoreMax p))

/-- One edge's message: each capsule of the source row scaled by its softmax weight. -/
def routeRow (z ct : Fin 64 → EReal) : Fin 64 → EReal := fun j =>
  weight (score z ct) (capOf j) * z j

/-- A two-dimensional array of extended reals. -/
abbrev Arr (n k : Nat) := (⟨2, ![n, k]⟩ : Shape).Idx → EReal

/-- Row `i` of an array. -/
def rowOf {n k : Nat} (A : Arr n k) (i : Fin n) : Fin k → EReal := fun q => A (ix2 i q)

/-- Every row capsule-normalised. -/
def normArr {n : Nat} (A : Arr n 64) : Arr n 64 := fun i => normRow (rowOf A (i 0)) (i 1)

/-- Every edge's message from its source row and target row. -/
def routeArr {n : Nat} (Z CT : Arr n 64) : Arr n 64 := fun i => routeRow (rowOf Z (i 0)) (rowOf CT (i 0)) (i 1)

/-- Every row through the dense stage. -/
def denseArr {n : Nat} (X : Arr n 256) (W : Arr 256 64) (b : Fin 64 → EReal) : Arr n 64 :=
  fun i => denseRow (rowOf X (i 0)) (fun k j => W (ix2 k j)) b (i 1)

theorem normArr_apply {n : Nat} (A : Arr n 64) (i : Fin n) (q : Fin 64) :
    normArr A (ix2 i q) = normRow (rowOf A i) q := rfl

theorem routeArr_apply {n : Nat} (Z CT : Arr n 64) (i : Fin n) (q : Fin 64) :
    routeArr Z CT (ix2 i q) = routeRow (rowOf Z i) (rowOf CT i) q := rfl

theorem denseArr_apply {n : Nat} (X : Arr n 256) (W : Arr 256 64) (b : Fin 64 → EReal) (i : Fin n) (q : Fin 64) :
    denseArr X W b (ix2 i q) = denseRow (rowOf X i) (fun k j => W (ix2 k j)) b q := rfl

end Cert.Caps

end
-- ==== Proof.KerChains.lean ====
/-
  The kernel program's host operations between its nine kernel regions, grouped into the functions they compose
  to, and the whole program's result as one term: the dense stage's rows, the source rows taken once, and four
  rounds of take, messages, accumulating scatter, normalisation. The three kinds of region enter as the row-by-row
  array functions of the specification; the host side is listed operation by operation.
  A take is a gather guarded by a range test: where the prepared index lies outside the rows it answers a fixed
  word instead of a row.
-/
import proofs.«413496_j69939247448112_2_alg».proof.KernelIdeal
import proofs.«413496_j69939247448112_2_alg».proof.Proof.Gen.KernelIdeal
import proofs.«413496_j69939247448112_2_alg».proof.Proof.Caps
import Idealize.ShloMosaic.PureOps.Ideal

noncomputable section

namespace Cert.KernelIdeal.Chains

open Idealize.ShloMosaic Idealize.ShloMosaic.ValueIdx Cert.KernelIdeal Cert.KernelIdeal.Facts₀

/-- The index preparation before every gather and scatter: a negative index has the row count added;
    the result as a column of one-entry index vectors. -/
def wrap (idx : IVec S1638400 32) : IVec S1638400x1 32 :=
  let z : IVec S1638400 32 := broadcastInDim S1638400 ![] bcast_S_S1638400 (constantI S_ 32 0#32)
  let lt : IVec S1638400 1 := cmpi .slt idx z
  let n : IVec S1638400 32 := broadcastInDim S1638400 ![] bcast_S_S1638400 (constantI S_ 32 50000#32)
  let up : IVec S1638400 32 := addi idx n
  let w : IVec S1638400 32 := select lt up idx
  broadcastInDim S1638400x1 ![0] bcast_S1638400_S1638400x1_0 w

/-- The range test of a take: the prepared index is at least 0 and at most the last row, per edge. -/
def inRange (i : IVec S1638400x1 32) : IVec S1638400 1 :=
  let z : IVec S1638400x1 32 := broadcastInDim S1638400x1 ![] bcast_S_S1638400x1 (constantI S_ 32 0#32)
  let ge : IVec S1638400x1 1 := cmpi .sge i z
  let l1 : IVec S1x1 32 := broadcastInDim S1x1 ![1] bcast_S1_S1x1_1 (constantI S1 32 49999#32)
  let l : IVec S1638400x1 32 := broadcastInDim S1638400x1 ![0, 1] bcast_S1x1_S1638400x1_0_1 l1
  let le : IVec S1638400x1 1 := cmpi .sle i l
  let both : IVec S1638400x1 1 := andi ge le
  Host.reduce IntOp.andi both (constantI S_ 1 1#1) reducesTo_S1638400x1_S1638400_d1 h_S_

/-- The rows of `A` at the prepared indices. -/
def rowsAt (A : FVec Ideal S50000x64 .f32) (i : IVec S1638400x1 32) : FVec Ideal S1638400x64 .f32 :=
  Host.gather gather_S50000x64_S1638400x1_S1638400x64_1_0_n_n_0_1_164 A i

/-- A take: the row at the prepared index where it is in range, a fixed word elsewhere. -/
def take (A : FVec Ideal S50000x64 .f32) (idx : IVec S1638400 32) : FVec Ideal S1638400x64 .f32 :=
  let i : IVec S1638400x1 32 := wrap idx
  let ok : IVec S1638400 1 := inRange i
  let g : FVec Ideal S1638400x64 .f32 := rowsAt A i
  let ok64 : IVec S1638400x64 1 := broadcastInDim S1638400x64 ![0] bcast_S1638400_S1638400x64_0 ok
  let fill : FVec Ideal S1638400x64 .f32 := broadcastInDim S1638400x64 ![] bcast_S_S1638400x64 (constant S_ .f32 0x7FC00000#32)
  select ok64 g fill

/-- `c` with every message added to its target's row. -/
def addAt (c : FVec Ideal S50000x64 .f32) (i : IVec S1638400x1 32) (u : FVec Ideal S1638400x64 .f32) : FVec Ideal S50000x64 .f32 :=
  Host.scatterAdd scatter_S50000x64_S1638400x1_S1638400x64_1_0_0_1 c i u

/-- Row 0 of the edge list: the target node of every edge. -/
def trgOf (st : IVec S2x1638400 32) : IVec S1638400 32 :=
  shapeCast S1638400 (extractStridedSlice S1x1638400 ![0, 0] st slices_S2x1638400_S1x1638400_0_0) shapeCasts_S1x1638400_S1638400

/-- Row 1 of the edge list: the source node of every edge. -/
def srcOf (st : IVec S2x1638400 32) : IVec S1638400 32 :=
  shapeCast S1638400 (extractStridedSlice S1x1638400 ![1, 0] st slices_S2x1638400_S1x1638400_1_0) shapeCasts_S1x1638400_S1638400

/-- The bias as the one-row array the dense kernel's window stages. -/
def biasRow (b : FVec Ideal S64 .f32) : FVec Ideal S1x64 .f32 := shapeCast S1x64 b shapeCasts_S64_S1x64

/-- One routing round from the node features `c`, with the source rows `Z` fixed. -/
def round (Z : FVec Ideal S1638400x64 .f32) (trg : IVec S1638400 32) (c : FVec Ideal S50000x64 .f32) : FVec Ideal S50000x64 .f32 :=
  Caps.normArr (addAt c (wrap trg) (Caps.routeArr Z (take c trg)))

/-- The dense stage as the kernel's first region leaves it. -/
def dense (x : FVec Ideal S50000x256 .f32) (w : FVec Ideal S256x64 .f32) (b : FVec Ideal S64 .f32) : FVec Ideal S50000x64 .f32 :=
  Caps.denseArr x w (fun j => biasRow b (ix2 0 j))

/-- The whole kernel program's result. -/
def final (x : FVec Ideal S50000x256 .f32) (st : IVec S2x1638400 32) (w : FVec Ideal S256x64 .f32) (b : FVec Ideal S64 .f32) :
    FVec Ideal S50000x64 .f32 :=
  let h := dense x w b
  let Z := take h (srcOf st)
  round Z (trgOf st) (round Z (trgOf st) (round Z (trgOf st) (round Z (trgOf st) h)))

end Cert.KernelIdeal.Chains

end
-- ==== Proof.PayDense.lean ====
/-
  The dense kernel's body at one entry: what it stores at row p, lane q of its block is the dense stage of the
  x block's row p (product with the whole weight matrix, bias, slope, two capsule normalisations) at lane q.
-/
import proofs.«413496_j69939247448112_2_alg».proof.Proof.Gen.KernelIdeal.Skeleton
import proofs.«413496_j69939247448112_2_alg».proof.Proof.Caps
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

namespace Dense

/-! ## The layout operations of the capsule normalisation, read at coordinates -/

/-- Cutting the 64 lanes of a row into 8 capsules of 8: entry (p, k, d) of the cut array is entry (p, 8k + d). -/
theorem split_apply (v : FVec Ideal S1000x64 .f32) (p : Fin 1000) (k d : Fin 8) :
    shapeCast S1000x8x8 v shapeCasts_S1000x64_S1000x8x8 (ix3 p k d) = v (ix2 p (Caps.lane k d)) := by
  refine shapeCast_apply v _ (ix3 p k d) (ix2 p (Caps.lane k d)) ?_
  rw [Shape.rowMajor_val_two, Shape.rowMajor_val_three]
  show p.val * 64 + (8 * k.val + d.val) = (p.val * 8 + k.val) * 8 + d.val
  omega

/-- Joining the capsules back: entry (p, q) of the joined array is entry (p, q / 8, q % 8). -/
theorem merge_apply (v : FVec Ideal S1000x8x8 .f32) (p : Fin 1000) (q : Fin 64) :
    shapeCast S1000x64 v shapeCasts_S1000x8x8_S1000x64 (ix2 p q)
      = v (ix3 p (Caps.capOf q) (⟨q.val % 8, Nat.mod_lt _ (by decide)⟩ : Fin 8)) := by
  refine shapeCast_apply v _ (ix2 p q) (ix3 p (Caps.capOf q) (⟨q.val % 8, Nat.mod_lt _ (by decide)⟩ : Fin 8)) ?_
  rw [Shape.rowMajor_val_two, Shape.rowMajor_val_three]
  show (p.val * 8 + q.val / 8) * 8 + q.val % 8 = p.val * 64 + q.val
  omega

/-- A [1000,8] array given a trailing unit axis: entry (p, k, 0) is entry (p, k). -/
theorem col_apply (v : FVec Ideal S1000x8 .f32) (p : Fin 1000) (k : Fin 8) (z : Fin 1) :
    shapeCast S1000x8x1 v shapeCasts_S1000x8_S1000x8x1 (ix3 p k z) = v (ix2 p k) := by
  refine shapeCast_apply v _ (ix3 p k z) (ix2 p k) ?_
  rw [Shape.rowMajor_val_two, Shape.rowMajor_val_three]
  show p.val * 8 + k.val = (p.val * 8 + k.val) * 1 + z.val
  omega

/-- One number per capsule copied along the capsule's 8 lanes: entry (p, k, d) is entry (p, k, 0). -/
theorem spread_apply (v : FVec Ideal S1000x8x1 .f32) (p : Fin 1000) (k d : Fin 8) :
    broadcastTo S1000x8x8 v broadcasts_S1000x8x1_S1000x8x8 (ix3 p k d) = v (ix3 p k (0 : Fin 1)) := by
  refine broadcastTo_apply v _ (ix3 p k d) (ix3 p k (0 : Fin 1)) fun a => ?_
  match a with
  | ⟨0, _⟩ => rfl
  | ⟨1, _⟩ => rfl
  | ⟨2, _⟩ => rfl

/-- The sum over a capsule's lanes: entry (p, k) of the reduced array is the sum over d of entry (p, k, d). -/
theorem laneSum_apply (v : FVec Ideal S1000x8x8 .f32) (p : Fin 1000) (k : Fin 8) (hφ : FKind.Formats .f32)
    (hacc : (0x00000000#32 : BitVec 32) = 0x00000000#32) :
    multiReduction (F := Ideal) .add [2] S1000x8 v 0x00000000#32 reduces_S1000x8x8_S1000x8 hφ hacc (ix2 p k)
      = ∑ d : Fin 8, v (ix3 p k d) := by
  refine (Ideal.multiReduction_add_single v 0x00000000#32 reduces_S1000x8x8_S1000x8 hφ hacc (ix2 p k)).trans ?_
  refine Finset.sum_congr rfl fun d _ => congrArg v (funext fun a => Fin.ext ?_)
  match a with
  | ⟨0, _⟩ => rfl
  | ⟨1, _⟩ => rfl
  | ⟨2, _⟩ => rfl

/-- The squared length of capsule k of row p, as the kernel computes it: cut, square, sum the lanes, add a unit axis. -/
theorem capSq_apply (v : FVec Ideal S1000x64 .f32) (p : Fin 1000) (k : Fin 8) (z : Fin 1) (hφ : FKind.Formats .f32)
    (hacc : (0x00000000#32 : BitVec 32) = 0x00000000#32) :
    shapeCast S1000x8x1
        (multiReduction (F := Ideal) .add [2] S1000x8
          (mulf (shapeCast S1000x8x8 v shapeCasts_S1000x64_S1000x8x8) (shapeCast S1000x8x8 v shapeCasts_S1000x64_S1000x8x8))
          0x00000000#32 reduces_S1000x8x8_S1000x8 hφ hacc)
        shapeCasts_S1000x8_S1000x8x1 (ix3 p k z)
      = Caps.capSq (fun q' => v (ix2 p q')) k := by
  rw [col_apply]
  refine (laneSum_apply _ p k hφ hacc).trans ?_
  unfold Caps.capSq
  refine Finset.sum_congr rfl fun d _ => ?_
  rw [mulf_apply, split_apply]

/-- The nine operations of one capsule normalisation, on a [1000,64] block. -/
def normOps (v : FVec Ideal S1000x64 .f32) : FVec Ideal S1000x64 .f32 :=
  shapeCast S1000x64
    (divf (shapeCast S1000x8x8 v shapeCasts_S1000x64_S1000x8x8)
      (broadcastTo S1000x8x8
        (maximumf
          (sqrt (shapeCast S1000x8x1
            (multiReduction (F := Ideal) .add [2] S1000x8
              (mulf (shapeCast S1000x8x8 v shapeCasts_S1000x64_S1000x8x8) (shapeCast S1000x8x8 v shapeCasts_S1000x64_S1000x8x8))
              0x00000000#32 reduces_S1000x8x8_S1000x8 (.inl rfl) rfl)
            shapeCasts_S1000x8_S1000x8x1))
          (broadcast S1000x8x1 (Scalar.ofBits .f32 0x2B8CBCCC#32)))
        broadcasts_S1000x8x1_S1000x8x8))
    shapeCasts_S1000x8x8_S1000x64

/-- At (p, q) they give the capsule-normalised row p at lane q. -/
theorem normOps_apply (v : FVec Ideal S1000x64 .f32) (p : Fin 1000) (q : Fin 64) :
    normOps v (ix2 p q) = Caps.normRow (fun q' => v (ix2 p q')) q := by
  unfold normOps
  rw [merge_apply, divf_apply, split_apply, spread_apply, maximumf_apply, broadcast_apply, Caps.lane_capOf]
  unfold Caps.normRow
  exact congrArg (fun t => Ideal.div (v (ix2 p q)) (max (Ideal.sqrt t) Caps.epsE)) (capSq_apply v p (Caps.capOf q) 0 _ _)

/-! ## The product with the weight matrix -/

/-- The left operand's row coordinate is the result's row. -/
theorem lhs_dense_0 (i : S1000x64.Idx) (c : dot_S1000x256_S256x64_S1000x64_1_0_0_1_n_n.contr.Idx) :
    (dot_S1000x256_S256x64_S1000x64_1_0_0_1_n_n.lhsIdx i c 0).val = (i 0).val := by
  unfold DotDims.lhsIdx
  rw [dif_neg (show ¬(0 : Fin S1000x256.rank) ∈ dot_S1000x256_S256x64_S1000x64_1_0_0_1_n_n.lhsBatch by decide),
    dif_pos (show (0 : Fin S1000x256.rank) ∈ dot_S1000x256_S256x64_S1000x64_1_0_0_1_n_n.lhsNonContracting by decide)]
  rfl

/-- The left operand's column coordinate is the contraction position. -/
theorem lhs_dense_1 (i : S1000x64.Idx) (c : dot_S1000x256_S256x64_S1000x64_1_0_0_1_n_n.contr.Idx) :
    (dot_S1000x256_S256x64_S1000x64_1_0_0_1_n_n.lhsIdx i c 1).val = (c ⟨0, by decide⟩).val :=
  dot_S1000x256_S256x64_S1000x64_1_0_0_1_n_n.lhsIdx_val_of_single rfl i c

/-- The right operand's row coordinate is the contraction position. -/
theorem rhs_dense_0 (i : S1000x64.Idx) (c : dot_S1000x256_S256x64_S1000x64_1_0_0_1_n_n.contr.Idx) :
    (dot_S1000x256_S256x64_S1000x64_1_0_0_1_n_n.rhsIdx i c 0).val = (c ⟨0, by decide⟩).val :=
  dot_S1000x256_S256x64_S1000x64_1_0_0_1_n_n.rhsIdx_val_of_single rfl i c

/-- The right operand's column coordinate is the result's column. -/
theorem rhs_dense_1 (i : S1000x64.Idx) (c : dot_S1000x256_S256x64_S1000x64_1_0_0_1_n_n.contr.Idx) :
    (dot_S1000x256_S256x64_S1000x64_1_0_0_1_n_n.rhsIdx i c 1).val = (i 1).val := by
  unfold DotDims.rhsIdx
  rw [dif_neg (show ¬(1 : Fin S256x64.rank) ∈ dot_S1000x256_S256x64_S1000x64_1_0_0_1_n_n.rhsBatch by decide),
    dif_pos (show (1 : Fin S256x64.rank) ∈ dot_S1000x256_S256x64_S1000x64_1_0_0_1_n_n.rhsNonContracting by decide)]
  rfl

/-- The matrix product into a zero accumulator, at (p, q): the sum over k of x[p,k] · w[k,q]. -/
theorem matmul_dense_apply (x : FVec Ideal S1000x256 .bf16) (w : FVec Ideal S256x64 .bf16) (p : Fin 1000) (q : Fin 64) :
    matmul dot_S1000x256_S256x64_S1000x64_1_0_0_1_n_n none x w (constant (F := Ideal) S1000x64 .f32 0x00000000#32) (ix2 p q)
      = ∑ k : Fin 256, x (ix2 p k) * w (ix2 k q) := by
  refine (Ideal.matmul_constant_zero_apply dot_S1000x256_S256x64_S1000x64_1_0_0_1_n_n none x w (ix2 p q)).trans ?_
  rw [← Equiv.sum_comp (contrEquiv1 dot_S1000x256_S256x64_S1000x64_1_0_0_1_n_n 256 rfl rfl).symm]
  refine Finset.sum_congr rfl fun k _ => ?_
  have hk := contrEquiv1_symm_val dot_S1000x256_S256x64_S1000x64_1_0_0_1_n_n 256 rfl rfl k
  have el : dot_S1000x256_S256x64_S1000x64_1_0_0_1_n_n.lhsIdx (ix2 p q)
      ((contrEquiv1 dot_S1000x256_S256x64_S1000x64_1_0_0_1_n_n 256 rfl rfl).symm k) = ix2 p k :=
    funext fun a => Fin.ext (by
      match a with
      | ⟨0, _⟩ => exact lhs_dense_0 _ _
      | ⟨1, _⟩ => exact (lhs_dense_1 _ _).trans hk)
  have er : dot_S1000x256_S256x64_S1000x64_1_0_0_1_n_n.rhsIdx (ix2 p q)
      ((contrEquiv1 dot_S1000x256_S256x64_S1000x64_1_0_0_1_n_n 256 rfl rfl).symm k) = ix2 k q :=
    funext fun a => Fin.ext (by
      match a with
      | ⟨0, _⟩ => exact (rhs_dense_0 _ _).trans hk
      | ⟨1, _⟩ => exact rhs_dense_1 _ _)
  rw [el, er]

/-! ## The value before the normalisations -/

/-- The product of the x block with the weight matrix plus the bias row laid along every row. -/
def affOps (x : Vec Ideal S1000x256 .f32) (w : Vec Ideal S256x64 .f32) (b : Vec Ideal S1x64 .f32) : FVec Ideal S1000x64 .f32 :=
  addf
    (matmul dot_S1000x256_S256x64_S1000x64_1_0_0_1_n_n none (truncf .bf16 x bitsLt_bf16_f32) (truncf .bf16 w bitsLt_bf16_f32)
      (constant (F := Ideal) S1000x64 .f32 0x00000000#32))
    (broadcastTo S1000x64 (shapeCast S1x64 b shapeCasts_S1x64_S1x64) broadcasts_S1x64_S1000x64)

/-- At (p, q): the sum over k of x[p,k] · w[k,q], plus b[q] (the narrowing of the operands changes nothing on exact values). -/
theorem affOps_apply (x : Vec Ideal S1000x256 .f32) (w : Vec Ideal S256x64 .f32) (b : Vec Ideal S1x64 .f32) (p : Fin 1000) (q : Fin 64) :
    affOps x w b (ix2 p q) = (∑ k : Fin 256, x (ix2 p k) * w (ix2 k q)) + b (ix2 0 q) := by
  unfold affOps
  rw [addf_apply, matmul_dense_apply, broadcastTo_1b_ab_apply, shapeCast_self]
  rfl

/-- The slope applied to it: the value itself where it is at least zero, the slope times it elsewhere. -/
def preOps (x : Vec Ideal S1000x256 .f32) (w : Vec Ideal S256x64 .f32) (b : Vec Ideal S1x64 .f32) : FVec Ideal S1000x64 .f32 :=
  select (cmpf .oge (affOps x w b) (broadcast S1000x64 (Scalar.ofBits .f32 0x00000000#32))) (affOps x w b)
    (mulf (broadcast S1000x64 (Scalar.ofBits .f32 0x3C23D70A#32)) (affOps x w b))

/-- At (p, q): `leaky` of the affine value. -/
theorem preOps_apply (x : Vec Ideal S1000x256 .f32) (w : Vec Ideal S256x64 .f32) (b : Vec Ideal S1x64 .f32) (p : Fin 1000) (q : Fin 64) :
    preOps x w b (ix2 p q) = Caps.leaky ((∑ k : Fin 256, x (ix2 p k) * w (ix2 k q)) + b (ix2 0 q)) := by
  unfold preOps
  rw [select_apply, cmpf_apply, mulf_apply, broadcast_apply, broadcast_apply, affOps_apply]
  rfl

/-! ## The payload -/

/-- The payload is the slope-activated affine value, capsule-normalised twice: the printed operations, grouped. -/
theorem k0_pay1_eq (x : Vec Ideal S1000x256 .f32) (w : Vec Ideal S256x64 .f32) (b : Vec Ideal S1x64 .f32) :
    k0_pay1 (F := Ideal) x w b = normOps (normOps (preOps x w b)) := rfl

end Dense

/-- Row p, lane q of the payload is the dense stage of row p of x at lane q: the two normalisations are read
    row by row from the outside in, and what is left is the slope-activated affine value of the row. -/
theorem dense0 (x : Vec Ideal S1000x256 .f32) (w : Vec Ideal S256x64 .f32) (b : Vec Ideal S1x64 .f32) (p : Fin 1000) (q : Fin 64) :
    k0_pay1 (F := Ideal) x w b (ix2 p q)
      = Caps.denseRow (fun k => x (ix2 p k)) (fun k j => w (ix2 k j)) (fun j => b (ix2 0 j)) q := by
  rw [Dense.k0_pay1_eq, Dense.normOps_apply]
  unfold Caps.denseRow
  refine congrArg (fun r => Caps.normRow r q) (funext fun q' => ?_)
  rw [Dense.normOps_apply]
  refine congrArg (fun r => Caps.normRow r q') (funext fun j => ?_)
  rw [Dense.preOps_apply]

end Cert.KernelIdeal.Pay

end
-- ==== Proof.Region0.lean ====
/-
  The dense region: after all 50 grid points the output array holds, row by row, the dense stage of x's rows
  (each point writes the 1000 rows of its block, computed from the same rows of x, the whole weight matrix and the bias row).
-/
import proofs.«413496_j69939247448112_2_alg».proof.Proof.Gen.KernelIdeal.Frame
import proofs.«413496_j69939247448112_2_alg».proof.Proof.PayDense
import proofs.«413496_j69939247448112_2_alg».proof.Proof.Caps
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Cert.KernelIdeal Cert.KernelIdeal.Gen Idealize.SL.Sem

variable (V : (c : Dev nD) → (b : Ref sig .tc) → Buf (Elt Ideal) ((c : Thread nD τ).loc b))

/-- The body's loads and its one store start at the block's corner. -/
private theorem corner0 : (![0, 0] : Fin 2 → Nat) = fun _ => 0 := funext fun a => by fin_cases a <;> rfl

/-- The block indices at point t: the x window and the output window sit at block row t, column 0; the weight
    matrix and the bias row are one block each, at (0, 0), at every point. -/
private theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of one block: when row p of the x block is row r of x, and the other two blocks are the weight
    matrix and the bias row themselves, the body's value at (p, q) is the dense stage of x at (r, q). -/
private theorem entry0 (X : S50000x256.Idx → EReal) (W : S256x64.Idx → EReal) (B : S1x64.Idx → EReal)
    (x : Vec Ideal S1000x256 .f32) (w : Vec Ideal S256x64 .f32) (b : Vec Ideal S1x64 .f32)
    (p : Fin 1000) (q : Fin 64) (r : Fin 50000)
    (hx : ∀ k : Fin 256, x (ix2 p k) = X (ix2 r k))
    (hw : ∀ (k : Fin 256) (j : Fin 64), w (ix2 k j) = W (ix2 k j))
    (hb : ∀ j : Fin 64, b (ix2 0 j) = B (ix2 0 j)) :
    k0_pay1 (F := Ideal) x w b (ix2 p q) = Caps.denseArr X W (fun j => B (ix2 0 j)) (ix2 r q) := by
  rw [Pay.dense0, Caps.denseArr_apply]
  have e1 : (fun k => x (ix2 p k)) = Caps.rowOf X r := funext hx
  have e2 : (fun k j => w (ix2 k j)) = fun k j => W (ix2 k j) := funext fun k => funext (hw k)
  have e3 : (fun j => b (ix2 0 j)) = fun j => B (ix2 0 j) := funext hb
  rw [e1, e2, e3]

/-- What point t writes back is block t of the dense stage of the arrays the region finds. -/
private theorem flushed0 (c : Dev nD) (t : Fin cfg0.N) :
    (dat0 (F := Ideal) V c).flushed 3 t
      = ((cfg0.win 3).blk t).view.read (Elt Ideal)
          (Caps.denseArr (V c main_arg0) (V c main_arg2) (fun j => V c main_v4 (ix2 0 j))) := by
  show (cfg0.win 3).cut (grid0.coords t) ((dat0 V c).after 3 t) = _
  rw [after0_3]
  unfold out0_3
  rw [View.canon_unit_zero corner0]
  simp only [View.ld_unit_zero (S := S1000x256) corner0, View.ld_unit_zero (S := S256x64) corner0,
    View.ld_unit_zero (S := S1x64) corner0]
  obtain ⟨a0, a1, b0, b1, c0, c1, d0, d1⟩ := blockIndex0 t
  have ht : t.val < 50 := lt_of_lt_of_eq t.isLt (show cfg0.N = 50 from N_0)
  funext j
  obtain ⟨p, q, rfl⟩ : ∃ (p : Fin 1000) (q : Fin 64), j = ix2 p q := ⟨j 0, j 1, eq_ix2 j⟩
  have hp : p.val < 1000 := p.isLt
  show k0_pay1 (F := Ideal) (iblk0 V c 0 t) (iblk0 V c 1 t) (iblk0 V c 2 t) (ix2 p q)
      = Caps.denseArr (V c main_arg0) (V c main_arg2) (fun j => V c main_v4 (ix2 0 j))
          (((cfg0.win 3).blk t).view.emb (ix2 p q))
  -- the output block's entry (p, q) is the array's entry (1000 t + p, q)
  have hout : ((cfg0.win 3).blk t).view.emb (ix2 p q) = ix2 (⟨t.val * 1000 + p.val, by omega⟩ : Fin 50000) q := by
    funext a; apply Fin.ext
    match a with
    | ⟨0, _⟩ => show win0_3.index t (0 : Fin 2) * 1000 + 1 * p.val = t.val * 1000 + p.val; omega
    | ⟨1, _⟩ => show win0_3.index t (1 : Fin 2) * 64 + 1 * q.val = q.val; omega
  rw [hout]
  refine entry0 _ _ _ _ _ _ p q _ (fun k => ?_) (fun k j => ?_) (fun j => ?_)
  · -- row p of the x block is row 1000 t + p of x
    show V c main_arg0 (((cfg0.win 0).blk t).view.emb (ix2 p k)) = V c main_arg0 (ix2 _ k)
    congr 1
    funext a; apply Fin.ext
    match a with
    | ⟨0, _⟩ => show win0_0.index t (0 : Fin 2) * 1000 + 1 * p.val = t.val * 1000 + p.val; omega
    | ⟨1, _⟩ => show win0_0.index t (1 : Fin 2) * 256 + 1 * k.val = k.val; omega
  · -- the weight block is the weight matrix
    show V c main_arg2 (((cfg0.win 1).blk t).view.emb (ix2 k j)) = V c main_arg2 (ix2 k j)
    congr 1
    funext a; apply Fin.ext
    match a with
    | ⟨0, _⟩ => show win0_1.index t (0 : Fin 2) * 256 + 1 * k.val = k.val; omega
    | ⟨1, _⟩ => show win0_1.index t (1 : Fin 2) * 64 + 1 * j.val = j.val; omega
  · -- the bias block is the bias row
    show V c main_v4 (((cfg0.win 2).blk t).view.emb (ix2 0 j)) = V c main_v4 (ix2 0 j)
    congr 1
    funext a; apply Fin.ext
    match a with
    | ⟨0, _⟩ => show win0_2.index t (0 : Fin 2) * 1 + 1 * (0 : Fin 1).val = (0 : Fin 1).val; omega
    | ⟨1, _⟩ => show win0_2.index t (1 : Fin 2) * 64 + 1 * j.val = j.val; omega

/-- An entry of the output array is in point t's block iff each coordinate is in the block's range on its axis. -/
private theorem mem_block0 (t : Fin cfg0.N) (i : S50000x64.Idx) :
    i ∈ ((cfg0.win 3).blk t).view.set
      ↔ ∀ a : Fin 2, win0_3.index t a * S1000x64.size a ≤ (i a).val
          ∧ (i a).val < win0_3.index t a * S1000x64.size a + S1000x64.size a := by
  show i ∈ ((View.whole main_v5).slice (win0_3.rect t)).set ↔ _
  rw [View.set_slice_whole, Rect.mem_set_unit]
  exact Iff.rfl

/-- Every entry of the output array is written: row r by point r / 1000. -/
private theorem covered0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 1000 :=
    ⟨⟨(i 0).val / 1000, by rw [show cfg0.N = 50 from N_0]; omega⟩, rfl⟩
  obtain ⟨-, -, -, -, -, -, d0, d1⟩ := blockIndex0 t
  refine ⟨t, flush0_3 t, ?_⟩
  rw [mem_block0]
  intro a
  match a with
  | ⟨0, _⟩ =>
    show win0_3.index t (0 : Fin 2) * 1000 ≤ (i 0).val ∧ (i 0).val < win0_3.index t (0 : Fin 2) * 1000 + 1000
    omega
  | ⟨1, _⟩ =>
    show win0_3.index t (1 : Fin 2) * 64 ≤ (i 1).val ∧ (i 1).val < win0_3.index t (1 : Fin 2) * 64 + 64
    omega

/-- The output array after the region's last point, as one function of the arrays the region finds. -/
theorem arr0 (c : Dev nD) :
    (dat0 (F := Ideal) V c).arrAt 3 cfg0.N = Caps.denseArr (V c main_arg0) (V c main_arg2) (fun j => V c main_v4 (ix2 0 j)) :=
  (dat0 (F := Ideal) V c).arrAt_eq_of_cover 3 _ (fun t _ => flushed0 V c t) covered0

end Cert.KernelIdeal.Region

end
-- ==== Proof.PayRoute.lean ====
/-
  The routing kernel's body at one entry: what it stores at edge row p, lane q of its block is the message of
  that edge (softmax-weighted source capsules) from the two blocks' rows p. The four routing kernels have one body.
-/
import proofs.«413496_j69939247448112_2_alg».proof.Proof.Gen.KernelIdeal.Skeleton
import proofs.«413496_j69939247448112_2_alg».proof.Proof.Caps
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

section Layout
variable {α : Type}

/-- A row of 64 lanes read as 8 capsules of 8: entry (p, k, d) is lane 8k+d of row p. -/
theorem cast_row_caps (x : S1024x64.Idx → α) (h : S1024x64.ShapeCasts S1024x8x8) (p : Fin 1024) (k d : Fin 8) :
    shapeCast S1024x8x8 x h (ix3 p k d) = x (ix2 p (Caps.lane k d)) :=
  shapeCast_apply x h _ _ (by
    rw [Shape.rowMajor_val_three, Shape.rowMajor_val_two]
    show p.val * 64 + (8 * k.val + d.val) = (p.val * 8 + k.val) * 8 + d.val
    omega)

/-- The capsules laid back into a row: lane 8k+d of row p is entry (p, k, d). -/
theorem cast_caps_row (x : S1024x8x8.Idx → α) (h : S1024x8x8.ShapeCasts S1024x64) (p : Fin 1024) (k d : Fin 8) :
    shapeCast S1024x64 x h (ix2 p (Caps.lane k d)) = x (ix3 p k d) :=
  shapeCast_apply x h _ _ (by
    rw [Shape.rowMajor_val_three, Shape.rowMajor_val_two]
    show (p.val * 8 + k.val) * 8 + d.val = p.val * 64 + (8 * k.val + d.val)
    omega)

/-- A vector read as a one-column matrix. -/
theorem cast_vec_col (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    omega)

/-- A one-column matrix laid along 8 columns. -/
theorem bcast_col (x : S1024x1.Idx → α) (h : S1024x1.Broadcasts S1024x8) (p : Fin 1024) (k : Fin 8) :
    broadcastTo S1024x8 x h (ix2 p k) = x (ix2 p (0 : Fin 1)) := by
  refine broadcastTo_apply x h (ix2 p k) (ix2 p (0 : Fin 1)) fun ax => ?_
  match ax with
  | ⟨0, _⟩ => rfl
  | ⟨1, _⟩ => rfl

/-- A matrix read with a trailing unit axis. -/
theorem cast_mat_unit (x : S1024x8.Idx → α) (h : S1024x8.ShapeCasts S1024x8x1) (p : Fin 1024) (k : Fin 8) (u : Fin 1) :
    shapeCast S1024x8x1 x h (ix3 p k u) = x (ix2 p k) :=
  shapeCast_apply x h _ _ (by
    have hu : u.val = 0 := by omega
    rw [Shape.rowMajor_val_three, Shape.rowMajor_val_two]
    show p.val * 8 + k.val = (p.val * 8 + k.val) * 1 + u.val
    omega)

/-- The trailing unit axis laid along 8 entries. -/
theorem bcast_unit (x : S1024x8x1.Idx → α) (h : S1024x8x1.Broadcasts S1024x8x8) (p : Fin 1024) (k d : Fin 8) :
    broadcastTo S1024x8x8 x h (ix3 p k d) = x (ix3 p k (0 : Fin 1)) := by
  refine broadcastTo_apply x h (ix3 p k d) (ix3 p k (0 : Fin 1)) fun ax => ?_
  match ax with
  | ⟨0, _⟩ => rfl
  | ⟨1, _⟩ => rfl
  | ⟨2, _⟩ => rfl

/-- The index over (p, k) with entry d put back on the last axis. -/
theorem lift_entry (h : S1024x8x8.Reduces [2] S1024x8) (p : Fin 1024) (k d : Fin 8) :
    h.lift (ix2 p k) d = ix3 p k d :=
  funext fun c => match c with
    | ⟨0, _⟩ => rfl
    | ⟨1, _⟩ => rfl
    | ⟨2, _⟩ => rfl

/-- The index over p with capsule k put back on the last axis. -/
theorem lift_caps (h : S1024x8.Reduces [1] S1024) (p : Fin 1024) (k : Fin 8) :
    h.lift (ix1 p) k = ix2 p k :=
  funext fun c => match c with
    | ⟨0, _⟩ => rfl
    | ⟨1, _⟩ => rfl

end Layout

/-- The exponential, lane by lane. -/
theorem exp_apply {s : Shape} {φ : FTy} (a : FVec Ideal s φ) (i : s.Idx) : exp a i = Ideal.exp (a i) := rfl

/-- The sum over a capsule's 8 entries. -/
theorem sum_entries (x : FVec Ideal S1024x8x8 .f32) (hφ : FKind.Formats .f32)
    (hacc : (0x00000000#32 : BitVec 32) = 0x00000000#32) (p : Fin 1024) (k : Fin 8) :
    multiReduction (F := Ideal) .add [2] S1024x8 x 0x00000000#32 reduces_S1024x8x8_S1024x8 hφ hacc (ix2 p k)
      = ∑ d : Fin 8, x (ix3 p k d) := by
  refine (Ideal.multiReduction_add_single x _ reduces_S1024x8x8_S1024x8 hφ hacc (ix2 p k)).trans ?_
  exact Finset.sum_congr rfl fun d _ => congrArg x (lift_entry _ p k d)

/-- The sum over a row's 8 capsules. -/
theorem sum_caps (x : FVec Ideal S1024x8 .f32) (hφ : FKind.Formats .f32)
    (hacc : (0x00000000#32 : BitVec 32) = 0x00000000#32) (p : Fin 1024) :
    multiReduction (F := Ideal) .add [1] S1024 x 0x00000000#32 reduces_S1024x8_S1024 hφ hacc (ix1 p)
      = ∑ k : Fin 8, x (ix2 p k) := by
  refine (Ideal.multiReduction_add_single x _ reduces_S1024x8_S1024 hφ hacc (ix1 p)).trans ?_
  exact Finset.sum_congr rfl fun k _ => congrArg x (lift_caps _ p k)

/-- The maximum over a row's 8 capsules, folded from −∞. -/
theorem max_caps (x : FVec Ideal S1024x8 .f32) (hφ : FKind.Formats .f32)
    (hacc : (0xFF800000#32 : BitVec 32) = 0xFF800000#32) (p : Fin 1024) :
    multiReduction (F := Ideal) .maximumf [1] S1024 x 0xFF800000#32 reduces_S1024x8_S1024 hφ hacc (ix1 p)
      = (Finset.univ : Finset (Fin 8)).fold max Caps.ninfE (fun k => x (ix2 p k)) := by
  refine (Ideal.multiReduction_maximumf_single x _ reduces_S1024x8_S1024 hφ hacc (ix1 p)).trans ?_
  have hx : (x ∘ reduces_S1024x8_S1024.lift (ix1 p)) = fun k : Fin 8 => x (ix2 p k) :=
    funext fun k => congrArg x (lift_caps _ p k)
  rw [hx]
  rfl

/-- The routing body at row p, lane 8k+d: the softmax weight of capsule k times the source entry. -/
theorem route1_lane (z ct : Vec Ideal S1024x64 .f32) (p : Fin 1024) (k d : Fin 8) :
    k1_pay1 (F := Ideal) z ct (ix2 p (Caps.lane k d))
      = Caps.routeRow (fun q' => z (ix2 p q')) (fun q' => ct (ix2 p q')) (Caps.lane k d) := by
  unfold k1_pay1
  -- the last stage: the weight of capsule k, laid along its 8 entries, times the source row
  simp only [cast_caps_row, mulf_apply, bcast_unit, cast_mat_unit, cast_row_caps, shapeCast_self]
  -- the scores of the row's 8 capsules, as one array
  generalize hS : divf (multiReduction (F := Ideal) .add [2] S1024x8
      (shapeCast S1024x8x8 (mulf z ct) shapeCasts_S1024x64_S1024x8x8) 0x00000000#32 reduces_S1024x8x8_S1024x8 (.inl rfl) rfl)
      (broadcast S1024x8 (Scalar.ofBits .f32 0x3F800000#32)) = S
  have hSv : ∀ k' : Fin 8, S (ix2 p k') = Caps.score (fun q' => z (ix2 p q')) (fun q' => ct (ix2 p q')) k' := by
    intro k'
    rw [← hS, divf_apply, sum_entries]
    simp only [cast_row_caps, mulf_apply, broadcast_apply]
    rfl
  clear hS
  -- the softmax over the 8 scores
  simp only [divf_apply, bcast_col, cast_vec_col]
  rw [sum_caps]
  simp only [exp_apply, subf_apply, bcast_col, cast_vec_col, maximumf_apply, broadcast_apply]
  rw [max_caps]
  simp only [hSv]
  unfold Caps.routeRow Caps.weight Caps.scoreMax
  rw [Caps.capOf_lane]
  rfl

/-- The routing body at row p, lane q. -/
theorem route1 (z ct : Vec Ideal S1024x64 .f32) (p : Fin 1024) (q : Fin 64) :
    k1_pay1 (F := Ideal) z ct (ix2 p q) = Caps.routeRow (fun q' => z (ix2 p q')) (fun q' => ct (ix2 p q')) q := by
  obtain ⟨k, d, rfl⟩ : ∃ k d : Fin 8, q = Caps.lane k d :=
    ⟨Caps.capOf q, ⟨q.val % 8, Nat.mod_lt _ (by decide)⟩, (Caps.lane_capOf q).symm⟩
  exact route1_lane z ct p k d

theorem route3 (z ct : Vec Ideal S1024x64 .f32) (p : Fin 1024) (q : Fin 64) :
    k3_pay1 (F := Ideal) z ct (ix2 p q) = Caps.routeRow (fun q' => z (ix2 p q')) (fun q' => ct (ix2 p q')) q :=
  route1 z ct p q

theorem route5 (z ct : Vec Ideal S1024x64 .f32) (p : Fin 1024) (q : Fin 64) :
    k5_pay1 (F := Ideal) z ct (ix2 p q) = Caps.routeRow (fun q' => z (ix2 p q')) (fun q' => ct (ix2 p q')) q :=
  route1 z ct p q

theorem route7 (z ct : Vec Ideal S1024x64 .f32) (p : Fin 1024) (q : Fin 64) :
    k7_pay1 (F := Ideal) z ct (ix2 p q) = Caps.routeRow (fun q' => z (ix2 p q')) (fun q' => ct (ix2 p q')) q :=
  route1 z ct p q

end Cert.KernelIdeal.Pay

end
-- ==== Proof.Region1.lean ====
/-
  A routing region: after all 1600 grid points the output array holds every edge's message, computed from
  the same edge's rows of the two input arrays (each point writes the 1024 edge rows of its block).
-/
import proofs.«413496_j69939247448112_2_alg».proof.Proof.Gen.KernelIdeal.Frame
import proofs.«413496_j69939247448112_2_alg».proof.Proof.PayRoute
import proofs.«413496_j69939247448112_2_alg».proof.Proof.Caps
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Cert.KernelIdeal Cert.KernelIdeal.Gen Idealize.SL.Sem

variable (V : (c : Dev nD) → (b : Ref sig .tc) → Buf (Elt Ideal) ((c : Thread nD τ).loc b))

/-! ## One entry of a block -/

/-- The body's store covers its whole block: the rectangle's offsets are zero on both axes. -/
theorem wholeBlock1 : (![0, 0] : Fin 2 → Nat) = fun _ => 0 := funext fun a => by fin_cases a <;> rfl

/-- Entry (p, q) of what a point stores is entry q of the message of edge row r, once row p of each of the two
    input blocks is row r of the corresponding array. -/
theorem entry1 (Z CT : Caps.Arr 1638400 64) (z ct : Vec Ideal S1024x64 .f32) (p : Fin 1024) (q : Fin 64) (r : Fin 1638400)
    (hz : ∀ q' : Fin 64, z (ix2 p q') = Z (ix2 r q')) (hct : ∀ q' : Fin 64, ct (ix2 p q') = CT (ix2 r q')) :
    k1_pay1 (F := Ideal) z ct (ix2 p q) = Caps.routeArr Z CT (ix2 r q) := by
  rw [Pay.route1, Caps.routeArr_apply]
  rw [show (fun q' => z (ix2 p q')) = Caps.rowOf Z r from funext hz,
    show (fun q' => ct (ix2 p q')) = Caps.rowOf CT r from funext hct]

/-! ## Where a point's blocks lie -/

/-- The index maps over the grid: at point t every window is on block (t, 0). -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The grid has 1600 points, so row p of block t is a row of the array. -/
theorem row_lt1 (t : Fin cfg1.N) (p : Fin 1024) : t.val * 1024 + p.val < 1638400 := by
  have ht : t.val < 1600 := Nat.lt_of_lt_of_eq t.isLt N_1
  have hp := p.isLt
  omega

/-- Entry (p, q) of input window 0's block at point t is entry (1024 t + p, q) of its array. -/
theorem emb1_0 (t : Fin cfg1.N) (p : Fin 1024) (q : Fin 64) :
    ((cfg1.win 0).blk t).view.emb (ix2 p q) = (ix2 ⟨t.val * 1024 + p.val, row_lt1 t p⟩ q : S1638400x64.Idx) := by
  obtain ⟨e0, e1, -, -, -, -⟩ := blockIdx1 t
  funext a; apply Fin.ext
  match a with
  | ⟨0, _⟩ => show win1_0.index t (0 : Fin 2) * 1024 + 1 * p.val = t.val * 1024 + p.val; omega
  | ⟨1, _⟩ => show win1_0.index t (1 : Fin 2) * 64 + 1 * q.val = q.val; omega

/-- Entry (p, q) of input window 1's block at point t is entry (1024 t + p, q) of its array. -/
theorem emb1_1 (t : Fin cfg1.N) (p : Fin 1024) (q : Fin 64) :
    ((cfg1.win 1).blk t).view.emb (ix2 p q) = (ix2 ⟨t.val * 1024 + p.val, row_lt1 t p⟩ q : S1638400x64.Idx) := by
  obtain ⟨-, -, e0, e1, -, -⟩ := blockIdx1 t
  funext a; apply Fin.ext
  match a with
  | ⟨0, _⟩ => show win1_1.index t (0 : Fin 2) * 1024 + 1 * p.val = t.val * 1024 + p.val; omega
  | ⟨1, _⟩ => show win1_1.index t (1 : Fin 2) * 64 + 1 * q.val = q.val; omega

/-- Entry (p, q) of the output window's block at point t is entry (1024 t + p, q) of its array. -/
theorem emb1_2 (t : Fin cfg1.N) (p : Fin 1024) (q : Fin 64) :
    ((cfg1.win 2).blk t).view.emb (ix2 p q) = (ix2 ⟨t.val * 1024 + p.val, row_lt1 t p⟩ q : S1638400x64.Idx) := by
  obtain ⟨-, -, -, -, e0, e1⟩ := blockIdx1 t
  funext a; apply Fin.ext
  match a with
  | ⟨0, _⟩ => show win1_2.index t (0 : Fin 2) * 1024 + 1 * p.val = t.val * 1024 + p.val; omega
  | ⟨1, _⟩ => show win1_2.index t (1 : Fin 2) * 64 + 1 * q.val = q.val; omega

/-! ## What a point writes back -/

/-- What point t writes back is block t of the array of all messages. -/
theorem flushed1 (c : Dev nD) (t : Fin cfg1.N) :
    (dat1 (F := Ideal) V c).flushed 2 t
      = ((cfg1.win 2).blk t).view.read (Elt Ideal) (Caps.routeArr (V c main_v6) (V c main_v7)) := by
  show (cfg1.win 2).cut (grid1.coords t) ((dat1 V c).after 2 t) = _
  rw [after1_2]
  unfold out1_2
  rw [View.canon_unit_zero wholeBlock1]
  simp only [View.ld_unit_zero (S := S1024x64) wholeBlock1]
  refine funext fun (j : S1024x64.Idx) => ?_
  obtain ⟨p, q, rfl⟩ : ∃ (p : Fin 1024) (q : Fin 64), j = ix2 p q := ⟨j 0, j 1, eq_ix2 j⟩
  show k1_pay1 (F := Ideal) (iblk1 V c 0 t) (iblk1 V c 1 t) (ix2 p q)
    = Caps.routeArr (V c main_v6) (V c main_v7) (((cfg1.win 2).blk t).view.emb (ix2 p q))
  rw [emb1_2]
  refine entry1 (V c main_v6) (V c main_v7) (iblk1 V c 0 t) (iblk1 V c 1 t) p q _ (fun q' => ?_) (fun q' => ?_)
  · show V c main_v6 (((cfg1.win 0).blk t).view.emb (ix2 p q')) = _
    rw [emb1_0]
  · show V c main_v7 (((cfg1.win 1).blk t).view.emb (ix2 p q')) = _
    rw [emb1_1]

/-! ## The blocks tile the array -/

/-- An entry of the array is in point t's block iff each coordinate is in the block's range on its axis. -/
theorem mem_blk1 (t : Fin cfg1.N) (i : S1638400x64.Idx) :
    i ∈ ((cfg1.win 2).blk t).view.set
      ↔ ∀ a : Fin 2, win1_2.index t a * S1024x64.size a ≤ (i a).val
          ∧ (i a).val < win1_2.index t a * S1024x64.size a + S1024x64.size a := by
  show i ∈ ((View.whole main_v8).slice (win1_2.rect t)).set ↔ _
  rw [View.set_slice_whole, Rect.mem_set_unit]
  exact Iff.rfl

/-- Every entry of the array is written by some point: row r by point r / 1024. -/
theorem cover1 (i : S1638400x64.Idx) :
    ∃ t : Fin cfg1.N, (cfg1.win 2).flush t = true ∧ i ∈ ((cfg1.win 2).blk t).view.set := by
  have hi0 : (i 0).val < 1638400 := idx2_lt0 i
  have hi1 : (i 1).val < 64 := idx2_lt1 i
  have hN : cfg1.N = 1600 := N_1
  let t : Fin cfg1.N := ⟨(i 0).val / 1024, by rw [hN]; omega⟩
  have ht : t.val = (i 0).val / 1024 := rfl
  obtain ⟨-, -, -, -, e0, e1⟩ := blockIdx1 t
  refine ⟨t, flush1_2 t, ?_⟩
  rw [mem_blk1]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 64 ≤ (i 1).val ∧ (i 1).val < win1_2.index t (1 : Fin 2) * 64 + 64
    omega

/-- The output array after the region's last point, as one function of the arrays the region finds. -/
theorem arr1 (c : Dev nD) :
    (dat1 (F := Ideal) V c).arrAt 2 cfg1.N = Caps.routeArr (V c main_v6) (V c main_v7) :=
  (dat1 V c).arrAt_eq_of_cover 2 (Caps.routeArr (V c main_v6) (V c main_v7)) (fun t _ => flushed1 V c t) cover1

end Cert.KernelIdeal.Region

end
-- ==== Proof.PayNorm.lean ====
/-
  The normalisation kernel's body at one entry: what it stores at row p, lane q of its block is the
  capsule normalisation of the block's row p, read at lane q. The four normalisation kernels have one body.
-/
import proofs.«413496_j69939247448112_2_alg».proof.Proof.Gen.KernelIdeal.Skeleton
import proofs.«413496_j69939247448112_2_alg».proof.Proof.Caps
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

namespace NormAt

/-! ## The capsule layout: a row of 64 lanes is 8 capsules of 8 -/

section Layout
variable {α : Type} {n : ℕ}

/-- A row of 64 lanes read as 8 capsules of 8: entry (p, k, d) is lane 8k + d of row p. -/
theorem toCaps_apply (x : (⟨2, ![n, 64]⟩ : Shape).Idx → α)
    (h : (⟨2, ![n, 64]⟩ : Shape).ShapeCasts ⟨3, ![n, 8, 8]⟩) (p : Fin n) (k d : Fin 8) :
    shapeCast ⟨3, ![n, 8, 8]⟩ x h (ix3 p k d) = x (ix2 p (Caps.lane k d)) :=
  shapeCast_apply x h _ _ (by
    rw [Shape.rowMajor_val_two, Shape.rowMajor_val_three]
    show p.val * 64 + (8 * k.val + d.val) = (p.val * 8 + k.val) * 8 + d.val
    omega)

/-- … and back: lane q of row p is entry (p, q / 8, q % 8). -/
theorem ofCaps_apply (x : (⟨3, ![n, 8, 8]⟩ : Shape).Idx → α)
    (h : (⟨3, ![n, 8, 8]⟩ : Shape).ShapeCasts ⟨2, ![n, 64]⟩) (p : Fin n) (q : Fin 64) :
    shapeCast ⟨2, ![n, 64]⟩ x h (ix2 p q)
      = x (ix3 p (Caps.capOf q) (⟨q.val % 8, Nat.mod_lt _ (by omega)⟩ : Fin 8)) :=
  shapeCast_apply x h _ _ (by
    rw [Shape.rowMajor_val_two, Shape.rowMajor_val_three]
    show (p.val * 8 + q.val / 8) * 8 + q.val % 8 = p.val * 64 + q.val
    omega)

/-- A trailing unit axis added: entry (p, k, 0) of the [n, 8, 1] array is entry (p, k) of the [n, 8] one. -/
theorem keep_apply (x : (⟨2, ![n, 8]⟩ : Shape).Idx → α)
    (h : (⟨2, ![n, 8]⟩ : Shape).ShapeCasts ⟨3, ![n, 8, 1]⟩) (p : Fin n) (k : Fin 8) (u : Fin 1) :
    shapeCast ⟨3, ![n, 8, 1]⟩ x h (ix3 p k u) = x (ix2 p k) :=
  shapeCast_apply x h _ _ (by
    rw [Shape.rowMajor_val_two, Shape.rowMajor_val_three]
    show p.val * 8 + k.val = (p.val * 8 + k.val) * 1 + u.val
    omega)

/-- The unit axis spread over a capsule's 8 lanes: entry (p, k, d) reads entry (p, k, 0). -/
theorem spread_apply (x : (⟨3, ![n, 8, 1]⟩ : Shape).Idx → α)
    (h : (⟨3, ![n, 8, 1]⟩ : Shape).Broadcasts ⟨3, ![n, 8, 8]⟩) (p : Fin n) (k d : Fin 8) :
    broadcastTo ⟨3, ![n, 8, 8]⟩ x h (ix3 p k d) = x (ix3 p k (0 : Fin 1)) :=
  broadcastTo_apply x h _ _ (fun a => match a with
    | ⟨0, _⟩ => by
        show p.val = if n = 1 then 0 else p.val
        have := p.isLt
        split <;> omega
    | ⟨1, _⟩ => rfl
    | ⟨2, _⟩ => rfl)

/-- The sum over a capsule's lanes: the reduction over the last axis at (p, k) is the sum over d of entry (p, k, d). -/
theorem capSum_apply (v : FVec Ideal (⟨3, ![n, 8, 8]⟩ : Shape) .f32)
    (h : (⟨3, ![n, 8, 8]⟩ : Shape).Reduces [2] ⟨2, ![n, 8]⟩) (hφ : FKind.Formats .f32)
    (hacc : (0x00000000#32 : BitVec 32) = FKind.add.neutral .f32 hφ) (p : Fin n) (k : Fin 8) :
    multiReduction .add [2] ⟨2, ![n, 8]⟩ v 0x00000000#32 h hφ hacc (ix2 p k) = ∑ d : Fin 8, v (ix3 p k d) := by
  refine (Ideal.multiReduction_add_single v 0x00000000#32 h hφ hacc (ix2 p k)).trans ?_
  show (∑ d : Fin 8, v (h.lift (ix2 p k) d)) = _
  refine Finset.sum_congr rfl fun d _ => congrArg v ?_
  funext a
  match a with
  | ⟨0, _⟩ => rfl
  | ⟨1, _⟩ => rfl
  | ⟨2, _⟩ => rfl

end Layout

/-- A square root at an index is the square root of the element. -/
theorem sqrt_at {s : Shape} (a : FVec Ideal s .f32) (i : s.Idx) : sqrt a i = Ideal.sqrt (a i) := rfl

end NormAt

open NormAt
/-- The normalisation body at row p, lane q: lane q of the row over the larger of its capsule's length and the floor. -/
theorem norm2 (x : Vec Ideal S1000x64 .f32) (p : Fin 1000) (q : Fin 64) :
    k2_pay1 (F := Ideal) x (ix2 p q) = Caps.normRow (fun q' => x (ix2 p q')) q := by
  unfold k2_pay1
  dsimp only
  -- the last reshape: lane q is entry (q / 8, q % 8) of the capsule array
  refine (ofCaps_apply _ _ p q).trans ?_
  -- the quotient, the spread of the denominator, the floor, the square root, the unit axis: all read at that entry
  rw [divf_apply, toCaps_apply, shapeCast_self, Caps.lane_capOf, spread_apply, maximumf_apply, broadcast_apply,
    sqrt_at, keep_apply]
  -- what remains is the sum of the capsule's squares
  refine congrArg (fun t => Ideal.div (x (ix2 p q)) (max (Ideal.sqrt t) Caps.epsE)) ?_
  refine (capSum_apply _ _ _ _ p (Caps.capOf q)).trans ?_
  refine Finset.sum_congr rfl fun d _ => ?_
  rw [mulf_apply, toCaps_apply]

/-- The other three normalisation kernels have the same body. -/
theorem norm4 (x : Vec Ideal S1000x64 .f32) (p : Fin 1000) (q : Fin 64) :
    k4_pay1 (F := Ideal) x (ix2 p q) = Caps.normRow (fun q' => x (ix2 p q')) q :=
  norm2 x p q

theorem norm6 (x : Vec Ideal S1000x64 .f32) (p : Fin 1000) (q : Fin 64) :
    k6_pay1 (F := Ideal) x (ix2 p q) = Caps.normRow (fun q' => x (ix2 p q')) q :=
  norm2 x p q

theorem norm8 (x : Vec Ideal S1000x64 .f32) (p : Fin 1000) (q : Fin 64) :
    k8_pay1 (F := Ideal) x (ix2 p q) = Caps.normRow (fun q' => x (ix2 p q')) q :=
  norm2 x p q

end Cert.KernelIdeal.Pay

end
-- ==== Proof.Region2.lean ====
/-
  A normalisation region: after all 50 grid points the output array holds every row of the input array
  capsule-normalised (each point writes the 1000 rows of its block).
-/
import proofs.«413496_j69939247448112_2_alg».proof.Proof.Gen.KernelIdeal.Frame
import proofs.«413496_j69939247448112_2_alg».proof.Proof.PayNorm
import proofs.«413496_j69939247448112_2_alg».proof.Proof.Caps
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Cert.KernelIdeal Cert.KernelIdeal.Gen Idealize.SL.Sem

variable (V : (c : Dev nD) → (b : Ref sig .tc) → Buf (Elt Ideal) ((c : Thread nD τ).loc b))

/-- The whole-block rectangle starts at the origin of the block. -/
theorem origin2 : (![0, 0] : Fin 2 → Nat) = fun _ => 0 := funext fun a => by fin_cases a <;> rfl

/-- The two index maps over the grid: at every point the input block and the output block sit at the same block row,
    both in block column 0, and the block row stays below the 50 block rows of the array. -/
theorem index2 : ∀ t : Fin cfg2.N, win2_0.index t (0 : Fin 2) = win2_1.index t (0 : Fin 2)
    ∧ win2_0.index t (1 : Fin 2) = 0
    ∧ win2_1.index t (1 : Fin 2) = 0
    ∧ win2_1.index t (0 : Fin 2) < 50 :=
  (by decide +kernel : ∀ t : Fin grid2.N, _)

/-- Every one of the 50 block rows is some point's output block row. -/
theorem index_onto2 : ∀ b : Fin 50, ∃ t : Fin cfg2.N, win2_1.index t (0 : Fin 2) = b.val :=
  (by decide +kernel : ∀ b : Fin 50, ∃ t : Fin grid2.N, win2_1.index t (0 : Fin 2) = b.val)

/-- A block whose row `p` is row `i` of an array: the body's result at row `p` is row `i` of the array
    capsule-normalised (the body normalises each row of its block by itself). -/
theorem pay_row2 (A : Caps.Arr 50000 64) (x : Vec Ideal S1000x64 .f32) (i : Fin 50000) (p : Fin 1000) (q : Fin 64)
    (hx : ∀ q' : Fin 64, x (ix2 p q') = A (ix2 i q')) :
    k2_pay1 (F := Ideal) x (ix2 p q) = Caps.normArr A (ix2 i q) := by
  rw [Pay.norm2, Caps.normArr_apply]
  exact congrArg (fun v => Caps.normRow v q) (funext hx)

/-- WHAT POINT `t` WRITES BACK is block `t` of the input array normalised row by row: row `p` of either window's
    block at `t` is row (block row × 1000 + p) of its array. -/
theorem flushed2 (c : Dev nD) (t : Fin cfg2.N) :
    (dat2 (F := Ideal) V c).flushed 1 t = ((cfg2.win 1).blk t).view.read (Elt Ideal) (Caps.normArr (V c main_v15)) := by
  show (cfg2.win 1).cut (grid2.coords t) ((dat2 V c).after 1 t) = _
  rw [after2_1]
  unfold out2_1
  rw [View.canon_unit_zero origin2]
  simp only [View.ld_unit_zero (S := S1000x64) origin2]
  obtain ⟨e0, e1, e2, e3⟩ := index2 t
  funext j
  obtain ⟨p, q, rfl⟩ : ∃ (p : Fin 1000) (q : Fin 64), j = ix2 p q := ⟨j 0, j 1, eq_ix2 j⟩
  have hrow : win2_1.index t (0 : Fin 2) * 1000 + p.val < 50000 := by have hp : p.val < 1000 := p.isLt; omega
  have hout : ((cfg2.win 1).blk t).view.emb (ix2 p q) = ix2 (⟨win2_1.index t (0 : Fin 2) * 1000 + p.val, hrow⟩ : Fin 50000) q := by
    funext a; apply Fin.ext
    match a with
    | ⟨0, _⟩ => show win2_1.index t (0 : Fin 2) * 1000 + 1 * p.val = win2_1.index t (0 : Fin 2) * 1000 + p.val; omega
    | ⟨1, _⟩ => show win2_1.index t (1 : Fin 2) * 64 + 1 * q.val = q.val; omega
  have hin : ∀ q' : Fin 64, ((cfg2.win 0).blk t).view.emb (ix2 p q') = ix2 (⟨win2_1.index t (0 : Fin 2) * 1000 + p.val, hrow⟩ : Fin 50000) q' := by
    intro q'; funext a; apply Fin.ext
    match a with
    | ⟨0, _⟩ => show win2_0.index t (0 : Fin 2) * 1000 + 1 * p.val = win2_1.index t (0 : Fin 2) * 1000 + p.val; omega
    | ⟨1, _⟩ => show win2_0.index t (1 : Fin 2) * 64 + 1 * q'.val = q'.val; omega
  show k2_pay1 (F := Ideal) (iblk2 V c 0 t) (ix2 p q) = Caps.normArr (V c main_v15) (((cfg2.win 1).blk t).view.emb (ix2 p q))
  rw [hout]
  refine pay_row2 (V c main_v15) (iblk2 V c 0 t) _ p q fun q' => ?_
  show V c main_v15 (((cfg2.win 0).blk t).view.emb (ix2 p q')) = _
  rw [hin q']

/-- An index of the array is in point `t`'s block iff each coordinate is in the block's range on its axis. -/
theorem mem_blk2 (t : Fin cfg2.N) (i : S50000x64.Idx) :
    i ∈ ((cfg2.win 1).blk t).view.set ↔ ∀ a : Fin 2, win2_1.index t a * S1000x64.size a ≤ (i a).val ∧ (i a).val < win2_1.index t a * S1000x64.size a + S1000x64.size a := by
  show i ∈ ((View.whole main_v16).slice (win2_1.rect t)).set ↔ _
  rw [View.set_slice_whole, Rect.mem_set_unit]
  exact Iff.rfl

/-- Every index of the array is in some point's block: row `r` is in the block of the point whose block row is `r / 1000`. -/
theorem cover2 (i : S50000x64.Idx) :
    ∃ t : Fin cfg2.N, (cfg2.win 1).flush t = true ∧ i ∈ ((cfg2.win 1).blk t).view.set := by
  have hi0 : (i 0).val < 50000 := (i 0).isLt
  have hi1 : (i 1).val < 64 := (i 1).isLt
  obtain ⟨t, ht⟩ := index_onto2 ⟨(i 0).val / 1000, by omega⟩
  have q0 : win2_1.index t (0 : Fin 2) = (i 0).val / 1000 := ht
  obtain ⟨-, -, e2, -⟩ := index2 t
  refine ⟨t, flush2_1 t, ?_⟩
  rw [mem_blk2]
  intro a
  match a with
  | ⟨0, _⟩ => show win2_1.index t (0 : Fin 2) * 1000 ≤ (i 0).val ∧ (i 0).val < win2_1.index t (0 : Fin 2) * 1000 + 1000; omega
  | ⟨1, _⟩ => show win2_1.index t (1 : Fin 2) * 64 ≤ (i 1).val ∧ (i 1).val < win2_1.index t (1 : Fin 2) * 64 + 64; omega

/-- The output array after the region's last point, as one function of the arrays the region finds. -/
theorem arr2 (c : Dev nD) :
    (dat2 (F := Ideal) V c).arrAt 1 cfg2.N = Caps.normArr (V c main_v15) :=
  (dat2 (F := Ideal) V c).arrAt_eq_of_cover 1 (Caps.normArr (V c main_v15)) (fun t _ => flushed2 V c t) cover2

end Cert.KernelIdeal.Region

end
-- ==== Proof.Region3.lean ====
/-
  A routing region: after all 1600 grid points the output array holds every edge's message, computed from
  the same edge's rows of the two input arrays (each point writes the 1024 edge rows of its block).
-/
import proofs.«413496_j69939247448112_2_alg».proof.Proof.Gen.KernelIdeal.Frame
import proofs.«413496_j69939247448112_2_alg».proof.Proof.PayRoute
import proofs.«413496_j69939247448112_2_alg».proof.Proof.Caps
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Cert.KernelIdeal Cert.KernelIdeal.Gen Idealize.SL.Sem

variable (V : (c : Dev nD) → (b : Ref sig .tc) → Buf (Elt Ideal) ((c : Thread nD τ).loc b))

/-! ## One entry of a block -/

/-- The body's store covers its whole block: the rectangle's offsets are zero on both axes. -/
theorem wholeBlock3 : (![0, 0] : Fin 2 → Nat) = fun _ => 0 := funext fun a => by fin_cases a <;> rfl

/-- Entry (p, q) of what a point stores is entry q of the message of edge row r, once row p of each of the two
    input blocks is row r of the corresponding array. -/
theorem entry3 (Z CT : Caps.Arr 1638400 64) (z ct : Vec Ideal S1024x64 .f32) (p : Fin 1024) (q : Fin 64) (r : Fin 1638400)
    (hz : ∀ q' : Fin 64, z (ix2 p q') = Z (ix2 r q')) (hct : ∀ q' : Fin 64, ct (ix2 p q') = CT (ix2 r q')) :
    k3_pay1 (F := Ideal) z ct (ix2 p q) = Caps.routeArr Z CT (ix2 r q) := by
  rw [Pay.route3, Caps.routeArr_apply]
  rw [show (fun q' => z (ix2 p q')) = Caps.rowOf Z r from funext hz,
    show (fun q' => ct (ix2 p q')) = Caps.rowOf CT r from funext hct]

/-! ## Where a point's blocks lie -/

/-- The index maps over the grid: at point t every window is on block (t, 0). -/
theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The grid has 1600 points, so row p of block t is a row of the array. -/
theorem row_lt3 (t : Fin cfg3.N) (p : Fin 1024) : t.val * 1024 + p.val < 1638400 := by
  have ht : t.val < 1600 := Nat.lt_of_lt_of_eq t.isLt N_3
  have hp := p.isLt
  omega

/-- Entry (p, q) of input window 0's block at point t is entry (1024 t + p, q) of its array. -/
theorem emb3_0 (t : Fin cfg3.N) (p : Fin 1024) (q : Fin 64) :
    ((cfg3.win 0).blk t).view.emb (ix2 p q) = (ix2 ⟨t.val * 1024 + p.val, row_lt3 t p⟩ q : S1638400x64.Idx) := by
  obtain ⟨e0, e1, -, -, -, -⟩ := blockIdx3 t
  funext a; apply Fin.ext
  match a with
  | ⟨0, _⟩ => show win3_0.index t (0 : Fin 2) * 1024 + 1 * p.val = t.val * 1024 + p.val; omega
  | ⟨1, _⟩ => show win3_0.index t (1 : Fin 2) * 64 + 1 * q.val = q.val; omega

/-- Entry (p, q) of input window 1's block at point t is entry (1024 t + p, q) of its array. -/
theorem emb3_1 (t : Fin cfg3.N) (p : Fin 1024) (q : Fin 64) :
    ((cfg3.win 1).blk t).view.emb (ix2 p q) = (ix2 ⟨t.val * 1024 + p.val, row_lt3 t p⟩ q : S1638400x64.Idx) := by
  obtain ⟨-, -, e0, e1, -, -⟩ := blockIdx3 t
  funext a; apply Fin.ext
  match a with
  | ⟨0, _⟩ => show win3_1.index t (0 : Fin 2) * 1024 + 1 * p.val = t.val * 1024 + p.val; omega
  | ⟨1, _⟩ => show win3_1.index t (1 : Fin 2) * 64 + 1 * q.val = q.val; omega

/-- Entry (p, q) of the output window's block at point t is entry (1024 t + p, q) of its array. -/
theorem emb3_2 (t : Fin cfg3.N) (p : Fin 1024) (q : Fin 64) :
    ((cfg3.win 2).blk t).view.emb (ix2 p q) = (ix2 ⟨t.val * 1024 + p.val, row_lt3 t p⟩ q : S1638400x64.Idx) := by
  obtain ⟨-, -, -, -, e0, e1⟩ := blockIdx3 t
  funext a; apply Fin.ext
  match a with
  | ⟨0, _⟩ => show win3_2.index t (0 : Fin 2) * 1024 + 1 * p.val = t.val * 1024 + p.val; omega
  | ⟨1, _⟩ => show win3_2.index t (1 : Fin 2) * 64 + 1 * q.val = q.val; omega

/-! ## What a point writes back -/

/-- What point t writes back is block t of the array of all messages. -/
theorem flushed3 (c : Dev nD) (t : Fin cfg3.N) :
    (dat3 (F := Ideal) V c).flushed 2 t
      = ((cfg3.win 2).blk t).view.read (Elt Ideal) (Caps.routeArr (V c main_v6) (V c main_v17)) := by
  show (cfg3.win 2).cut (grid3.coords t) ((dat3 V c).after 2 t) = _
  rw [after3_2]
  unfold out3_2
  rw [View.canon_unit_zero wholeBlock3]
  simp only [View.ld_unit_zero (S := S1024x64) wholeBlock3]
  refine funext fun (j : S1024x64.Idx) => ?_
  obtain ⟨p, q, rfl⟩ : ∃ (p : Fin 1024) (q : Fin 64), j = ix2 p q := ⟨j 0, j 1, eq_ix2 j⟩
  show k3_pay1 (F := Ideal) (iblk3 V c 0 t) (iblk3 V c 1 t) (ix2 p q)
    = Caps.routeArr (V c main_v6) (V c main_v17) (((cfg3.win 2).blk t).view.emb (ix2 p q))
  rw [emb3_2]
  refine entry3 (V c main_v6) (V c main_v17) (iblk3 V c 0 t) (iblk3 V c 1 t) p q _ (fun q' => ?_) (fun q' => ?_)
  · show V c main_v6 (((cfg3.win 0).blk t).view.emb (ix2 p q')) = _
    rw [emb3_0]
  · show V c main_v17 (((cfg3.win 1).blk t).view.emb (ix2 p q')) = _
    rw [emb3_1]

/-! ## The blocks tile the array -/

/-- An entry of the array is in point t's block iff each coordinate is in the block's range on its axis. -/
theorem mem_blk3 (t : Fin cfg3.N) (i : S1638400x64.Idx) :
    i ∈ ((cfg3.win 2).blk t).view.set
      ↔ ∀ a : Fin 2, win3_2.index t a * S1024x64.size a ≤ (i a).val
          ∧ (i a).val < win3_2.index t a * S1024x64.size a + S1024x64.size a := by
  show i ∈ ((View.whole main_v18).slice (win3_2.rect t)).set ↔ _
  rw [View.set_slice_whole, Rect.mem_set_unit]
  exact Iff.rfl

/-- Every entry of the array is written by some point: row r by point r / 1024. -/
theorem cover3 (i : S1638400x64.Idx) :
    ∃ t : Fin cfg3.N, (cfg3.win 2).flush t = true ∧ i ∈ ((cfg3.win 2).blk t).view.set := by
  have hi0 : (i 0).val < 1638400 := idx2_lt0 i
  have hi1 : (i 1).val < 64 := idx2_lt1 i
  have hN : cfg3.N = 1600 := N_3
  let t : Fin cfg3.N := ⟨(i 0).val / 1024, by rw [hN]; omega⟩
  have ht : t.val = (i 0).val / 1024 := rfl
  obtain ⟨-, -, -, -, e0, e1⟩ := blockIdx3 t
  refine ⟨t, flush3_2 t, ?_⟩
  rw [mem_blk3]
  intro a
  match a with
  | ⟨0, _⟩ =>
    show win3_2.index t (0 : Fin 2) * 1024 ≤ (i 0).val ∧ (i 0).val < win3_2.index t (0 : Fin 2) * 1024 + 1024
    omega
  | ⟨1, _⟩ =>
    show win3_2.index t (1 : Fin 2) * 64 ≤ (i 1).val ∧ (i 1).val < win3_2.index t (1 : Fin 2) * 64 + 64
    omega

/-- The output array after the region's last point, as one function of the arrays the region finds. -/
theorem arr3 (c : Dev nD) :
    (dat3 (F := Ideal) V c).arrAt 2 cfg3.N = Caps.routeArr (V c main_v6) (V c main_v17) :=
  (dat3 V c).arrAt_eq_of_cover 2 (Caps.routeArr (V c main_v6) (V c main_v17)) (fun t _ => flushed3 V c t) cover3

end Cert.KernelIdeal.Region

end
-- ==== Proof.Region4.lean ====
/-
  A normalisation region: after all 50 grid points the output array holds every row of the input array
  capsule-normalised (each point writes the 1000 rows of its block).
-/
import proofs.«413496_j69939247448112_2_alg».proof.Proof.Gen.KernelIdeal.Frame
import proofs.«413496_j69939247448112_2_alg».proof.Proof.PayNorm
import proofs.«413496_j69939247448112_2_alg».proof.Proof.Caps
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Cert.KernelIdeal Cert.KernelIdeal.Gen Idealize.SL.Sem

variable (V : (c : Dev nD) → (b : Ref sig .tc) → Buf (Elt Ideal) ((c : Thread nD τ).loc b))

/-- The whole-block rectangle starts at the origin of the block. -/
theorem origin4 : (![0, 0] : Fin 2 → Nat) = fun _ => 0 := funext fun a => by fin_cases a <;> rfl

/-- The two index maps over the grid: at every point the input block and the output block sit at the same block row,
    both in block column 0, and the block row stays below the 50 block rows of the array. -/
theorem index4 : ∀ t : Fin cfg4.N, win4_0.index t (0 : Fin 2) = win4_1.index t (0 : Fin 2)
    ∧ win4_0.index t (1 : Fin 2) = 0
    ∧ win4_1.index t (1 : Fin 2) = 0
    ∧ win4_1.index t (0 : Fin 2) < 50 :=
  (by decide +kernel : ∀ t : Fin grid4.N, _)

/-- Every one of the 50 block rows is some point's output block row. -/
theorem index_onto4 : ∀ b : Fin 50, ∃ t : Fin cfg4.N, win4_1.index t (0 : Fin 2) = b.val :=
  (by decide +kernel : ∀ b : Fin 50, ∃ t : Fin grid4.N, win4_1.index t (0 : Fin 2) = b.val)

/-- A block whose row `p` is row `i` of an array: the body's result at row `p` is row `i` of the array
    capsule-normalised (the body normalises each row of its block by itself). -/
theorem pay_row4 (A : Caps.Arr 50000 64) (x : Vec Ideal S1000x64 .f32) (i : Fin 50000) (p : Fin 1000) (q : Fin 64)
    (hx : ∀ q' : Fin 64, x (ix2 p q') = A (ix2 i q')) :
    k4_pay1 (F := Ideal) x (ix2 p q) = Caps.normArr A (ix2 i q) := by
  rw [Pay.norm4, Caps.normArr_apply]
  exact congrArg (fun v => Caps.normRow v q) (funext hx)

/-- WHAT POINT `t` WRITES BACK is block `t` of the input array normalised row by row: row `p` of either window's
    block at `t` is row (block row × 1000 + p) of its array. -/
theorem flushed4 (c : Dev nD) (t : Fin cfg4.N) :
    (dat4 (F := Ideal) V c).flushed 1 t = ((cfg4.win 1).blk t).view.read (Elt Ideal) (Caps.normArr (V c main_v25)) := by
  show (cfg4.win 1).cut (grid4.coords t) ((dat4 V c).after 1 t) = _
  rw [after4_1]
  unfold out4_1
  rw [View.canon_unit_zero origin4]
  simp only [View.ld_unit_zero (S := S1000x64) origin4]
  obtain ⟨e0, e1, e2, e3⟩ := index4 t
  funext j
  obtain ⟨p, q, rfl⟩ : ∃ (p : Fin 1000) (q : Fin 64), j = ix2 p q := ⟨j 0, j 1, eq_ix2 j⟩
  have hrow : win4_1.index t (0 : Fin 2) * 1000 + p.val < 50000 := by have hp : p.val < 1000 := p.isLt; omega
  have hout : ((cfg4.win 1).blk t).view.emb (ix2 p q) = ix2 (⟨win4_1.index t (0 : Fin 2) * 1000 + p.val, hrow⟩ : Fin 50000) q := by
    funext a; apply Fin.ext
    match a with
    | ⟨0, _⟩ => show win4_1.index t (0 : Fin 2) * 1000 + 1 * p.val = win4_1.index t (0 : Fin 2) * 1000 + p.val; omega
    | ⟨1, _⟩ => show win4_1.index t (1 : Fin 2) * 64 + 1 * q.val = q.val; omega
  have hin : ∀ q' : Fin 64, ((cfg4.win 0).blk t).view.emb (ix2 p q') = ix2 (⟨win4_1.index t (0 : Fin 2) * 1000 + p.val, hrow⟩ : Fin 50000) q' := by
    intro q'; funext a; apply Fin.ext
    match a with
    | ⟨0, _⟩ => show win4_0.index t (0 : Fin 2) * 1000 + 1 * p.val = win4_1.index t (0 : Fin 2) * 1000 + p.val; omega
    | ⟨1, _⟩ => show win4_0.index t (1 : Fin 2) * 64 + 1 * q'.val = q'.val; omega
  show k4_pay1 (F := Ideal) (iblk4 V c 0 t) (ix2 p q) = Caps.normArr (V c main_v25) (((cfg4.win 1).blk t).view.emb (ix2 p q))
  rw [hout]
  refine pay_row4 (V c main_v25) (iblk4 V c 0 t) _ p q fun q' => ?_
  show V c main_v25 (((cfg4.win 0).blk t).view.emb (ix2 p q')) = _
  rw [hin q']

/-- An index of the array is in point `t`'s block iff each coordinate is in the block's range on its axis. -/
theorem mem_blk4 (t : Fin cfg4.N) (i : S50000x64.Idx) :
    i ∈ ((cfg4.win 1).blk t).view.set ↔ ∀ a : Fin 2, win4_1.index t a * S1000x64.size a ≤ (i a).val ∧ (i a).val < win4_1.index t a * S1000x64.size a + S1000x64.size a := by
  show i ∈ ((View.whole main_v26).slice (win4_1.rect t)).set ↔ _
  rw [View.set_slice_whole, Rect.mem_set_unit]
  exact Iff.rfl

/-- Every index of the array is in some point's block: row `r` is in the block of the point whose block row is `r / 1000`. -/
theorem cover4 (i : S50000x64.Idx) :
    ∃ t : Fin cfg4.N, (cfg4.win 1).flush t = true ∧ i ∈ ((cfg4.win 1).blk t).view.set := by
  have hi0 : (i 0).val < 50000 := (i 0).isLt
  have hi1 : (i 1).val < 64 := (i 1).isLt
  obtain ⟨t, ht⟩ := index_onto4 ⟨(i 0).val / 1000, by omega⟩
  have q0 : win4_1.index t (0 : Fin 2) = (i 0).val / 1000 := ht
  obtain ⟨-, -, e2, -⟩ := index4 t
  refine ⟨t, flush4_1 t, ?_⟩
  rw [mem_blk4]
  intro a
  match a with
  | ⟨0, _⟩ => show win4_1.index t (0 : Fin 2) * 1000 ≤ (i 0).val ∧ (i 0).val < win4_1.index t (0 : Fin 2) * 1000 + 1000; omega
  | ⟨1, _⟩ => show win4_1.index t (1 : Fin 2) * 64 ≤ (i 1).val ∧ (i 1).val < win4_1.index t (1 : Fin 2) * 64 + 64; omega

/-- The output array after the region's last point, as one function of the arrays the region finds. -/
theorem arr4 (c : Dev nD) :
    (dat4 (F := Ideal) V c).arrAt 1 cfg4.N = Caps.normArr (V c main_v25) :=
  (dat4 (F := Ideal) V c).arrAt_eq_of_cover 1 (Caps.normArr (V c main_v25)) (fun t _ => flushed4 V c t) cover4

end Cert.KernelIdeal.Region

end
-- ==== Proof.Region5.lean ====
/-
  A routing region: after all 1600 grid points the output array holds every edge's message, computed from
  the same edge's rows of the two input arrays (each point writes the 1024 edge rows of its block).
-/
import proofs.«413496_j69939247448112_2_alg».proof.Proof.Gen.KernelIdeal.Frame
import proofs.«413496_j69939247448112_2_alg».proof.Proof.PayRoute
import proofs.«413496_j69939247448112_2_alg».proof.Proof.Caps
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Cert.KernelIdeal Cert.KernelIdeal.Gen Idealize.SL.Sem

variable (V : (c : Dev nD) → (b : Ref sig .tc) → Buf (Elt Ideal) ((c : Thread nD τ).loc b))

/-! ## One entry of a block -/

/-- The body's store covers its whole block: the rectangle's offsets are zero on both axes. -/
theorem wholeBlock5 : (![0, 0] : Fin 2 → Nat) = fun _ => 0 := funext fun a => by fin_cases a <;> rfl

/-- Entry (p, q) of what a point stores is entry q of the message of edge row r, once row p of each of the two
    input blocks is row r of the corresponding array. -/
theorem entry5 (Z CT : Caps.Arr 1638400 64) (z ct : Vec Ideal S1024x64 .f32) (p : Fin 1024) (q : Fin 64) (r : Fin 1638400)
    (hz : ∀ q' : Fin 64, z (ix2 p q') = Z (ix2 r q')) (hct : ∀ q' : Fin 64, ct (ix2 p q') = CT (ix2 r q')) :
    k5_pay1 (F := Ideal) z ct (ix2 p q) = Caps.routeArr Z CT (ix2 r q) := by
  rw [Pay.route5, Caps.routeArr_apply]
  rw [show (fun q' => z (ix2 p q')) = Caps.rowOf Z r from funext hz,
    show (fun q' => ct (ix2 p q')) = Caps.rowOf CT r from funext hct]

/-! ## Where a point's blocks lie -/

/-- The index maps over the grid: at point t every window is on block (t, 0). -/
theorem blockIdx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The grid has 1600 points, so row p of block t is a row of the array. -/
theorem row_lt5 (t : Fin cfg5.N) (p : Fin 1024) : t.val * 1024 + p.val < 1638400 := by
  have ht : t.val < 1600 := Nat.lt_of_lt_of_eq t.isLt N_5
  have hp := p.isLt
  omega

/-- Entry (p, q) of input window 0's block at point t is entry (1024 t + p, q) of its array. -/
theorem emb5_0 (t : Fin cfg5.N) (p : Fin 1024) (q : Fin 64) :
    ((cfg5.win 0).blk t).view.emb (ix2 p q) = (ix2 ⟨t.val * 1024 + p.val, row_lt5 t p⟩ q : S1638400x64.Idx) := by
  obtain ⟨e0, e1, -, -, -, -⟩ := blockIdx5 t
  funext a; apply Fin.ext
  match a with
  | ⟨0, _⟩ => show win5_0.index t (0 : Fin 2) * 1024 + 1 * p.val = t.val * 1024 + p.val; omega
  | ⟨1, _⟩ => show win5_0.index t (1 : Fin 2) * 64 + 1 * q.val = q.val; omega

/-- Entry (p, q) of input window 1's block at point t is entry (1024 t + p, q) of its array. -/
theorem emb5_1 (t : Fin cfg5.N) (p : Fin 1024) (q : Fin 64) :
    ((cfg5.win 1).blk t).view.emb (ix2 p q) = (ix2 ⟨t.val * 1024 + p.val, row_lt5 t p⟩ q : S1638400x64.Idx) := by
  obtain ⟨-, -, e0, e1, -, -⟩ := blockIdx5 t
  funext a; apply Fin.ext
  match a with
  | ⟨0, _⟩ => show win5_1.index t (0 : Fin 2) * 1024 + 1 * p.val = t.val * 1024 + p.val; omega
  | ⟨1, _⟩ => show win5_1.index t (1 : Fin 2) * 64 + 1 * q.val = q.val; omega

/-- Entry (p, q) of the output window's block at point t is entry (1024 t + p, q) of its array. -/
theorem emb5_2 (t : Fin cfg5.N) (p : Fin 1024) (q : Fin 64) :
    ((cfg5.win 2).blk t).view.emb (ix2 p q) = (ix2 ⟨t.val * 1024 + p.val, row_lt5 t p⟩ q : S1638400x64.Idx) := by
  obtain ⟨-, -, -, -, e0, e1⟩ := blockIdx5 t
  funext a; apply Fin.ext
  match a with
  | ⟨0, _⟩ => show win5_2.index t (0 : Fin 2) * 1024 + 1 * p.val = t.val * 1024 + p.val; omega
  | ⟨1, _⟩ => show win5_2.index t (1 : Fin 2) * 64 + 1 * q.val = q.val; omega

/-! ## What a point writes back -/

/-- What point t writes back is block t of the array of all messages. -/
theorem flushed5 (c : Dev nD) (t : Fin cfg5.N) :
    (dat5 (F := Ideal) V c).flushed 2 t
      = ((cfg5.win 2).blk t).view.read (Elt Ideal) (Caps.routeArr (V c main_v6) (V c main_v27)) := by
  show (cfg5.win 2).cut (grid5.coords t) ((dat5 V c).after 2 t) = _
  rw [after5_2]
  unfold out5_2
  rw [View.canon_unit_zero wholeBlock5]
  simp only [View.ld_unit_zero (S := S1024x64) wholeBlock5]
  refine funext fun (j : S1024x64.Idx) => ?_
  obtain ⟨p, q, rfl⟩ : ∃ (p : Fin 1024) (q : Fin 64), j = ix2 p q := ⟨j 0, j 1, eq_ix2 j⟩
  show k5_pay1 (F := Ideal) (iblk5 V c 0 t) (iblk5 V c 1 t) (ix2 p q)
    = Caps.routeArr (V c main_v6) (V c main_v27) (((cfg5.win 2).blk t).view.emb (ix2 p q))
  rw [emb5_2]
  refine entry5 (V c main_v6) (V c main_v27) (iblk5 V c 0 t) (iblk5 V c 1 t) p q _ (fun q' => ?_) (fun q' => ?_)
  · show V c main_v6 (((cfg5.win 0).blk t).view.emb (ix2 p q')) = _
    rw [emb5_0]
  · show V c main_v27 (((cfg5.win 1).blk t).view.emb (ix2 p q')) = _
    rw [emb5_1]

/-! ## The blocks tile the array -/

/-- An entry of the array is in point t's block iff each coordinate is in the block's range on its axis. -/
theorem mem_blk5 (t : Fin cfg5.N) (i : S1638400x64.Idx) :
    i ∈ ((cfg5.win 2).blk t).view.set
      ↔ ∀ a : Fin 2, win5_2.index t a * S1024x64.size a ≤ (i a).val
          ∧ (i a).val < win5_2.index t a * S1024x64.size a + S1024x64.size a := by
  show i ∈ ((View.whole main_v28).slice (win5_2.rect t)).set ↔ _
  rw [View.set_slice_whole, Rect.mem_set_unit]
  exact Iff.rfl

/-- Every entry of the array is written by some point: row r by point r / 1024. -/
theorem cover5 (i : S1638400x64.Idx) :
    ∃ t : Fin cfg5.N, (cfg5.win 2).flush t = true ∧ i ∈ ((cfg5.win 2).blk t).view.set := by
  have hi0 : (i 0).val < 1638400 := idx2_lt0 i
  have hi1 : (i 1).val < 64 := idx2_lt1 i
  have hN : cfg5.N = 1600 := N_5
  let t : Fin cfg5.N := ⟨(i 0).val / 1024, by rw [hN]; omega⟩
  have ht : t.val = (i 0).val / 1024 := rfl
  obtain ⟨-, -, -, -, e0, e1⟩ := blockIdx5 t
  refine ⟨t, flush5_2 t, ?_⟩
  rw [mem_blk5]
  intro a
  match a with
  | ⟨0, _⟩ =>
    show win5_2.index t (0 : Fin 2) * 1024 ≤ (i 0).val ∧ (i 0).val < win5_2.index t (0 : Fin 2) * 1024 + 1024
    omega
  | ⟨1, _⟩ =>
    show win5_2.index t (1 : Fin 2) * 64 ≤ (i 1).val ∧ (i 1).val < win5_2.index t (1 : Fin 2) * 64 + 64
    omega

/-- The output array after the region's last point, as one function of the arrays the region finds. -/
theorem arr5 (c : Dev nD) :
    (dat5 (F := Ideal) V c).arrAt 2 cfg5.N = Caps.routeArr (V c main_v6) (V c main_v27) :=
  (dat5 V c).arrAt_eq_of_cover 2 (Caps.routeArr (V c main_v6) (V c main_v27)) (fun t _ => flushed5 V c t) cover5

end Cert.KernelIdeal.Region

end
-- ==== Proof.Region6.lean ====
/-
  A normalisation region: after all 50 grid points the output array holds every row of the input array
  capsule-normalised (each point writes the 1000 rows of its block).
-/
import proofs.«413496_j69939247448112_2_alg».proof.Proof.Gen.KernelIdeal.Frame
import proofs.«413496_j69939247448112_2_alg».proof.Proof.PayNorm
import proofs.«413496_j69939247448112_2_alg».proof.Proof.Caps
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Cert.KernelIdeal Cert.KernelIdeal.Gen Idealize.SL.Sem

variable (V : (c : Dev nD) → (b : Ref sig .tc) → Buf (Elt Ideal) ((c : Thread nD τ).loc b))

/-- The whole-block rectangle starts at the origin of the block. -/
theorem origin6 : (![0, 0] : Fin 2 → Nat) = fun _ => 0 := funext fun a => by fin_cases a <;> rfl

/-- The two index maps over the grid: at every point the input block and the output block sit at the same block row,
    both in block column 0, and the block row stays below the 50 block rows of the array. -/
theorem index6 : ∀ t : Fin cfg6.N, win6_0.index t (0 : Fin 2) = win6_1.index t (0 : Fin 2)
    ∧ win6_0.index t (1 : Fin 2) = 0
    ∧ win6_1.index t (1 : Fin 2) = 0
    ∧ win6_1.index t (0 : Fin 2) < 50 :=
  (by decide +kernel : ∀ t : Fin grid6.N, _)

/-- Every one of the 50 block rows is some point's output block row. -/
theorem index_onto6 : ∀ b : Fin 50, ∃ t : Fin cfg6.N, win6_1.index t (0 : Fin 2) = b.val :=
  (by decide +kernel : ∀ b : Fin 50, ∃ t : Fin grid6.N, win6_1.index t (0 : Fin 2) = b.val)

/-- A block whose row `p` is row `i` of an array: the body's result at row `p` is row `i` of the array
    capsule-normalised (the body normalises each row of its block by itself). -/
theorem pay_row6 (A : Caps.Arr 50000 64) (x : Vec Ideal S1000x64 .f32) (i : Fin 50000) (p : Fin 1000) (q : Fin 64)
    (hx : ∀ q' : Fin 64, x (ix2 p q') = A (ix2 i q')) :
    k6_pay1 (F := Ideal) x (ix2 p q) = Caps.normArr A (ix2 i q) := by
  rw [Pay.norm6, Caps.normArr_apply]
  exact congrArg (fun v => Caps.normRow v q) (funext hx)

/-- WHAT POINT `t` WRITES BACK is block `t` of the input array normalised row by row: row `p` of either window's
    block at `t` is row (block row × 1000 + p) of its array. -/
theorem flushed6 (c : Dev nD) (t : Fin cfg6.N) :
    (dat6 (F := Ideal) V c).flushed 1 t = ((cfg6.win 1).blk t).view.read (Elt Ideal) (Caps.normArr (V c main_v35)) := by
  show (cfg6.win 1).cut (grid6.coords t) ((dat6 V c).after 1 t) = _
  rw [after6_1]
  unfold out6_1
  rw [View.canon_unit_zero origin6]
  simp only [View.ld_unit_zero (S := S1000x64) origin6]
  obtain ⟨e0, e1, e2, e3⟩ := index6 t
  funext j
  obtain ⟨p, q, rfl⟩ : ∃ (p : Fin 1000) (q : Fin 64), j = ix2 p q := ⟨j 0, j 1, eq_ix2 j⟩
  have hrow : win6_1.index t (0 : Fin 2) * 1000 + p.val < 50000 := by have hp : p.val < 1000 := p.isLt; omega
  have hout : ((cfg6.win 1).blk t).view.emb (ix2 p q) = ix2 (⟨win6_1.index t (0 : Fin 2) * 1000 + p.val, hrow⟩ : Fin 50000) q := by
    funext a; apply Fin.ext
    match a with
    | ⟨0, _⟩ => show win6_1.index t (0 : Fin 2) * 1000 + 1 * p.val = win6_1.index t (0 : Fin 2) * 1000 + p.val; omega
    | ⟨1, _⟩ => show win6_1.index t (1 : Fin 2) * 64 + 1 * q.val = q.val; omega
  have hin : ∀ q' : Fin 64, ((cfg6.win 0).blk t).view.emb (ix2 p q') = ix2 (⟨win6_1.index t (0 : Fin 2) * 1000 + p.val, hrow⟩ : Fin 50000) q' := by
    intro q'; funext a; apply Fin.ext
    match a with
    | ⟨0, _⟩ => show win6_0.index t (0 : Fin 2) * 1000 + 1 * p.val = win6_1.index t (0 : Fin 2) * 1000 + p.val; omega
    | ⟨1, _⟩ => show win6_0.index t (1 : Fin 2) * 64 + 1 * q'.val = q'.val; omega
  show k6_pay1 (F := Ideal) (iblk6 V c 0 t) (ix2 p q) = Caps.normArr (V c main_v35) (((cfg6.win 1).blk t).view.emb (ix2 p q))
  rw [hout]
  refine pay_row6 (V c main_v35) (iblk6 V c 0 t) _ p q fun q' => ?_
  show V c main_v35 (((cfg6.win 0).blk t).view.emb (ix2 p q')) = _
  rw [hin q']

/-- An index of the array is in point `t`'s block iff each coordinate is in the block's range on its axis. -/
theorem mem_blk6 (t : Fin cfg6.N) (i : S50000x64.Idx) :
    i ∈ ((cfg6.win 1).blk t).view.set ↔ ∀ a : Fin 2, win6_1.index t a * S1000x64.size a ≤ (i a).val ∧ (i a).val < win6_1.index t a * S1000x64.size a + S1000x64.size a := by
  show i ∈ ((View.whole main_v36).slice (win6_1.rect t)).set ↔ _
  rw [View.set_slice_whole, Rect.mem_set_unit]
  exact Iff.rfl

/-- Every index of the array is in some point's block: row `r` is in the block of the point whose block row is `r / 1000`. -/
theorem cover6 (i : S50000x64.Idx) :
    ∃ t : Fin cfg6.N, (cfg6.win 1).flush t = true ∧ i ∈ ((cfg6.win 1).blk t).view.set := by
  have hi0 : (i 0).val < 50000 := (i 0).isLt
  have hi1 : (i 1).val < 64 := (i 1).isLt
  obtain ⟨t, ht⟩ := index_onto6 ⟨(i 0).val / 1000, by omega⟩
  have q0 : win6_1.index t (0 : Fin 2) = (i 0).val / 1000 := ht
  obtain ⟨-, -, e2, -⟩ := index6 t
  refine ⟨t, flush6_1 t, ?_⟩
  rw [mem_blk6]
  intro a
  match a with
  | ⟨0, _⟩ => show win6_1.index t (0 : Fin 2) * 1000 ≤ (i 0).val ∧ (i 0).val < win6_1.index t (0 : Fin 2) * 1000 + 1000; omega
  | ⟨1, _⟩ => show win6_1.index t (1 : Fin 2) * 64 ≤ (i 1).val ∧ (i 1).val < win6_1.index t (1 : Fin 2) * 64 + 64; omega

/-- The output array after the region's last point, as one function of the arrays the region finds. -/
theorem arr6 (c : Dev nD) :
    (dat6 (F := Ideal) V c).arrAt 1 cfg6.N = Caps.normArr (V c main_v35) :=
  (dat6 (F := Ideal) V c).arrAt_eq_of_cover 1 (Caps.normArr (V c main_v35)) (fun t _ => flushed6 V c t) cover6

end Cert.KernelIdeal.Region

end
-- ==== Proof.Region7.lean ====
/-
  A routing region: after all 1600 grid points the output array holds every edge's message, computed from
  the same edge's rows of the two input arrays (each point writes the 1024 edge rows of its block).
-/
import proofs.«413496_j69939247448112_2_alg».proof.Proof.Gen.KernelIdeal.Frame
import proofs.«413496_j69939247448112_2_alg».proof.Proof.PayRoute
import proofs.«413496_j69939247448112_2_alg».proof.Proof.Caps
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Cert.KernelIdeal Cert.KernelIdeal.Gen Idealize.SL.Sem

variable (V : (c : Dev nD) → (b : Ref sig .tc) → Buf (Elt Ideal) ((c : Thread nD τ).loc b))

/-! ## One entry of a block -/

/-- The body's store covers its whole block: the rectangle's offsets are zero on both axes. -/
theorem wholeBlock7 : (![0, 0] : Fin 2 → Nat) = fun _ => 0 := funext fun a => by fin_cases a <;> rfl

/-- Entry (p, q) of what a point stores is entry q of the message of edge row r, once row p of each of the two
    input blocks is row r of the corresponding array. -/
theorem entry7 (Z CT : Caps.Arr 1638400 64) (z ct : Vec Ideal S1024x64 .f32) (p : Fin 1024) (q : Fin 64) (r : Fin 1638400)
    (hz : ∀ q' : Fin 64, z (ix2 p q') = Z (ix2 r q')) (hct : ∀ q' : Fin 64, ct (ix2 p q') = CT (ix2 r q')) :
    k7_pay1 (F := Ideal) z ct (ix2 p q) = Caps.routeArr Z CT (ix2 r q) := by
  rw [Pay.route7, Caps.routeArr_apply]
  rw [show (fun q' => z (ix2 p q')) = Caps.rowOf Z r from funext hz,
    show (fun q' => ct (ix2 p q')) = Caps.rowOf CT r from funext hct]

/-! ## Where a point's blocks lie -/

/-- The index maps over the grid: at point t every window is on block (t, 0). -/
theorem blockIdx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- The grid has 1600 points, so row p of block t is a row of the array. -/
theorem row_lt7 (t : Fin cfg7.N) (p : Fin 1024) : t.val * 1024 + p.val < 1638400 := by
  have ht : t.val < 1600 := Nat.lt_of_lt_of_eq t.isLt N_7
  have hp := p.isLt
  omega

/-- Entry (p, q) of input window 0's block at point t is entry (1024 t + p, q) of its array. -/
theorem emb7_0 (t : Fin cfg7.N) (p : Fin 1024) (q : Fin 64) :
    ((cfg7.win 0).blk t).view.emb (ix2 p q) = (ix2 ⟨t.val * 1024 + p.val, row_lt7 t p⟩ q : S1638400x64.Idx) := by
  obtain ⟨e0, e1, -, -, -, -⟩ := blockIdx7 t
  funext a; apply Fin.ext
  match a with
  | ⟨0, _⟩ => show win7_0.index t (0 : Fin 2) * 1024 + 1 * p.val = t.val * 1024 + p.val; omega
  | ⟨1, _⟩ => show win7_0.index t (1 : Fin 2) * 64 + 1 * q.val = q.val; omega

/-- Entry (p, q) of input window 1's block at point t is entry (1024 t + p, q) of its array. -/
theorem emb7_1 (t : Fin cfg7.N) (p : Fin 1024) (q : Fin 64) :
    ((cfg7.win 1).blk t).view.emb (ix2 p q) = (ix2 ⟨t.val * 1024 + p.val, row_lt7 t p⟩ q : S1638400x64.Idx) := by
  obtain ⟨-, -, e0, e1, -, -⟩ := blockIdx7 t
  funext a; apply Fin.ext
  match a with
  | ⟨0, _⟩ => show win7_1.index t (0 : Fin 2) * 1024 + 1 * p.val = t.val * 1024 + p.val; omega
  | ⟨1, _⟩ => show win7_1.index t (1 : Fin 2) * 64 + 1 * q.val = q.val; omega

/-- Entry (p, q) of the output window's block at point t is entry (1024 t + p, q) of its array. -/
theorem emb7_2 (t : Fin cfg7.N) (p : Fin 1024) (q : Fin 64) :
    ((cfg7.win 2).blk t).view.emb (ix2 p q) = (ix2 ⟨t.val * 1024 + p.val, row_lt7 t p⟩ q : S1638400x64.Idx) := by
  obtain ⟨-, -, -, -, e0, e1⟩ := blockIdx7 t
  funext a; apply Fin.ext
  match a with
  | ⟨0, _⟩ => show win7_2.index t (0 : Fin 2) * 1024 + 1 * p.val = t.val * 1024 + p.val; omega
  | ⟨1, _⟩ => show win7_2.index t (1 : Fin 2) * 64 + 1 * q.val = q.val; omega

/-! ## What a point writes back -/

/-- What point t writes back is block t of the array of all messages. -/
theorem flushed7 (c : Dev nD) (t : Fin cfg7.N) :
    (dat7 (F := Ideal) V c).flushed 2 t
      = ((cfg7.win 2).blk t).view.read (Elt Ideal) (Caps.routeArr (V c main_v6) (V c main_v37)) := by
  show (cfg7.win 2).cut (grid7.coords t) ((dat7 V c).after 2 t) = _
  rw [after7_2]
  unfold out7_2
  rw [View.canon_unit_zero wholeBlock7]
  simp only [View.ld_unit_zero (S := S1024x64) wholeBlock7]
  refine funext fun (j : S1024x64.Idx) => ?_
  obtain ⟨p, q, rfl⟩ : ∃ (p : Fin 1024) (q : Fin 64), j = ix2 p q := ⟨j 0, j 1, eq_ix2 j⟩
  show k7_pay1 (F := Ideal) (iblk7 V c 0 t) (iblk7 V c 1 t) (ix2 p q)
    = Caps.routeArr (V c main_v6) (V c main_v37) (((cfg7.win 2).blk t).view.emb (ix2 p q))
  rw [emb7_2]
  refine entry7 (V c main_v6) (V c main_v37) (iblk7 V c 0 t) (iblk7 V c 1 t) p q _ (fun q' => ?_) (fun q' => ?_)
  · show V c main_v6 (((cfg7.win 0).blk t).view.emb (ix2 p q')) = _
    rw [emb7_0]
  · show V c main_v37 (((cfg7.win 1).blk t).view.emb (ix2 p q')) = _
    rw [emb7_1]

/-! ## The blocks tile the array -/

/-- An entry of the array is in point t's block iff each coordinate is in the block's range on its axis. -/
theorem mem_blk7 (t : Fin cfg7.N) (i : S1638400x64.Idx) :
    i ∈ ((cfg7.win 2).blk t).view.set
      ↔ ∀ a : Fin 2, win7_2.index t a * S1024x64.size a ≤ (i a).val
          ∧ (i a).val < win7_2.index t a * S1024x64.size a + S1024x64.size a := by
  show i ∈ ((View.whole main_v38).slice (win7_2.rect t)).set ↔ _
  rw [View.set_slice_whole, Rect.mem_set_unit]
  exact Iff.rfl

/-- Every entry of the array is written by some point: row r by point r / 1024. -/
theorem cover7 (i : S1638400x64.Idx) :
    ∃ t : Fin cfg7.N, (cfg7.win 2).flush t = true ∧ i ∈ ((cfg7.win 2).blk t).view.set := by
  have hi0 : (i 0).val < 1638400 := idx2_lt0 i
  have hi1 : (i 1).val < 64 := idx2_lt1 i
  have hN : cfg7.N = 1600 := N_7
  let t : Fin cfg7.N := ⟨(i 0).val / 1024, by rw [hN]; omega⟩
  have ht : t.val = (i 0).val / 1024 := rfl
  obtain ⟨-, -, -, -, e0, e1⟩ := blockIdx7 t
  refine ⟨t, flush7_2 t, ?_⟩
  rw [mem_blk7]
  intro a
  match a with
  | ⟨0, _⟩ =>
    show win7_2.index t (0 : Fin 2) * 1024 ≤ (i 0).val ∧ (i 0).val < win7_2.index t (0 : Fin 2) * 1024 + 1024
    omega
  | ⟨1, _⟩ =>
    show win7_2.index t (1 : Fin 2) * 64 ≤ (i 1).val ∧ (i 1).val < win7_2.index t (1 : Fin 2) * 64 + 64
    omega

/-- The output array after the region's last point, as one function of the arrays the region finds. -/
theorem arr7 (c : Dev nD) :
    (dat7 (F := Ideal) V c).arrAt 2 cfg7.N = Caps.routeArr (V c main_v6) (V c main_v37) :=
  (dat7 V c).arrAt_eq_of_cover 2 (Caps.routeArr (V c main_v6) (V c main_v37)) (fun t _ => flushed7 V c t) cover7

end Cert.KernelIdeal.Region

end
-- ==== Proof.Region8.lean ====
/-
  A normalisation region: after all 50 grid points the output array holds every row of the input array
  capsule-normalised (each point writes the 1000 rows of its block).
-/
import proofs.«413496_j69939247448112_2_alg».proof.Proof.Gen.KernelIdeal.Frame
import proofs.«413496_j69939247448112_2_alg».proof.Proof.PayNorm
import proofs.«413496_j69939247448112_2_alg».proof.Proof.Caps
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Cert.KernelIdeal Cert.KernelIdeal.Gen Idealize.SL.Sem

variable (V : (c : Dev nD) → (b : Ref sig .tc) → Buf (Elt Ideal) ((c : Thread nD τ).loc b))

/-- The whole-block rectangle starts at the origin of the block. -/
theorem origin8 : (![0, 0] : Fin 2 → Nat) = fun _ => 0 := funext fun a => by fin_cases a <;> rfl

/-- The two index maps over the grid: at every point the input block and the output block sit at the same block row,
    both in block column 0, and the block row stays below the 50 block rows of the array. -/
theorem index8 : ∀ t : Fin cfg8.N, win8_0.index t (0 : Fin 2) = win8_1.index t (0 : Fin 2)
    ∧ win8_0.index t (1 : Fin 2) = 0
    ∧ win8_1.index t (1 : Fin 2) = 0
    ∧ win8_1.index t (0 : Fin 2) < 50 :=
  (by decide +kernel : ∀ t : Fin grid8.N, _)

/-- Every one of the 50 block rows is some point's output block row. -/
theorem index_onto8 : ∀ b : Fin 50, ∃ t : Fin cfg8.N, win8_1.index t (0 : Fin 2) = b.val :=
  (by decide +kernel : ∀ b : Fin 50, ∃ t : Fin grid8.N, win8_1.index t (0 : Fin 2) = b.val)

/-- A block whose row `p` is row `i` of an array: the body's result at row `p` is row `i` of the array
    capsule-normalised (the body normalises each row of its block by itself). -/
theorem pay_row8 (A : Caps.Arr 50000 64) (x : Vec Ideal S1000x64 .f32) (i : Fin 50000) (p : Fin 1000) (q : Fin 64)
    (hx : ∀ q' : Fin 64, x (ix2 p q') = A (ix2 i q')) :
    k8_pay1 (F := Ideal) x (ix2 p q) = Caps.normArr A (ix2 i q) := by
  rw [Pay.norm8, Caps.normArr_apply]
  exact congrArg (fun v => Caps.normRow v q) (funext hx)

/-- WHAT POINT `t` WRITES BACK is block `t` of the input array normalised row by row: row `p` of either window's
    block at `t` is row (block row × 1000 + p) of its array. -/
theorem flushed8 (c : Dev nD) (t : Fin cfg8.N) :
    (dat8 (F := Ideal) V c).flushed 1 t = ((cfg8.win 1).blk t).view.read (Elt Ideal) (Caps.normArr (V c main_v45)) := by
  show (cfg8.win 1).cut (grid8.coords t) ((dat8 V c).after 1 t) = _
  rw [after8_1]
  unfold out8_1
  rw [View.canon_unit_zero origin8]
  simp only [View.ld_unit_zero (S := S1000x64) origin8]
  obtain ⟨e0, e1, e2, e3⟩ := index8 t
  funext j
  obtain ⟨p, q, rfl⟩ : ∃ (p : Fin 1000) (q : Fin 64), j = ix2 p q := ⟨j 0, j 1, eq_ix2 j⟩
  have hrow : win8_1.index t (0 : Fin 2) * 1000 + p.val < 50000 := by have hp : p.val < 1000 := p.isLt; omega
  have hout : ((cfg8.win 1).blk t).view.emb (ix2 p q) = ix2 (⟨win8_1.index t (0 : Fin 2) * 1000 + p.val, hrow⟩ : Fin 50000) q := by
    funext a; apply Fin.ext
    match a with
    | ⟨0, _⟩ => show win8_1.index t (0 : Fin 2) * 1000 + 1 * p.val = win8_1.index t (0 : Fin 2) * 1000 + p.val; omega
    | ⟨1, _⟩ => show win8_1.index t (1 : Fin 2) * 64 + 1 * q.val = q.val; omega
  have hin : ∀ q' : Fin 64, ((cfg8.win 0).blk t).view.emb (ix2 p q') = ix2 (⟨win8_1.index t (0 : Fin 2) * 1000 + p.val, hrow⟩ : Fin 50000) q' := by
    intro q'; funext a; apply Fin.ext
    match a with
    | ⟨0, _⟩ => show win8_0.index t (0 : Fin 2) * 1000 + 1 * p.val = win8_1.index t (0 : Fin 2) * 1000 + p.val; omega
    | ⟨1, _⟩ => show win8_0.index t (1 : Fin 2) * 64 + 1 * q'.val = q'.val; omega
  show k8_pay1 (F := Ideal) (iblk8 V c 0 t) (ix2 p q) = Caps.normArr (V c main_v45) (((cfg8.win 1).blk t).view.emb (ix2 p q))
  rw [hout]
  refine pay_row8 (V c main_v45) (iblk8 V c 0 t) _ p q fun q' => ?_
  show V c main_v45 (((cfg8.win 0).blk t).view.emb (ix2 p q')) = _
  rw [hin q']

/-- An index of the array is in point `t`'s block iff each coordinate is in the block's range on its axis. -/
theorem mem_blk8 (t : Fin cfg8.N) (i : S50000x64.Idx) :
    i ∈ ((cfg8.win 1).blk t).view.set ↔ ∀ a : Fin 2, win8_1.index t a * S1000x64.size a ≤ (i a).val ∧ (i a).val < win8_1.index t a * S1000x64.size a + S1000x64.size a := by
  show i ∈ ((View.whole main_v46).slice (win8_1.rect t)).set ↔ _
  rw [View.set_slice_whole, Rect.mem_set_unit]
  exact Iff.rfl

/-- Every index of the array is in some point's block: row `r` is in the block of the point whose block row is `r / 1000`. -/
theorem cover8 (i : S50000x64.Idx) :
    ∃ t : Fin cfg8.N, (cfg8.win 1).flush t = true ∧ i ∈ ((cfg8.win 1).blk t).view.set := by
  have hi0 : (i 0).val < 50000 := (i 0).isLt
  have hi1 : (i 1).val < 64 := (i 1).isLt
  obtain ⟨t, ht⟩ := index_onto8 ⟨(i 0).val / 1000, by omega⟩
  have q0 : win8_1.index t (0 : Fin 2) = (i 0).val / 1000 := ht
  obtain ⟨-, -, e2, -⟩ := index8 t
  refine ⟨t, flush8_1 t, ?_⟩
  rw [mem_blk8]
  intro a
  match a with
  | ⟨0, _⟩ => show win8_1.index t (0 : Fin 2) * 1000 ≤ (i 0).val ∧ (i 0).val < win8_1.index t (0 : Fin 2) * 1000 + 1000; omega
  | ⟨1, _⟩ => show win8_1.index t (1 : Fin 2) * 64 ≤ (i 1).val ∧ (i 1).val < win8_1.index t (1 : Fin 2) * 64 + 64; omega

/-- The output array after the region's last point, as one function of the arrays the region finds. -/
theorem arr8 (c : Dev nD) :
    (dat8 (F := Ideal) V c).arrAt 1 cfg8.N = Caps.normArr (V c main_v45) :=
  (dat8 (F := Ideal) V c).arrAt_eq_of_cover 1 (Caps.normArr (V c main_v45)) (fun t _ => flushed8 V c t) cover8

end Cert.KernelIdeal.Region

end
-- ==== Proof.KerFold.lean ====
/-
  The kernel program's buffers at its return, walked back through its nineteen segments: the result buffer holds
  the composed term of the argument arrays (dense stage, source rows taken once, four rounds). A host stretch
  rewrites only the buffers its operations write; a region rewrites only its output array, with what its grid
  points wrote; every other buffer is carried unchanged from segment to segment.
-/
import proofs.«413496_j69939247448112_2_alg».proof.Proof.Gen.KernelIdeal.Frame
import proofs.«413496_j69939247448112_2_alg».proof.Proof.KerChains
import proofs.«413496_j69939247448112_2_alg».proof.Proof.Region0
import proofs.«413496_j69939247448112_2_alg».proof.Proof.Region1
import proofs.«413496_j69939247448112_2_alg».proof.Proof.Region2
import proofs.«413496_j69939247448112_2_alg».proof.Proof.Region3
import proofs.«413496_j69939247448112_2_alg».proof.Proof.Region4
import proofs.«413496_j69939247448112_2_alg».proof.Proof.Region5
import proofs.«413496_j69939247448112_2_alg».proof.Proof.Region6
import proofs.«413496_j69939247448112_2_alg».proof.Proof.Region7
import proofs.«413496_j69939247448112_2_alg».proof.Proof.Region8
import Idealize.ShloMosaic.Lib.StableHlo.Run

set_option maxRecDepth 16384

noncomputable section

namespace Cert.KernelIdeal.Fold

open Idealize.ShloMosaic Idealize.ShloMosaic.TcCoe Idealize.ShloMosaic.ValueIdx Cert.KernelIdeal Cert.KernelIdeal.Gen Idealize.SL.Sem

variable (m : (ℓ : Loc nD τ sig) → Buf (Elt Ideal) ℓ) (ρ : Dev nD → PrngReg)

/-! ## Contents moved between a buffer's own type and the type of the value it holds -/

/-- Contents written at a value's type and read back at it are the contents. -/
theorem ofBuf_toBuf {T : BufTy} (x : StableHlo.TRef sig T) (v : T.Contents (Elt Ideal)) : x.ofBuf (x.toBuf v) = v := by
  rcases x with ⟨r, rfl, h2, h3⟩; rfl

/-- Contents moved to the buffer's own type are the same contents. -/
theorem toBuf_heq {T : BufTy} (x : StableHlo.TRef sig T) (v : T.Contents (Elt Ideal)) : HEq (x.toBuf v) v := cast_heq _ _

/-- A host stretch leaves a buffer none of its operations writes as it found it. -/
local macro "unwritten" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## What each host stretch leaves in the buffer read after it, from any contents `V` -/

section Stretches
variable (V : Valuation τ sig (Elt Ideal))

/-- The first stretch: the two rows of the edge list and the bias as one row. -/
theorem stretch0_trg : StableHlo.after (hostOps0 (F := Ideal)) V (Proc.devRef .tc main_v1)
    = Chains.trgOf (V (Proc.devRef .tc main_arg1)) := by
  after_results; rfl
theorem stretch0_src : StableHlo.after (hostOps0 (F := Ideal)) V (Proc.devRef .tc main_v3)
    = Chains.srcOf (V (Proc.devRef .tc main_arg1)) := by
  after_results; rfl
theorem stretch0_bias : StableHlo.after (hostOps0 (F := Ideal)) V (Proc.devRef .tc main_v4)
    = Chains.biasRow (V (Proc.devRef .tc main_arg3)) := by
  after_results; rfl

/-! The five takes: the dense rows at the sources, then each round's node features at the targets. -/

theorem stretch1 : StableHlo.after (hostOps1 (F := Ideal)) V (Proc.devRef .tc main_v6)
    = Chains.take (V (Proc.devRef .tc main_v5)) (V (Proc.devRef .tc main_v3)) := by
  after_results_simp
  simp only [ofBuf_toBuf]
  have ei : ∀ p1 p2 p3, ((StableHlo.TRef.of main_v3 p1 p2 p3 : StableHlo.TRef sig ⟨S1638400, .i32⟩).ofBuf
      (V (Proc.devRef .tc main_v3)) : IVec S1638400 32) = V (Proc.devRef .tc main_v3) := fun _ _ _ => rfl
  have ea : ∀ p1 p2 p3, ((StableHlo.TRef.of main_v5 p1 p2 p3 : StableHlo.TRef sig ⟨S50000x64, .f32⟩).ofBuf
      (V (Proc.devRef .tc main_v5)) : FVec Ideal S50000x64 .f32) = V (Proc.devRef .tc main_v5) := fun _ _ _ => rfl
  simp only [ei, ea]
  exact eq_of_heq ((toBuf_heq _ _).trans (heq_of_eq rfl))

theorem stretch1_1 : StableHlo.after (hostOps1_1 (F := Ideal)) V (Proc.devRef .tc main_v7)
    = Chains.take (V (Proc.devRef .tc main_v5)) (V (Proc.devRef .tc main_v1)) := by
  after_results_simp
  simp only [ofBuf_toBuf]
  have ei : ∀ p1 p2 p3, ((StableHlo.TRef.of main_v1 p1 p2 p3 : StableHlo.TRef sig ⟨S1638400, .i32⟩).ofBuf
      (V (Proc.devRef .tc main_v1)) : IVec S1638400 32) = V (Proc.devRef .tc main_v1) := fun _ _ _ => rfl
  have ea : ∀ p1 p2 p3, ((StableHlo.TRef.of main_v5 p1 p2 p3 : StableHlo.TRef sig ⟨S50000x64, .f32⟩).ofBuf
      (V (Proc.devRef .tc main_v5)) : FVec Ideal S50000x64 .f32) = V (Proc.devRef .tc main_v5) := fun _ _ _ => rfl
  simp only [ei, ea]
  exact eq_of_heq ((toBuf_heq _ _).trans (heq_of_eq rfl))

theorem stretch3 : StableHlo.after (hostOps3 (F := Ideal)) V (Proc.devRef .tc main_v17)
    = Chains.take (V (Proc.devRef .tc main_v16)) (V (Proc.devRef .tc main_v1)) := by
  after_results_simp
  simp only [ofBuf_toBuf]
  have ei : ∀ p1 p2 p3, ((StableHlo.TRef.of main_v1 p1 p2 p3 : StableHlo.TRef sig ⟨S1638400, .i32⟩).ofBuf
      (V (Proc.devRef .tc main_v1)) : IVec S1638400 32) = V (Proc.devRef .tc main_v1) := fun _ _ _ => rfl
  have ea : ∀ p1 p2 p3, ((StableHlo.TRef.of main_v16 p1 p2 p3 : StableHlo.TRef sig ⟨S50000x64, .f32⟩).ofBuf
      (V (Proc.devRef .tc main_v16)) : FVec Ideal S50000x64 .f32) = V (Proc.devRef .tc main_v16) := fun _ _ _ => rfl
  simp only [ei, ea]
  exact eq_of_heq ((toBuf_heq _ _).trans (heq_of_eq rfl))

theorem stretch5 : StableHlo.after (hostOps5 (F := Ideal)) V (Proc.devRef .tc main_v27)
    = Chains.take (V (Proc.devRef .tc main_v26)) (V (Proc.devRef .tc main_v1)) := by
  after_results_simp
  simp only [ofBuf_toBuf]
  have ei : ∀ p1 p2 p3, ((StableHlo.TRef.of main_v1 p1 p2 p3 : StableHlo.TRef sig ⟨S1638400, .i32⟩).ofBuf
      (V (Proc.devRef .tc main_v1)) : IVec S1638400 32) = V (Proc.devRef .tc main_v1) := fun _ _ _ => rfl
  have ea : ∀ p1 p2 p3, ((StableHlo.TRef.of main_v26 p1 p2 p3 : StableHlo.TRef sig ⟨S50000x64, .f32⟩).ofBuf
      (V (Proc.devRef .tc main_v26)) : FVec Ideal S50000x64 .f32) = V (Proc.devRef .tc main_v26) := fun _ _ _ => rfl
  simp only [ei, ea]
  exact eq_of_heq ((toBuf_heq _ _).trans (heq_of_eq rfl))

theorem stretch7 : StableHlo.after (hostOps7 (F := Ideal)) V (Proc.devRef .tc main_v37)
    = Chains.take (V (Proc.devRef .tc main_v36)) (V (Proc.devRef .tc main_v1)) := by
  after_results_simp
  simp only [ofBuf_toBuf]
  have ei : ∀ p1 p2 p3, ((StableHlo.TRef.of main_v1 p1 p2 p3 : StableHlo.TRef sig ⟨S1638400, .i32⟩).ofBuf
      (V (Proc.devRef .tc main_v1)) : IVec S1638400 32) = V (Proc.devRef .tc main_v1) := fun _ _ _ => rfl
  have ea : ∀ p1 p2 p3, ((StableHlo.TRef.of main_v36 p1 p2 p3 : StableHlo.TRef sig ⟨S50000x64, .f32⟩).ofBuf
      (V (Proc.devRef .tc main_v36)) : FVec Ideal S50000x64 .f32) = V (Proc.devRef .tc main_v36) := fun _ _ _ => rfl
  simp only [ei, ea]
  exact eq_of_heq ((toBuf_heq _ _).trans (heq_of_eq rfl))

/-! The four accumulating scatters: each round's messages added to its node features at the targets. -/

theorem stretch2 : StableHlo.after (hostOps2 (F := Ideal)) V (Proc.devRef .tc main_v15)
    = Chains.addAt (V (Proc.devRef .tc main_v5)) (Chains.wrap (V (Proc.devRef .tc main_v1))) (V (Proc.devRef .tc main_v8)) := by
  after_results; rfl

theorem stretch4 : StableHlo.after (hostOps4 (F := Ideal)) V (Proc.devRef .tc main_v25)
    = Chains.addAt (V (Proc.devRef .tc main_v16)) (Chains.wrap (V (Proc.devRef .tc main_v1))) (V (Proc.devRef .tc main_v18)) := by
  after_results; rfl

theorem stretch6 : StableHlo.after (hostOps6 (F := Ideal)) V (Proc.devRef .tc main_v35)
    = Chains.addAt (V (Proc.devRef .tc main_v26)) (Chains.wrap (V (Proc.devRef .tc main_v1))) (V (Proc.devRef .tc main_v28)) := by
  after_results; rfl

theorem stretch8 : StableHlo.after (hostOps8 (F := Ideal)) V (Proc.devRef .tc main_v45)
    = Chains.addAt (V (Proc.devRef .tc main_v36)) (Chains.wrap (V (Proc.devRef .tc main_v1))) (V (Proc.devRef .tc main_v38)) := by
  after_results; rfl

end Stretches

/-! ## The terms the buffers hold -/

/-- The four argument arrays of core `c`. -/
abbrev aX (c : Dev nD) : FVec Ideal S50000x256 .f32 := m ((c : Thread nD τ).loc main_arg0)
abbrev aE (c : Dev nD) : IVec S2x1638400 32 := m ((c : Thread nD τ).loc main_arg1)
abbrev aW (c : Dev nD) : FVec Ideal S256x64 .f32 := m ((c : Thread nD τ).loc main_arg2)
abbrev aB (c : Dev nD) : FVec Ideal S64 .f32 := m ((c : Thread nD τ).loc main_arg3)

/-- The dense stage's rows. -/
def hD (c : Dev nD) : FVec Ideal S50000x64 .f32 := Chains.dense (aX m c) (aW m c) (aB m c)
/-- The target node of every edge. -/
def tG (c : Dev nD) : IVec S1638400 32 := Chains.trgOf (aE m c)
/-- The dense rows at every edge's source. -/
def zS (c : Dev nD) : FVec Ideal S1638400x64 .f32 := Chains.take (hD m c) (Chains.srcOf (aE m c))
/-- The node features after one, two, three and four rounds. -/
def r1 (c : Dev nD) : FVec Ideal S50000x64 .f32 := Chains.round (zS m c) (tG m c) (hD m c)
def r2 (c : Dev nD) : FVec Ideal S50000x64 .f32 := Chains.round (zS m c) (tG m c) (r1 m c)
def r3 (c : Dev nD) : FVec Ideal S50000x64 .f32 := Chains.round (zS m c) (tG m c) (r2 m c)
def r4 (c : Dev nD) : FVec Ideal S50000x64 .f32 := Chains.round (zS m c) (tG m c) (r3 m c)

/-! ## The walk: boundary by boundary, the buffers that are read later -/

section Walk
variable (c : Dev nD)

/-! ### After the first stretch -/

theorem x_at1 : W1 m ρ c (Proc.devRef .tc main_arg0) = aX m c :=
  Eq.trans (b := W0 m ρ c (Proc.devRef .tc main_arg0)) (by unwritten hostOps0) rfl
theorem w_at1 : W1 m ρ c (Proc.devRef .tc main_arg2) = aW m c :=
  Eq.trans (b := W0 m ρ c (Proc.devRef .tc main_arg2)) (by unwritten hostOps0) rfl
theorem trg_at1 : W1 m ρ c (Proc.devRef .tc main_v1) = tG m c := stretch0_trg (W0 m ρ c)
theorem src_at1 : W1 m ρ c (Proc.devRef .tc main_v3) = Chains.srcOf (aE m c) := stretch0_src (W0 m ρ c)
theorem bias_at1 : W1 m ρ c (Proc.devRef .tc main_v4) = Chains.biasRow (aB m c) := stretch0_bias (W0 m ρ c)

/-! ### The dense region, and the source rows taken from it -/

theorem dense_at2 : W2 m ρ c (Proc.devRef .tc main_v5) = hD m c :=
  (W2_arr m ρ c 3).trans ((Region.arr0 (V1 m ρ) c).trans (by
    show Caps.denseArr (W1 m ρ c (Proc.devRef .tc main_arg0)) (W1 m ρ c (Proc.devRef .tc main_arg2))
      (fun j => W1 m ρ c (Proc.devRef .tc main_v4) (ix2 0 j)) = _
    rw [x_at1, w_at1, bias_at1]; rfl))
theorem trg_at2 : W2 m ρ c (Proc.devRef .tc main_v1) = tG m c :=
  Eq.trans (b := W1 m ρ c (Proc.devRef .tc main_v1)) (W2_of_ne m ρ c main_v1 (by decide)) (trg_at1 m ρ c)
theorem src_at2 : W2 m ρ c (Proc.devRef .tc main_v3) = Chains.srcOf (aE m c) :=
  Eq.trans (b := W1 m ρ c (Proc.devRef .tc main_v3)) (W2_of_ne m ρ c main_v3 (by decide)) (src_at1 m ρ c)

theorem Z_at3 : W3 m ρ c (Proc.devRef .tc main_v6) = zS m c :=
  (stretch1 (W2 m ρ c)).trans (congrArg₂ Chains.take (dense_at2 m ρ c) (src_at2 m ρ c))
theorem dense_at3 : W3 m ρ c (Proc.devRef .tc main_v5) = hD m c :=
  Eq.trans (b := W2 m ρ c (Proc.devRef .tc main_v5)) (by unwritten hostOps1) (dense_at2 m ρ c)
theorem trg_at3 : W3 m ρ c (Proc.devRef .tc main_v1) = tG m c :=
  Eq.trans (b := W2 m ρ c (Proc.devRef .tc main_v1)) (by unwritten hostOps1) (trg_at2 m ρ c)

/-! ### Round one -/

theorem got_at4 : W4 m ρ c (Proc.devRef .tc main_v7) = Chains.take (hD m c) (tG m c) :=
  (stretch1_1 (W3 m ρ c)).trans (congrArg₂ Chains.take (dense_at3 m ρ c) (trg_at3 m ρ c))
theorem Z_at4 : W4 m ρ c (Proc.devRef .tc main_v6) = zS m c :=
  Eq.trans (b := W3 m ρ c (Proc.devRef .tc main_v6)) (by unwritten hostOps1_1) (Z_at3 m ρ c)
theorem dense_at4 : W4 m ρ c (Proc.devRef .tc main_v5) = hD m c :=
  Eq.trans (b := W3 m ρ c (Proc.devRef .tc main_v5)) (by unwritten hostOps1_1) (dense_at3 m ρ c)
theorem trg_at4 : W4 m ρ c (Proc.devRef .tc main_v1) = tG m c :=
  Eq.trans (b := W3 m ρ c (Proc.devRef .tc main_v1)) (by unwritten hostOps1_1) (trg_at3 m ρ c)

theorem msg_at5 : W5 m ρ c (Proc.devRef .tc main_v8) = Caps.routeArr (zS m c) (Chains.take (hD m c) (tG m c)) :=
  (W5_arr m ρ c 2).trans ((Region.arr1 (V4 m ρ) c).trans (congrArg₂ Caps.routeArr (Z_at4 m ρ c) (got_at4 m ρ c)))
theorem Z_at5 : W5 m ρ c (Proc.devRef .tc main_v6) = zS m c :=
  Eq.trans (b := W4 m ρ c (Proc.devRef .tc main_v6)) ((W5_arr m ρ c 0).trans (((dat1 (V4 m ρ) c).arrAt_in 0 rfl _).trans (A_eq1 (V4 m ρ) c 0))) (Z_at4 m ρ c)
theorem dense_at5 : W5 m ρ c (Proc.devRef .tc main_v5) = hD m c :=
  Eq.trans (b := W4 m ρ c (Proc.devRef .tc main_v5)) (W5_of_ne m ρ c main_v5 (by decide)) (dense_at4 m ρ c)
theorem trg_at5 : W5 m ρ c (Proc.devRef .tc main_v1) = tG m c :=
  Eq.trans (b := W4 m ρ c (Proc.devRef .tc main_v1)) (W5_of_ne m ρ c main_v1 (by decide)) (trg_at4 m ρ c)

theorem sum_at6 : W6 m ρ c (Proc.devRef .tc main_v15)
    = Chains.addAt (hD m c) (Chains.wrap (tG m c)) (Caps.routeArr (zS m c) (Chains.take (hD m c) (tG m c))) :=
  (stretch2 (W5 m ρ c)).trans (by rw [dense_at5, trg_at5, msg_at5])
theorem Z_at6 : W6 m ρ c (Proc.devRef .tc main_v6) = zS m c :=
  Eq.trans (b := W5 m ρ c (Proc.devRef .tc main_v6)) (by unwritten hostOps2) (Z_at5 m ρ c)
theorem trg_at6 : W6 m ρ c (Proc.devRef .tc main_v1) = tG m c :=
  Eq.trans (b := W5 m ρ c (Proc.devRef .tc main_v1)) (by unwritten hostOps2) (trg_at5 m ρ c)

theorem feat_at7 : W7 m ρ c (Proc.devRef .tc main_v16) = r1 m c :=
  (W7_arr m ρ c 1).trans ((Region.arr2 (V6 m ρ) c).trans (congrArg Caps.normArr (sum_at6 m ρ c)))
theorem Z_at7 : W7 m ρ c (Proc.devRef .tc main_v6) = zS m c :=
  Eq.trans (b := W6 m ρ c (Proc.devRef .tc main_v6)) (W7_of_ne m ρ c main_v6 (by decide)) (Z_at6 m ρ c)
theorem trg_at7 : W7 m ρ c (Proc.devRef .tc main_v1) = tG m c :=
  Eq.trans (b := W6 m ρ c (Proc.devRef .tc main_v1)) (W7_of_ne m ρ c main_v1 (by decide)) (trg_at6 m ρ c)

/-! ### Round two -/

theorem got_at8 : W8 m ρ c (Proc.devRef .tc main_v17) = Chains.take (r1 m c) (tG m c) :=
  (stretch3 (W7 m ρ c)).trans (congrArg₂ Chains.take (feat_at7 m ρ c) (trg_at7 m ρ c))
theorem feat_at8 : W8 m ρ c (Proc.devRef .tc main_v16) = r1 m c :=
  Eq.trans (b := W7 m ρ c (Proc.devRef .tc main_v16)) (by unwritten hostOps3) (feat_at7 m ρ c)
theorem Z_at8 : W8 m ρ c (Proc.devRef .tc main_v6) = zS m c :=
  Eq.trans (b := W7 m ρ c (Proc.devRef .tc main_v6)) (by unwritten hostOps3) (Z_at7 m ρ c)
theorem trg_at8 : W8 m ρ c (Proc.devRef .tc main_v1) = tG m c :=
  Eq.trans (b := W7 m ρ c (Proc.devRef .tc main_v1)) (by unwritten hostOps3) (trg_at7 m ρ c)

theorem msg_at9 : W9 m ρ c (Proc.devRef .tc main_v18) = Caps.routeArr (zS m c) (Chains.take (r1 m c) (tG m c)) :=
  (W9_arr m ρ c 2).trans ((Region.arr3 (V8 m ρ) c).trans (congrArg₂ Caps.routeArr (Z_at8 m ρ c) (got_at8 m ρ c)))
theorem feat_at9 : W9 m ρ c (Proc.devRef .tc main_v16) = r1 m c :=
  Eq.trans (b := W8 m ρ c (Proc.devRef .tc main_v16)) (W9_of_ne m ρ c main_v16 (by decide)) (feat_at8 m ρ c)
theorem Z_at9 : W9 m ρ c (Proc.devRef .tc main_v6) = zS m c :=
  Eq.trans (b := W8 m ρ c (Proc.devRef .tc main_v6)) ((W9_arr m ρ c 0).trans (((dat3 (V8 m ρ) c).arrAt_in 0 rfl _).trans (A_eq3 (V8 m ρ) c 0))) (Z_at8 m ρ c)
theorem trg_at9 : W9 m ρ c (Proc.devRef .tc main_v1) = tG m c :=
  Eq.trans (b := W8 m ρ c (Proc.devRef .tc main_v1)) (W9_of_ne m ρ c main_v1 (by decide)) (trg_at8 m ρ c)

theorem sum_at10 : W10 m ρ c (Proc.devRef .tc main_v25)
    = Chains.addAt (r1 m c) (Chains.wrap (tG m c)) (Caps.routeArr (zS m c) (Chains.take (r1 m c) (tG m c))) :=
  (stretch4 (W9 m ρ c)).trans (by rw [feat_at9, trg_at9, msg_at9])
theorem Z_at10 : W10 m ρ c (Proc.devRef .tc main_v6) = zS m c :=
  Eq.trans (b := W9 m ρ c (Proc.devRef .tc main_v6)) (by unwritten hostOps4) (Z_at9 m ρ c)
theorem trg_at10 : W10 m ρ c (Proc.devRef .tc main_v1) = tG m c :=
  Eq.trans (b := W9 m ρ c (Proc.devRef .tc main_v1)) (by unwritten hostOps4) (trg_at9 m ρ c)

theorem feat_at11 : W11 m ρ c (Proc.devRef .tc main_v26) = r2 m c :=
  (W11_arr m ρ c 1).trans ((Region.arr4 (V10 m ρ) c).trans (congrArg Caps.normArr (sum_at10 m ρ c)))
theorem Z_at11 : W11 m ρ c (Proc.devRef .tc main_v6) = zS m c :=
  Eq.trans (b := W10 m ρ c (Proc.devRef .tc main_v6)) (W11_of_ne m ρ c main_v6 (by decide)) (Z_at10 m ρ c)
theorem trg_at11 : W11 m ρ c (Proc.devRef .tc main_v1) = tG m c :=
  Eq.trans (b := W10 m ρ c (Proc.devRef .tc main_v1)) (W11_of_ne m ρ c main_v1 (by decide)) (trg_at10 m ρ c)

/-! ### Round three -/

theorem got_at12 : W12 m ρ c (Proc.devRef .tc main_v27) = Chains.take (r2 m c) (tG m c) :=
  (stretch5 (W11 m ρ c)).trans (congrArg₂ Chains.take (feat_at11 m ρ c) (trg_at11 m ρ c))
theorem feat_at12 : W12 m ρ c (Proc.devRef .tc main_v26) = r2 m c :=
  Eq.trans (b := W11 m ρ c (Proc.devRef .tc main_v26)) (by unwritten hostOps5) (feat_at11 m ρ c)
theorem Z_at12 : W12 m ρ c (Proc.devRef .tc main_v6) = zS m c :=
  Eq.trans (b := W11 m ρ c (Proc.devRef .tc main_v6)) (by unwritten hostOps5) (Z_at11 m ρ c)
theorem trg_at12 : W12 m ρ c (Proc.devRef .tc main_v1) = tG m c :=
  Eq.trans (b := W11 m ρ c (Proc.devRef .tc main_v1)) (by unwritten hostOps5) (trg_at11 m ρ c)

theorem msg_at13 : W13 m ρ c (Proc.devRef .tc main_v28) = Caps.routeArr (zS m c) (Chains.take (r2 m c) (tG m c)) :=
  (W13_arr m ρ c 2).trans ((Region.arr5 (V12 m ρ) c).trans (congrArg₂ Caps.routeArr (Z_at12 m ρ c) (got_at12 m ρ c)))
theorem feat_at13 : W13 m ρ c (Proc.devRef .tc main_v26) = r2 m c :=
  Eq.trans (b := W12 m ρ c (Proc.devRef .tc main_v26)) (W13_of_ne m ρ c main_v26 (by decide)) (feat_at12 m ρ c)
theorem Z_at13 : W13 m ρ c (Proc.devRef .tc main_v6) = zS m c :=
  Eq.trans (b := W12 m ρ c (Proc.devRef .tc main_v6)) ((W13_arr m ρ c 0).trans (((dat5 (V12 m ρ) c).arrAt_in 0 rfl _).trans (A_eq5 (V12 m ρ) c 0))) (Z_at12 m ρ c)
theorem trg_at13 : W13 m ρ c (Proc.devRef .tc main_v1) = tG m c :=
  Eq.trans (b := W12 m ρ c (Proc.devRef .tc main_v1)) (W13_of_ne m ρ c main_v1 (by decide)) (trg_at12 m ρ c)

theorem sum_at14 : W14 m ρ c (Proc.devRef .tc main_v35)
    = Chains.addAt (r2 m c) (Chains.wrap (tG m c)) (Caps.routeArr (zS m c) (Chains.take (r2 m c) (tG m c))) :=
  (stretch6 (W13 m ρ c)).trans (by rw [feat_at13, trg_at13, msg_at13])
theorem Z_at14 : W14 m ρ c (Proc.devRef .tc main_v6) = zS m c :=
  Eq.trans (b := W13 m ρ c (Proc.devRef .tc main_v6)) (by unwritten hostOps6) (Z_at13 m ρ c)
theorem trg_at14 : W14 m ρ c (Proc.devRef .tc main_v1) = tG m c :=
  Eq.trans (b := W13 m ρ c (Proc.devRef .tc main_v1)) (by unwritten hostOps6) (trg_at13 m ρ c)

theorem feat_at15 : W15 m ρ c (Proc.devRef .tc main_v36) = r3 m c :=
  (W15_arr m ρ c 1).trans ((Region.arr6 (V14 m ρ) c).trans (congrArg Caps.normArr (sum_at14 m ρ c)))
theorem Z_at15 : W15 m ρ c (Proc.devRef .tc main_v6) = zS m c :=
  Eq.trans (b := W14 m ρ c (Proc.devRef .tc main_v6)) (W15_of_ne m ρ c main_v6 (by decide)) (Z_at14 m ρ c)
theorem trg_at15 : W15 m ρ c (Proc.devRef .tc main_v1) = tG m c :=
  Eq.trans (b := W14 m ρ c (Proc.devRef .tc main_v1)) (W15_of_ne m ρ c main_v1 (by decide)) (trg_at14 m ρ c)

/-! ### Round four -/

theorem got_at16 : W16 m ρ c (Proc.devRef .tc main_v37) = Chains.take (r3 m c) (tG m c) :=
  (stretch7 (W15 m ρ c)).trans (congrArg₂ Chains.take (feat_at15 m ρ c) (trg_at15 m ρ c))
theorem feat_at16 : W16 m ρ c (Proc.devRef .tc main_v36) = r3 m c :=
  Eq.trans (b := W15 m ρ c (Proc.devRef .tc main_v36)) (by unwritten hostOps7) (feat_at15 m ρ c)
theorem Z_at16 : W16 m ρ c (Proc.devRef .tc main_v6) = zS m c :=
  Eq.trans (b := W15 m ρ c (Proc.devRef .tc main_v6)) (by unwritten hostOps7) (Z_at15 m ρ c)
theorem trg_at16 : W16 m ρ c (Proc.devRef .tc main_v1) = tG m c :=
  Eq.trans (b := W15 m ρ c (Proc.devRef .tc main_v1)) (by unwritten hostOps7) (trg_at15 m ρ c)

theorem msg_at17 : W17 m ρ c (Proc.devRef .tc main_v38) = Caps.routeArr (zS m c) (Chains.take (r3 m c) (tG m c)) :=
  (W17_arr m ρ c 2).trans ((Region.arr7 (V16 m ρ) c).trans (congrArg₂ Caps.routeArr (Z_at16 m ρ c) (got_at16 m ρ c)))
theorem feat_at17 : W17 m ρ c (Proc.devRef .tc main_v36) = r3 m c :=
  Eq.trans (b := W16 m ρ c (Proc.devRef .tc main_v36)) (W17_of_ne m ρ c main_v36 (by decide)) (feat_at16 m ρ c)
theorem trg_at17 : W17 m ρ c (Proc.devRef .tc main_v1) = tG m c :=
  Eq.trans (b := W16 m ρ c (Proc.devRef .tc main_v1)) (W17_of_ne m ρ c main_v1 (by decide)) (trg_at16 m ρ c)

theorem sum_at18 : W18 m ρ c (Proc.devRef .tc main_v45)
    = Chains.addAt (r3 m c) (Chains.wrap (tG m c)) (Caps.routeArr (zS m c) (Chains.take (r3 m c) (tG m c))) :=
  (stretch8 (W17 m ρ c)).trans (by rw [feat_at17, trg_at17, msg_at17])

theorem feat_at19 : W19 m ρ c (Proc.devRef .tc main_v46) = r4 m c :=
  (W19_arr m ρ c 1).trans ((Region.arr8 (V18 m ρ) c).trans (congrArg Caps.normArr (sum_at18 m ρ c)))

end Walk

/-- The result buffer at the return is the program's composed term of the argument arrays. -/
theorem result (c : Dev nD) :
    W19 (F := Ideal) m ρ c (Proc.devRef .tc main_v46)
      = Chains.final (m ((c : Thread nD τ).loc main_arg0)) (m ((c : Thread nD τ).loc main_arg1))
          (m ((c : Thread nD τ).loc main_arg2)) (m ((c : Thread nD τ).loc main_arg3)) :=
  (feat_at19 m ρ c).trans rfl

end Cert.KernelIdeal.Fold

end
-- ==== Proof.RefChains.lean ====
/-
  The reference's host operations, grouped into the functions they compose to: one capsule
  normalisation (ten operations), the dense stage (matrix product, bias, the slope on the negative side, two
  normalisations), one routing step's messages (scores, softmax over the capsules, weighting), the index
  preparation (a negative index counted from the end), and the whole: four rounds of gather, messages,
  accumulating scatter, normalisation. Each definition lists the printed operations in order.
-/
import proofs.«413496_j69939247448112_2_alg».proof.ReferenceIdeal
import proofs.«413496_j69939247448112_2_alg».proof.Proof.Gen.ReferenceIdeal
import Idealize.ShloMosaic.PureOps.Ideal

noncomputable section

namespace Cert.ReferenceIdeal.Chains

open Idealize.ShloMosaic Cert.ReferenceIdeal Cert.ReferenceIdeal.Facts₀

/-- Every capsule of every row over the larger of its length and the floor: the ten operations of one
    normalisation (reshape to capsules, squares, their sum, square root, the floor, the quotient, reshape back). -/
def norm (s : FVec Ideal S50000x64 .f32) : FVec Ideal S50000x64 .f32 :=
  let a : FVec Ideal S50000x8x8 .f32 := shapeCast S50000x8x8 s shapeCasts_S50000x64_S50000x8x8
  let sq : FVec Ideal S50000x8x8 .f32 := mulf a a
  let ss : FVec Ideal S50000x8 .f32 := Host.reduceAdd sq (constant S_ .f32 0x00000000#32) reducesTo_S50000x8x8_S50000x8_d2 h_S_
  let ss1 : FVec Ideal S50000x8x1 .f32 := broadcastInDim S50000x8x1 ![0, 1] bcast_S50000x8_S50000x8x1_0_1 ss
  let len : FVec Ideal S50000x8x1 .f32 := Host.sqrt ss1
  let fl : FVec Ideal S50000x8x1 .f32 := broadcastInDim S50000x8x1 ![] bcast_S_S50000x8x1 (constant S_ .f32 0x2B8CBCCC#32)
  let den : FVec Ideal S50000x8x1 .f32 := maximumf len fl
  let den8 : FVec Ideal S50000x8x8 .f32 := broadcastInDim S50000x8x8 ![0, 1, 2] bcast_S50000x8x1_S50000x8x8_0_1_2 den
  let q : FVec Ideal S50000x8x8 .f32 := Host.divf a den8
  shapeCast S50000x64 q shapeCasts_S50000x8x8_S50000x64

/-- `x` where `x ≥ 0`, the slope times `x` elsewhere, entry by entry. -/
def leakyRelu (a : FVec Ideal S50000x64 .f32) : FVec Ideal S50000x64 .f32 :=
  let z : FVec Ideal S50000x64 .f32 := broadcastInDim S50000x64 ![] bcast_S_S50000x64 (constant S_ .f32 0x00000000#32)
  let ge : IVec S50000x64 1 := cmpf .oge a z
  let sl : FVec Ideal S50000x64 .f32 := broadcastInDim S50000x64 ![] bcast_S_S50000x64 (constant S_ .f32 0x3C23D70A#32)
  let neg : FVec Ideal S50000x64 .f32 := mulf sl a
  select ge a neg

/-- The dense stage: the matrix product, the bias on every row, the slope, two normalisations. -/
def dense (x : FVec Ideal S50000x256 .f32) (w : FVec Ideal S256x64 .f32) (b : FVec Ideal S64 .f32) : FVec Ideal S50000x64 .f32 :=
  let xw : FVec Ideal S50000x64 .f32 := Host.dotGeneral dot_S50000x256_S256x64_S50000x64_1_0_0_1_n_n none x w
  let b1 : FVec Ideal S1x64 .f32 := broadcastInDim S1x64 ![1] bcast_S64_S1x64_1 b
  let b2 : FVec Ideal S50000x64 .f32 := broadcastInDim S50000x64 ![0, 1] bcast_S1x64_S50000x64_0_1 b1
  let pre : FVec Ideal S50000x64 .f32 := addf xw b2
  norm (norm (leakyRelu pre))

/-- One round's messages from the source rows `Z` and the gathered target rows `CT` (both one row an edge):
    per-capsule inner products over the temperature, a softmax over the 8 capsules, each capsule of `Z` scaled. -/
def route (Z CT : FVec Ideal S1638400x64 .f32) : FVec Ideal S1638400x64 .f32 :=
  let z3 : FVec Ideal S1638400x8x8 .f32 := shapeCast S1638400x8x8 Z shapeCasts_S1638400x64_S1638400x8x8
  let c3 : FVec Ideal S1638400x8x8 .f32 := shapeCast S1638400x8x8 CT shapeCasts_S1638400x64_S1638400x8x8
  let pr : FVec Ideal S1638400x8x8 .f32 := mulf z3 c3
  let ip : FVec Ideal S1638400x8 .f32 := Host.reduceAdd pr (constant S_ .f32 0x00000000#32) reducesTo_S1638400x8x8_S1638400x8_d2 h_S_
  let tau : FVec Ideal S1638400x8 .f32 := broadcastInDim S1638400x8 ![] bcast_S_S1638400x8 (constant S_ .f32 0x3F800000#32)
  let p : FVec Ideal S1638400x8 .f32 := Host.divf ip tau
  let mx0 : FVec Ideal S1638400 .f32 := Host.reduce FloatOps.maximumf p (constant S_ .f32 0xFF800000#32) reducesTo_S1638400x8_S1638400_d1 h_S_
  let ni : FVec Ideal S1638400 .f32 := broadcastInDim S1638400 ![] bcast_S_S1638400 (constant S_ .f32 0xFF800000#32)
  let mx : FVec Ideal S1638400 .f32 := maximumf ni mx0
  let mx1 : FVec Ideal S1638400x1 .f32 := broadcastInDim S1638400x1 ![0] bcast_S1638400_S1638400x1_0 mx
  let mx8 : FVec Ideal S1638400x8 .f32 := broadcastInDim S1638400x8 ![0, 1] bcast_S1638400x1_S1638400x8_0_1 mx1
  let sh : FVec Ideal S1638400x8 .f32 := subf p mx8
  let e : FVec Ideal S1638400x8 .f32 := Host.exp sh
  let se : FVec Ideal S1638400 .f32 := Host.reduceAdd e (constant S_ .f32 0x00000000#32) reducesTo_S1638400x8_S1638400_d1 h_S_
  let se1 : FVec Ideal S1638400x1 .f32 := broadcastInDim S1638400x1 ![0] bcast_S1638400_S1638400x1_0 se
  let se8 : FVec Ideal S1638400x8 .f32 := broadcastInDim S1638400x8 ![0, 1] bcast_S1638400x1_S1638400x8_0_1 se1
  let wt : FVec Ideal S1638400x8 .f32 := Host.divf e se8
  let wt1 : FVec Ideal S1638400x8x1 .f32 := broadcastInDim S1638400x8x1 ![0, 1] bcast_S1638400x8_S1638400x8x1_0_1 wt
  let wt8 : FVec Ideal S1638400x8x8 .f32 := broadcastInDim S1638400x8x8 ![0, 1, 2] bcast_S1638400x8x1_S1638400x8x8_0_1_2 wt1
  let ms : FVec Ideal S1638400x8x8 .f32 := mulf wt8 z3
  shapeCast S1638400x64 ms shapeCasts_S1638400x8x8_S1638400x64

/-- The index preparation before every gather and scatter: a negative index has the row count added;
    the result as a column of one-entry index vectors. -/
def wrap (idx : IVec S1638400 32) : IVec S1638400x1 32 :=
  let z : IVec S1638400 32 := broadcastInDim S1638400 ![] bcast_S_S1638400 (constantI S_ 32 0#32)
  let lt : IVec S1638400 1 := cmpi .slt idx z
  let n : IVec S1638400 32 := broadcastInDim S1638400 ![] bcast_S_S1638400 (constantI S_ 32 50000#32)
  let up : IVec S1638400 32 := addi idx n
  let w : IVec S1638400 32 := select lt up idx
  broadcastInDim S1638400x1 ![0] bcast_S1638400_S1638400x1_0 w

/-- Row 0 of the edge list: the target node of every edge. -/
def trgOf (st : IVec S2x1638400 32) : IVec S1638400 32 :=
  shapeCast S1638400 (extractStridedSlice S1x1638400 ![0, 0] st slices_S2x1638400_S1x1638400_0_0) shapeCasts_S1x1638400_S1638400

/-- Row 1 of the edge list: the source node of every edge. -/
def srcOf (st : IVec S2x1638400 32) : IVec S1638400 32 :=
  shapeCast S1638400 (extractStridedSlice S1x1638400 ![1, 0] st slices_S2x1638400_S1x1638400_1_0) shapeCasts_S1x1638400_S1638400

/-- The rows of `A` at the prepared indices. -/
def rowsAt (A : FVec Ideal S50000x64 .f32) (i : IVec S1638400x1 32) : FVec Ideal S1638400x64 .f32 :=
  Host.gather gather_S50000x64_S1638400x1_S1638400x64_1_0_n_n_0_1_164 A i

/-- `c` with every message added to its target's row. -/
def addAt (c : FVec Ideal S50000x64 .f32) (i : IVec S1638400x1 32) (u : FVec Ideal S1638400x64 .f32) : FVec Ideal S50000x64 .f32 :=
  Host.scatterAdd scatter_S50000x64_S1638400x1_S1638400x64_1_0_0_1 c i u

/-- One routing round from the node features `c`, with the source rows `Z` fixed. -/
def round (Z : FVec Ideal S1638400x64 .f32) (trg : IVec S1638400 32) (c : FVec Ideal S50000x64 .f32) : FVec Ideal S50000x64 .f32 :=
  norm (addAt c (wrap trg) (route Z (rowsAt c (wrap trg))))

/-- The whole reference: the dense stage, the source rows gathered once, four routing rounds. -/
def final (x : FVec Ideal S50000x256 .f32) (st : IVec S2x1638400 32) (w : FVec Ideal S256x64 .f32) (b : FVec Ideal S64 .f32) :
    FVec Ideal S50000x64 .f32 :=
  let h := dense x w b
  let Z := rowsAt h (wrap (srcOf st))
  round Z (trgOf st) (round Z (trgOf st) (round Z (trgOf st) (round Z (trgOf st) h)))

end Cert.ReferenceIdeal.Chains

end
-- ==== Proof.RefRun.lean ====
/-
  The reference's run: its @main is a straight line of host operations (with one outlined function called once),
  so every weakly fair execution terminates, and the result buffer then holds the operations' composed term of the
  argument arrays, the arguments unchanged.

  The line is listed in ten consecutive pieces (the dense stage; the source rows; each of the four rounds in two
  parts). The printed windows are concatenations of pieces, so @main is the sequence of all of them. The buffer
  contents after the line are computed piece by piece: each stage's result is the grouped function of RefChains of
  the contents it reads, the buffers later stages read are not written in between, and the composition of the
  six stages is the whole reference.
-/
import proofs.«413496_j69939247448112_2_alg».proof.Proof.RefChains
import Idealize.ShloMosaic.Lib.StableHlo.Run
import Idealize.ShloMosaic.Lib.ValueIdx
import Idealize.ShloMosaic.Adequacy
import Idealize.ShloMosaic.Init

noncomputable section

namespace Cert.ReferenceIdeal.HandRun

open Idealize.ShloMosaic Idealize.ShloMosaic.TcCoe Idealize.ShloMosaic.ValueIdx Cert.ReferenceIdeal Idealize.SL.Sem
open Idealize.ShloMosaic.StableHlo Cert.ReferenceIdeal.Facts₀

section Line

variable {F : FTy → Type} [FloatOps F]

/-! ## The operations, in order, in ten pieces -/

set_option maxHeartbeats 4000000 in
/-- The dense stage and the two rows of the edge list: the operations up to the twice-normalised features. -/
abbrev pA : List (HloOp τ sig (Elt F)) :=
  [ unary main_arg1 main_v0 ((extractStridedSlice S1x1638400 ![0, 0] · slices_S2x1638400_S1x1638400_0_0) : (⟨S2x1638400, .i32⟩ : BufTy).Contents (Elt F) → (⟨S1x1638400, .i32⟩ : BufTy).Contents (Elt F)),
    reshape main_v0 main_v1 rfl shapeCasts_S1x1638400_S1638400,
    unary main_arg1 main_v2 ((extractStridedSlice S1x1638400 ![1, 0] · slices_S2x1638400_S1x1638400_1_0) : (⟨S2x1638400, .i32⟩ : BufTy).Contents (Elt F) → (⟨S1x1638400, .i32⟩ : BufTy).Contents (Elt F)),
    reshape main_v2 main_v3 rfl shapeCasts_S1x1638400_S1638400,
    binary main_arg0 main_arg2 main_v4 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg3 main_v5 (broadcastInDim S1x64 ![1] bcast_S64_S1x64_1 : (⟨S64, .f32⟩ : BufTy).Contents (Elt F) → (⟨S1x64, .f32⟩ : BufTy).Contents (Elt F)),
    unary main_v5 main_v6 (broadcastInDim S50000x64 ![0, 1] bcast_S1x64_S50000x64_0_1 : (⟨S1x64, .f32⟩ : BufTy).Contents (Elt F) → (⟨S50000x64, .f32⟩ : BufTy).Contents (Elt F)),
    binary main_v4 main_v6 main_v7 (addf : (⟨S50000x64, .f32⟩ : BufTy).Contents (Elt F) → (⟨S50000x64, .f32⟩ : BufTy).Contents (Elt F) → (⟨S50000x64, .f32⟩ : BufTy).Contents (Elt F)),
    TRef.nullary main_call0.cst (constant S_ .f32 0x00000000#32),
    TRef.unary main_call0.cst main_call0.v0 (broadcastInDim S50000x64 ![] bcast_S_S50000x64),
    TRef.binary (.of main_v7) main_call0.v0 main_call0.v1 (cmpf .oge),
    TRef.nullary main_call0.cst_0 (constant S_ .f32 0x3C23D70A#32),
    TRef.unary main_call0.cst_0 main_call0.v2 (broadcastInDim S50000x64 ![] bcast_S_S50000x64),
    TRef.binary main_call0.v2 (.of main_v7) main_call0.v3 mulf,
    TRef.ternary main_call0.v1 (.of main_v7) main_call0.v3 main_call0.call0.v0 select,
    reshape main_v8 main_v9 rfl shapeCasts_S50000x64_S50000x8x8,
    binary main_v9 main_v9 main_v10 (mulf : (⟨S50000x8x8, .f32⟩ : BufTy).Contents (Elt F) → (⟨S50000x8x8, .f32⟩ : BufTy).Contents (Elt F) → (⟨S50000x8x8, .f32⟩ : BufTy).Contents (Elt F)),
    nullary main_cst (constant S_ .f32 0x00000000#32),
    binary main_v10 main_cst main_v11 ((fun x v => Host.reduceAdd x v reducesTo_S50000x8x8_S50000x8_d2 h_S_) : (⟨S50000x8x8, .f32⟩ : BufTy).Contents (Elt F) → (⟨S_, .f32⟩ : BufTy).Contents (Elt F) → (⟨S50000x8, .f32⟩ : BufTy).Contents (Elt F)),
    unary main_v11 main_v12 (broadcastInDim S50000x8x1 ![0, 1] bcast_S50000x8_S50000x8x1_0_1 : (⟨S50000x8, .f32⟩ : BufTy).Contents (Elt F) → (⟨S50000x8x1, .f32⟩ : BufTy).Contents (Elt F)),
    unary main_v12 main_v13 (Host.sqrt : (⟨S50000x8x1, .f32⟩ : BufTy).Contents (Elt F) → (⟨S50000x8x1, .f32⟩ : BufTy).Contents (Elt F)),
    nullary main_cst_0 (constant S_ .f32 0x2B8CBCCC#32),
    unary main_cst_0 main_v14 (broadcastInDim S50000x8x1 ![] bcast_S_S50000x8x1 : (⟨S_, .f32⟩ : BufTy).Contents (Elt F) → (⟨S50000x8x1, .f32⟩ : BufTy).Contents (Elt F)),
    binary main_v13 main_v14 main_v15 (maximumf : (⟨S50000x8x1, .f32⟩ : BufTy).Contents (Elt F) → (⟨S50000x8x1, .f32⟩ : BufTy).Contents (Elt F) → (⟨S50000x8x1, .f32⟩ : BufTy).Contents (Elt F)),
    unary main_v15 main_v16 (broadcastInDim S50000x8x8 ![0, 1, 2] bcast_S50000x8x1_S50000x8x8_0_1_2 : (⟨S50000x8x1, .f32⟩ : BufTy).Contents (Elt F) → (⟨S50000x8x8, .f32⟩ : BufTy).Contents (Elt F)),
    binary main_v9 main_v16 main_v17 (Host.divf : (⟨S50000x8x8, .f32⟩ : BufTy).Contents (Elt F) → (⟨S50000x8x8, .f32⟩ : BufTy).Contents (Elt F) → (⟨S50000x8x8, .f32⟩ : BufTy).Contents (Elt F)),
    reshape main_v17 main_v18 rfl shapeCasts_S50000x8x8_S50000x64,
    reshape main_v18 main_v19 rfl shapeCasts_S50000x64_S50000x8x8,
    binary main_v19 main_v19 main_v20 (mulf : (⟨S50000x8x8, .f32⟩ : BufTy).Contents (Elt F) → (⟨S50000x8x8, .f32⟩ : BufTy).Contents (Elt F) → (⟨S50000x8x8, .f32⟩ : BufTy).Contents (Elt F)),
    nullary main_cst_1 (constant S_ .f32 0x00000000#32),
    binary main_v20 main_cst_1 main_v21 ((fun x v => Host.reduceAdd x v reducesTo_S50000x8x8_S50000x8_d2 h_S_) : (⟨S50000x8x8, .f32⟩ : BufTy).Contents (Elt F) → (⟨S_, .f32⟩ : BufTy).Contents (Elt F) → (⟨S50000x8, .f32⟩ : BufTy).Contents (Elt F)),
    unary main_v21 main_v22 (broadcastInDim S50000x8x1 ![0, 1] bcast_S50000x8_S50000x8x1_0_1 : (⟨S50000x8, .f32⟩ : BufTy).Contents (Elt F) → (⟨S50000x8x1, .f32⟩ : BufTy).Contents (Elt F)),
    unary main_v22 main_v23 (Host.sqrt : (⟨S50000x8x1, .f32⟩ : BufTy).Contents (Elt F) → (⟨S50000x8x1, .f32⟩ : BufTy).Contents (Elt F)),
    nullary main_cst_2 (constant S_ .f32 0x2B8CBCCC#32),
    unary main_cst_2 main_v24 (broadcastInDim S50000x8x1 ![] bcast_S_S50000x8x1 : (⟨S_, .f32⟩ : BufTy).Contents (Elt F) → (⟨S50000x8x1, .f32⟩ : BufTy).Contents (Elt F)),
    binary main_v23 main_v24 main_v25 (maximumf : (⟨S50000x8x1, .f32⟩ : BufTy).Contents (Elt F) → (⟨S50000x8x1, .f32⟩ : BufTy).Contents (Elt F) → (⟨S50000x8x1, .f32⟩ : BufTy).Contents (Elt F)),
    unary main_v25 main_v26 (broadcastInDim S50000x8x8 ![0, 1, 2] bcast_S50000x8x1_S50000x8x8_0_1_2 : (⟨S50000x8x1, .f32⟩ : BufTy).Contents (Elt F) → (⟨S50000x8x8, .f32⟩ : BufTy).Contents (Elt F)),
    binary main_v19 main_v26 main_v27 (Host.divf : (⟨S50000x8x8, .f32⟩ : BufTy).Contents (Elt F) → (⟨S50000x8x8, .f32⟩ : BufTy).Contents (Elt F) → (⟨S50000x8x8, .f32⟩ : BufTy).Contents (Elt F)),
    reshape main_v27 main_v28 rfl shapeCasts_S50000x8x8_S50000x64 ]

set_option maxHeartbeats 4000000 in
/-- The source index prepared, the source rows gathered once, and their capsule form. -/
abbrev pB : List (HloOp τ sig (Elt F)) :=
  [ nullary main_c (constantI S_ 32 0#32),
    unary main_c main_v29 (broadcastInDim S1638400 ![] bcast_S_S1638400 : (⟨S_, .i32⟩ : BufTy).Contents (Elt F) → (⟨S1638400, .i32⟩ : BufTy).Contents (Elt F)),
    binary main_v3 main_v29 main_v30 (cmpi .slt : (⟨S1638400, .i32⟩ : BufTy).Contents (Elt F) → (⟨S1638400, .i32⟩ : BufTy).Contents (Elt F) → (⟨S1638400, .i1⟩ : BufTy).Contents (Elt F)),
    nullary main_c_3 (constantI S_ 32 50000#32),
    unary main_c_3 main_v31 (broadcastInDim S1638400 ![] bcast_S_S1638400 : (⟨S_, .i32⟩ : BufTy).Contents (Elt F) → (⟨S1638400, .i32⟩ : BufTy).Contents (Elt F)),
    binary main_v3 main_v31 main_v32 (addi : (⟨S1638400, .i32⟩ : BufTy).Contents (Elt F) → (⟨S1638400, .i32⟩ : BufTy).Contents (Elt F) → (⟨S1638400, .i32⟩ : BufTy).Contents (Elt F)),
    ternary main_v30 main_v32 main_v3 main_v33 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    unary main_v33 main_v34 (broadcastInDim S1638400x1 ![0] bcast_S1638400_S1638400x1_0 : (⟨S1638400, .i32⟩ : BufTy).Contents (Elt F) → (⟨S1638400x1, .i32⟩ : BufTy).Contents (Elt F)),
    binary main_v28 main_v34 main_v35 ((fun x i => Host.gather gather_S50000x64_S1638400x1_S1638400x64_1_0_n_n_0_1_164 x i) : (⟨S50000x64, .f32⟩ : BufTy).Contents (Elt F) → (⟨S1638400x1, .i32⟩ : BufTy).Contents (Elt F) → (⟨S1638400x64, .f32⟩ : BufTy).Contents (Elt F)),
    reshape main_v35 main_v36 rfl shapeCasts_S1638400x64_S1638400x8x8 ]

set_option maxHeartbeats 4000000 in
/-- Round 1, first part: the target index prepared, the target rows gathered, the scores up to the row maximum's start value. -/
abbrev pR1a : List (HloOp τ sig (Elt F)) :=
  [ nullary main_c_4 (constantI S_ 32 0#32),
    unary main_c_4 main_v37 (broadcastInDim S1638400 ![] bcast_S_S1638400 : (⟨S_, .i32⟩ : BufTy).Contents (Elt F) → (⟨S1638400, .i32⟩ : BufTy).Contents (Elt F)),
    binary main_v1 main_v37 main_v38 (cmpi .slt : (⟨S1638400, .i32⟩ : BufTy).Contents (Elt F) → (⟨S1638400, .i32⟩ : BufTy).Contents (Elt F) → (⟨S1638400, .i1⟩ : BufTy).Contents (Elt F)),
    nullary main_c_5 (constantI S_ 32 50000#32),
    unary main_c_5 main_v39 (broadcastInDim S1638400 ![] bcast_S_S1638400 : (⟨S_, .i32⟩ : BufTy).Contents (Elt F) → (⟨S1638400, .i32⟩ : BufTy).Contents (Elt F)),
    binary main_v1 main_v39 main_v40 (addi : (⟨S1638400, .i32⟩ : BufTy).Contents (Elt F) → (⟨S1638400, .i32⟩ : BufTy).Contents (Elt F) → (⟨S1638400, .i32⟩ : BufTy).Contents (Elt F)),
    ternary main_v38 main_v40 main_v1 main_v41 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    unary main_v41 main_v42 (broadcastInDim S1638400x1 ![0] bcast_S1638400_S1638400x1_0 : (⟨S1638400, .i32⟩ : BufTy).Contents (Elt F) → (⟨S1638400x1, .i32⟩ : BufTy).Contents (Elt F)),
    binary main_v28 main_v42 main_v43 ((fun x i => Host.gather gather_S50000x64_S1638400x1_S1638400x64_1_0_n_n_0_1_164 x i) : (⟨S50000x64, .f32⟩ : BufTy).Contents (Elt F) → (⟨S1638400x1, .i32⟩ : BufTy).Contents (Elt F) → (⟨S1638400x64, .f32⟩ : BufTy).Contents (Elt F)),
    reshape main_v43 main_v44 rfl shapeCasts_S1638400x64_S1638400x8x8,
    binary main_v36 main_v44 main_v45 (mulf : (⟨S1638400x8x8, .f32⟩ : BufTy).Contents (Elt F) → (⟨S1638400x8x8, .f32⟩ : BufTy).Contents (Elt F) → (⟨S1638400x8x8, .f32⟩ : BufTy).Contents (Elt F)),
    nullary main_cst_6 (constant S_ .f32 0x00000000#32),
    binary main_v45 main_cst_6 main_v46 ((fun x v => Host.reduceAdd x v reducesTo_S1638400x8x8_S1638400x8_d2 h_S_) : (⟨S1638400x8x8, .f32⟩ : BufTy).Contents (Elt F) → (⟨S_, .f32⟩ : BufTy).Contents (Elt F) → (⟨S1638400x8, .f32⟩ : BufTy).Contents (Elt F)),
    nullary main_cst_7 (constant S_ .f32 0x3F800000#32),
    unary main_cst_7 main_v47 (broadcastInDim S1638400x8 ![] bcast_S_S1638400x8 : (⟨S_, .f32⟩ : BufTy).Contents (Elt F) → (⟨S1638400x8, .f32⟩ : BufTy).Contents (Elt F)),
    binary main_v46 main_v47 main_v48 (Host.divf : (⟨S1638400x8, .f32⟩ : BufTy).Contents (Elt F) → (⟨S1638400x8, .f32⟩ : BufTy).Contents (Elt F) → (⟨S1638400x8, .f32⟩ : BufTy).Contents (Elt F)),
    nullary main_cst_8 (constant S_ .f32 0xFF800000#32) ]

set_option maxHeartbeats 4000000 in
/-- Round 1, second part: the softmax, the messages, the accumulating scatter, the normalisation. -/
abbrev pR1b : List (HloOp τ sig (Elt F)) :=
  [ binary main_v48 main_cst_8 main_v49 ((fun x v => Host.reduce FloatOps.maximumf x v reducesTo_S1638400x8_S1638400_d1 h_S_) : (⟨S1638400x8, .f32⟩ : BufTy).Contents (Elt F) → (⟨S_, .f32⟩ : BufTy).Contents (Elt F) → (⟨S1638400, .f32⟩ : BufTy).Contents (Elt F)),
    nullary main_cst_9 (constant S_ .f32 0xFF800000#32),
    unary main_cst_9 main_v50 (broadcastInDim S1638400 ![] bcast_S_S1638400 : (⟨S_, .f32⟩ : BufTy).Contents (Elt F) → (⟨S1638400, .f32⟩ : BufTy).Contents (Elt F)),
    binary main_v50 main_v49 main_v51 (maximumf : (⟨S1638400, .f32⟩ : BufTy).Contents (Elt F) → (⟨S1638400, .f32⟩ : BufTy).Contents (Elt F) → (⟨S1638400, .f32⟩ : BufTy).Contents (Elt F)),
    unary main_v51 main_v52 (broadcastInDim S1638400x1 ![0] bcast_S1638400_S1638400x1_0 : (⟨S1638400, .f32⟩ : BufTy).Contents (Elt F) → (⟨S1638400x1, .f32⟩ : BufTy).Contents (Elt F)),
    unary main_v52 main_v53 (broadcastInDim S1638400x8 ![0, 1] bcast_S1638400x1_S1638400x8_0_1 : (⟨S1638400x1, .f32⟩ : BufTy).Contents (Elt F) → (⟨S1638400x8, .f32⟩ : BufTy).Contents (Elt F)),
    binary main_v48 main_v53 main_v54 (subf : (⟨S1638400x8, .f32⟩ : BufTy).Contents (Elt F) → (⟨S1638400x8, .f32⟩ : BufTy).Contents (Elt F) → (⟨S1638400x8, .f32⟩ : BufTy).Contents (Elt F)),
    unary main_v54 main_v55 (Host.exp : (⟨S1638400x8, .f32⟩ : BufTy).Contents (Elt F) → (⟨S1638400x8, .f32⟩ : BufTy).Contents (Elt F)),
    nullary main_cst_10 (constant S_ .f32 0x00000000#32),
    binary main_v55 main_cst_10 main_v56 ((fun x v => Host.reduceAdd x v reducesTo_S1638400x8_S1638400_d1 h_S_) : (⟨S1638400x8, .f32⟩ : BufTy).Contents (Elt F) → (⟨S_, .f32⟩ : BufTy).Contents (Elt F) → (⟨S1638400, .f32⟩ : BufTy).Contents (Elt F)),
    unary main_v56 main_v57 (broadcastInDim S1638400x1 ![0] bcast_S1638400_S1638400x1_0 : (⟨S1638400, .f32⟩ : BufTy).Contents (Elt F) → (⟨S1638400x1, .f32⟩ : BufTy).Contents (Elt F)),
    unary main_v57 main_v58 (broadcastInDim S1638400x8 ![0, 1] bcast_S1638400x1_S1638400x8_0_1 : (⟨S1638400x1, .f32⟩ : BufTy).Contents (Elt F) → (⟨S1638400x8, .f32⟩ : BufTy).Contents (Elt F)),
    binary main_v55 main_v58 main_v59 (Host.divf : (⟨S1638400x8, .f32⟩ : BufTy).Contents (Elt F) → (⟨S1638400x8, .f32⟩ : BufTy).Contents (Elt F) → (⟨S1638400x8, .f32⟩ : BufTy).Contents (Elt F)),
    unary main_v59 main_v60 (broadcastInDim S1638400x8x1 ![0, 1] bcast_S1638400x8_S1638400x8x1_0_1 : (⟨S1638400x8, .f32⟩ : BufTy).Contents (Elt F) → (⟨S1638400x8x1, .f32⟩ : BufTy).Contents (Elt F)),
    unary main_v60 main_v61 (broadcastInDim S1638400x8x8 ![0, 1, 2] bcast_S1638400x8x1_S1638400x8x8_0_1_2 : (⟨S1638400x8x1, .f32⟩ : BufTy).Contents (Elt F) → (⟨S1638400x8x8, .f32⟩ : BufTy).Contents (Elt F)),
    binary main_v61 main_v36 main_v62 (mulf : (⟨S1638400x8x8, .f32⟩ : BufTy).Contents (Elt F) → (⟨S1638400x8x8, .f32⟩ : BufTy).Contents (Elt F) → (⟨S1638400x8x8, .f32⟩ : BufTy).Contents (Elt F)),
    reshape main_v62 main_v63 rfl shapeCasts_S1638400x8x8_S1638400x64,
    nullary main_c_11 (constantI S_ 32 0#32),
    unary main_c_11 main_v64 (broadcastInDim S1638400 ![] bcast_S_S1638400 : (⟨S_, .i32⟩ : BufTy).Contents (Elt F) → (⟨S1638400, .i32⟩ : BufTy).Contents (Elt F)),
    binary main_v1 main_v64 main_v65 (cmpi .slt : (⟨S1638400, .i32⟩ : BufTy).Contents (Elt F) → (⟨S1638400, .i32⟩ : BufTy).Contents (Elt F) → (⟨S1638400, .i1⟩ : BufTy).Contents (Elt F)),
    nullary main_c_12 (constantI S_ 32 50000#32),
    unary main_c_12 main_v66 (broadcastInDim S1638400 ![] bcast_S_S1638400 : (⟨S_, .i32⟩ : BufTy).Contents (Elt F) → (⟨S1638400, .i32⟩ : BufTy).Contents (Elt F)),
    binary main_v1 main_v66 main_v67 (addi : (⟨S1638400, .i32⟩ : BufTy).Contents (Elt F) → (⟨S1638400, .i32⟩ : BufTy).Contents (Elt F) → (⟨S1638400, .i32⟩ : BufTy).Contents (Elt F)),
    ternary main_v65 main_v67 main_v1 main_v68 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    unary main_v68 main_v69 (broadcastInDim S1638400x1 ![0] bcast_S1638400_S1638400x1_0 : (⟨S1638400, .i32⟩ : BufTy).Contents (Elt F) → (⟨S1638400x1, .i32⟩ : BufTy).Contents (Elt F)),
    ternary main_v28 main_v69 main_v63 main_v70 ((fun x i u => Host.scatterAdd scatter_S50000x64_S1638400x1_S1638400x64_1_0_0_1 x i u) : (⟨S50000x64, .f32⟩ : BufTy).Contents (Elt F) → (⟨S1638400x1, .i32⟩ : BufTy).Contents (Elt F) → (⟨S1638400x64, .f32⟩ : BufTy).Contents (Elt F) → (⟨S50000x64, .f32⟩ : BufTy).Contents (Elt F)),
    reshape main_v70 main_v71 rfl shapeCasts_S50000x64_S50000x8x8,
    binary main_v71 main_v71 main_v72 (mulf : (⟨S50000x8x8, .f32⟩ : BufTy).Contents (Elt F) → (⟨S50000x8x8, .f32⟩ : BufTy).Contents (Elt F) → (⟨S50000x8x8, .f32⟩ : BufTy).Contents (Elt F)),
    nullary main_cst_13 (constant S_ .f32 0x00000000#32),
    binary main_v72 main_cst_13 main_v73 ((fun x v => Host.reduceAdd x v reducesTo_S50000x8x8_S50000x8_d2 h_S_) : (⟨S50000x8x8, .f32⟩ : BufTy).Contents (Elt F) → (⟨S_, .f32⟩ : BufTy).Contents (Elt F) → (⟨S50000x8, .f32⟩ : BufTy).Contents (Elt F)),
    unary main_v73 main_v74 (broadcastInDim S50000x8x1 ![0, 1] bcast_S50000x8_S50000x8x1_0_1 : (⟨S50000x8, .f32⟩ : BufTy).Contents (Elt F) → (⟨S50000x8x1, .f32⟩ : BufTy).Contents (Elt F)),
    unary main_v74 main_v75 (Host.sqrt : (⟨S50000x8x1, .f32⟩ : BufTy).Contents (Elt F) → (⟨S50000x8x1, .f32⟩ : BufTy).Contents (Elt F)),
    nullary main_cst_14 (constant S_ .f32 0x2B8CBCCC#32),
    unary main_cst_14 main_v76 (broadcastInDim S50000x8x1 ![] bcast_S_S50000x8x1 : (⟨S_, .f32⟩ : BufTy).Contents (Elt F) → (⟨S50000x8x1, .f32⟩ : BufTy).Contents (Elt F)),
    binary main_v75 main_v76 main_v77 (maximumf : (⟨S50000x8x1, .f32⟩ : BufTy).Contents (Elt F) → (⟨S50000x8x1, .f32⟩ : BufTy).Contents (Elt F) → (⟨S50000x8x1, .f32⟩ : BufTy).Contents (Elt F)),
    unary main_v77 main_v78 (broadcastInDim S50000x8x8 ![0, 1, 2] bcast_S50000x8x1_S50000x8x8_0_1_2 : (⟨S50000x8x1, .f32⟩ : BufTy).Contents (Elt F) → (⟨S50000x8x8, .f32⟩ : BufTy).Contents (Elt F)),
    binary main_v71 main_v78 main_v79 (Host.divf : (⟨S50000x8x8, .f32⟩ : BufTy).Contents (Elt F) → (⟨S50000x8x8, .f32⟩ : BufTy).Contents (Elt F) → (⟨S50000x8x8, .f32⟩ : BufTy).Contents (Elt F)),
    reshape main_v79 main_v80 rfl shapeCasts_S50000x8x8_S50000x64 ]

set_option maxHeartbeats 4000000 in
/-- Round 2, first part. -/
abbrev pR2a : List (HloOp τ sig (Elt F)) :=
  [ nullary main_c_15 (constantI S_ 32 0#32),
    unary main_c_15 main_v81 (broadcastInDim S1638400 ![] bcast_S_S1638400 : (⟨S_, .i32⟩ : BufTy).Contents (Elt F) → (⟨S1638400, .i32⟩ : BufTy).Contents (Elt F)),
    binary main_v1 main_v81 main_v82 (cmpi .slt : (⟨S1638400, .i32⟩ : BufTy).Contents (Elt F) → (⟨S1638400, .i32⟩ : BufTy).Contents (Elt F) → (⟨S1638400, .i1⟩ : BufTy).Contents (Elt F)),
    nullary main_c_16 (constantI S_ 32 50000#32),
    unary main_c_16 main_v83 (broadcastInDim S1638400 ![] bcast_S_S1638400 : (⟨S_, .i32⟩ : BufTy).Contents (Elt F) → (⟨S1638400, .i32⟩ : BufTy).Contents (Elt F)),
    binary main_v1 main_v83 main_v84 (addi : (⟨S1638400, .i32⟩ : BufTy).Contents (Elt F) → (⟨S1638400, .i32⟩ : BufTy).Contents (Elt F) → (⟨S1638400, .i32⟩ : BufTy).Contents (Elt F)),
    ternary main_v82 main_v84 main_v1 main_v85 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    unary main_v85 main_v86 (broadcastInDim S1638400x1 ![0] bcast_S1638400_S1638400x1_0 : (⟨S1638400, .i32⟩ : BufTy).Contents (Elt F) → (⟨S1638400x1, .i32⟩ : BufTy).Contents (Elt F)),
    binary main_v80 main_v86 main_v87 ((fun x i => Host.gather gather_S50000x64_S1638400x1_S1638400x64_1_0_n_n_0_1_164 x i) : (⟨S50000x64, .f32⟩ : BufTy).Contents (Elt F) → (⟨S1638400x1, .i32⟩ : BufTy).Contents (Elt F) → (⟨S1638400x64, .f32⟩ : BufTy).Contents (Elt F)),
    reshape main_v87 main_v88 rfl shapeCasts_S1638400x64_S1638400x8x8,
    binary main_v36 main_v88 main_v89 (mulf : (⟨S1638400x8x8, .f32⟩ : BufTy).Contents (Elt F) → (⟨S1638400x8x8, .f32⟩ : BufTy).Contents (Elt F) → (⟨S1638400x8x8, .f32⟩ : BufTy).Contents (Elt F)),
    nullary main_cst_17 (constant S_ .f32 0x00000000#32),
    binary main_v89 main_cst_17 main_v90 ((fun x v => Host.reduceAdd x v reducesTo_S1638400x8x8_S1638400x8_d2 h_S_) : (⟨S1638400x8x8, .f32⟩ : BufTy).Contents (Elt F) → (⟨S_, .f32⟩ : BufTy).Contents (Elt F) → (⟨S1638400x8, .f32⟩ : BufTy).Contents (Elt F)),
    nullary main_cst_18 (constant S_ .f32 0x3F800000#32),
    unary main_cst_18 main_v91 (broadcastInDim S1638400x8 ![] bcast_S_S1638400x8 : (⟨S_, .f32⟩ : BufTy).Contents (Elt F) → (⟨S1638400x8, .f32⟩ : BufTy).Contents (Elt F)),
    binary main_v90 main_v91 main_v92 (Host.divf : (⟨S1638400x8, .f32⟩ : BufTy).Contents (Elt F) → (⟨S1638400x8, .f32⟩ : BufTy).Contents (Elt F) → (⟨S1638400x8, .f32⟩ : BufTy).Contents (Elt F)),
    nullary main_cst_19 (constant S_ .f32 0xFF800000#32),
    binary main_v92 main_cst_19 main_v93 ((fun x v => Host.reduce FloatOps.maximumf x v reducesTo_S1638400x8_S1638400_d1 h_S_) : (⟨S1638400x8, .f32⟩ : BufTy).Contents (Elt F) → (⟨S_, .f32⟩ : BufTy).Contents (Elt F) → (⟨S1638400, .f32⟩ : BufTy).Contents (Elt F)),
    nullary main_cst_20 (constant S_ .f32 0xFF800000#32),
    unary main_cst_20 main_v94 (broadcastInDim S1638400 ![] bcast_S_S1638400 : (⟨S_, .f32⟩ : BufTy).Contents (Elt F) → (⟨S1638400, .f32⟩ : BufTy).Contents (Elt F)),
    binary main_v94 main_v93 main_v95 (maximumf : (⟨S1638400, .f32⟩ : BufTy).Contents (Elt F) → (⟨S1638400, .f32⟩ : BufTy).Contents (Elt F) → (⟨S1638400, .f32⟩ : BufTy).Contents (Elt F)),
    unary main_v95 main_v96 (broadcastInDim S1638400x1 ![0] bcast_S1638400_S1638400x1_0 : (⟨S1638400, .f32⟩ : BufTy).Contents (Elt F) → (⟨S1638400x1, .f32⟩ : BufTy).Contents (Elt F)) ]

set_option maxHeartbeats 4000000 in
/-- Round 2, second part. -/
abbrev pR2b : List (HloOp τ sig (Elt F)) :=
  [ unary main_v96 main_v97 (broadcastInDim S1638400x8 ![0, 1] bcast_S1638400x1_S1638400x8_0_1 : (⟨S1638400x1, .f32⟩ : BufTy).Contents (Elt F) → (⟨S1638400x8, .f32⟩ : BufTy).Contents (Elt F)),
    binary main_v92 main_v97 main_v98 (subf : (⟨S1638400x8, .f32⟩ : BufTy).Contents (Elt F) → (⟨S1638400x8, .f32⟩ : BufTy).Contents (Elt F) → (⟨S1638400x8, .f32⟩ : BufTy).Contents (Elt F)),
    unary main_v98 main_v99 (Host.exp : (⟨S1638400x8, .f32⟩ : BufTy).Contents (Elt F) → (⟨S1638400x8, .f32⟩ : BufTy).Contents (Elt F)),
    nullary main_cst_21 (constant S_ .f32 0x00000000#32),
    binary main_v99 main_cst_21 main_v100 ((fun x v => Host.reduceAdd x v reducesTo_S1638400x8_S1638400_d1 h_S_) : (⟨S1638400x8, .f32⟩ : BufTy).Contents (Elt F) → (⟨S_, .f32⟩ : BufTy).Contents (Elt F) → (⟨S1638400, .f32⟩ : BufTy).Contents (Elt F)),
    unary main_v100 main_v101 (broadcastInDim S1638400x1 ![0] bcast_S1638400_S1638400x1_0 : (⟨S1638400, .f32⟩ : BufTy).Contents (Elt F) → (⟨S1638400x1, .f32⟩ : BufTy).Contents (Elt F)),
    unary main_v101 main_v102 (broadcastInDim S1638400x8 ![0, 1] bcast_S1638400x1_S1638400x8_0_1 : (⟨S1638400x1, .f32⟩ : BufTy).Contents (Elt F) → (⟨S1638400x8, .f32⟩ : BufTy).Contents (Elt F)),
    binary main_v99 main_v102 main_v103 (Host.divf : (⟨S1638400x8, .f32⟩ : BufTy).Contents (Elt F) → (⟨S1638400x8, .f32⟩ : BufTy).Contents (Elt F) → (⟨S1638400x8, .f32⟩ : BufTy).Contents (Elt F)),
    unary main_v103 main_v104 (broadcastInDim S1638400x8x1 ![0, 1] bcast_S1638400x8_S1638400x8x1_0_1 : (⟨S1638400x8, .f32⟩ : BufTy).Contents (Elt F) → (⟨S1638400x8x1, .f32⟩ : BufTy).Contents (Elt F)),
    unary main_v104 main_v105 (broadcastInDim S1638400x8x8 ![0, 1, 2] bcast_S1638400x8x1_S1638400x8x8_0_1_2 : (⟨S1638400x8x1, .f32⟩ : BufTy).Contents (Elt F) → (⟨S1638400x8x8, .f32⟩ : BufTy).Contents (Elt F)),
    binary main_v105 main_v36 main_v106 (mulf : (⟨S1638400x8x8, .f32⟩ : BufTy).Contents (Elt F) → (⟨S1638400x8x8, .f32⟩ : BufTy).Contents (Elt F) → (⟨S1638400x8x8, .f32⟩ : BufTy).Contents (Elt F)),
    reshape main_v106 main_v107 rfl shapeCasts_S1638400x8x8_S1638400x64,
    nullary main_c_22 (constantI S_ 32 0#32),
    unary main_c_22 main_v108 (broadcastInDim S1638400 ![] bcast_S_S1638400 : (⟨S_, .i32⟩ : BufTy).Contents (Elt F) → (⟨S1638400, .i32⟩ : BufTy).Contents (Elt F)),
    binary main_v1 main_v108 main_v109 (cmpi .slt : (⟨S1638400, .i32⟩ : BufTy).Contents (Elt F) → (⟨S1638400, .i32⟩ : BufTy).Contents (Elt F) → (⟨S1638400, .i1⟩ : BufTy).Contents (Elt F)),
    nullary main_c_23 (constantI S_ 32 50000#32),
    unary main_c_23 main_v110 (broadcastInDim S1638400 ![] bcast_S_S1638400 : (⟨S_, .i32⟩ : BufTy).Contents (Elt F) → (⟨S1638400, .i32⟩ : BufTy).Contents (Elt F)),
    binary main_v1 main_v110 main_v111 (addi : (⟨S1638400, .i32⟩ : BufTy).Contents (Elt F) → (⟨S1638400, .i32⟩ : BufTy).Contents (Elt F) → (⟨S1638400, .i32⟩ : BufTy).Contents (Elt F)),
    ternary main_v109 main_v111 main_v1 main_v112 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    unary main_v112 main_v113 (broadcastInDim S1638400x1 ![0] bcast_S1638400_S1638400x1_0 : (⟨S1638400, .i32⟩ : BufTy).Contents (Elt F) → (⟨S1638400x1, .i32⟩ : BufTy).Contents (Elt F)),
    ternary main_v80 main_v113 main_v107 main_v114 ((fun x i u => Host.scatterAdd scatter_S50000x64_S1638400x1_S1638400x64_1_0_0_1 x i u) : (⟨S50000x64, .f32⟩ : BufTy).Contents (Elt F) → (⟨S1638400x1, .i32⟩ : BufTy).Contents (Elt F) → (⟨S1638400x64, .f32⟩ : BufTy).Contents (Elt F) → (⟨S50000x64, .f32⟩ : BufTy).Contents (Elt F)),
    reshape main_v114 main_v115 rfl shapeCasts_S50000x64_S50000x8x8,
    binary main_v115 main_v115 main_v116 (mulf : (⟨S50000x8x8, .f32⟩ : BufTy).Contents (Elt F) → (⟨S50000x8x8, .f32⟩ : BufTy).Contents (Elt F) → (⟨S50000x8x8, .f32⟩ : BufTy).Contents (Elt F)),
    nullary main_cst_24 (constant S_ .f32 0x00000000#32),
    binary main_v116 main_cst_24 main_v117 ((fun x v => Host.reduceAdd x v reducesTo_S50000x8x8_S50000x8_d2 h_S_) : (⟨S50000x8x8, .f32⟩ : BufTy).Contents (Elt F) → (⟨S_, .f32⟩ : BufTy).Contents (Elt F) → (⟨S50000x8, .f32⟩ : BufTy).Contents (Elt F)),
    unary main_v117 main_v118 (broadcastInDim S50000x8x1 ![0, 1] bcast_S50000x8_S50000x8x1_0_1 : (⟨S50000x8, .f32⟩ : BufTy).Contents (Elt F) → (⟨S50000x8x1, .f32⟩ : BufTy).Contents (Elt F)),
    unary main_v118 main_v119 (Host.sqrt : (⟨S50000x8x1, .f32⟩ : BufTy).Contents (Elt F) → (⟨S50000x8x1, .f32⟩ : BufTy).Contents (Elt F)),
    nullary main_cst_25 (constant S_ .f32 0x2B8CBCCC#32),
    unary main_cst_25 main_v120 (broadcastInDim S50000x8x1 ![] bcast_S_S50000x8x1 : (⟨S_, .f32⟩ : BufTy).Contents (Elt F) → (⟨S50000x8x1, .f32⟩ : BufTy).Contents (Elt F)),
    binary main_v119 main_v120 main_v121 (maximumf : (⟨S50000x8x1, .f32⟩ : BufTy).Contents (Elt F) → (⟨S50000x8x1, .f32⟩ : BufTy).Contents (Elt F) → (⟨S50000x8x1, .f32⟩ : BufTy).Contents (Elt F)),
    unary main_v121 main_v122 (broadcastInDim S50000x8x8 ![0, 1, 2] bcast_S50000x8x1_S50000x8x8_0_1_2 : (⟨S50000x8x1, .f32⟩ : BufTy).Contents (Elt F) → (⟨S50000x8x8, .f32⟩ : BufTy).Contents (Elt F)),
    binary main_v115 main_v122 main_v123 (Host.divf : (⟨S50000x8x8, .f32⟩ : BufTy).Contents (Elt F) → (⟨S50000x8x8, .f32⟩ : BufTy).Contents (Elt F) → (⟨S50000x8x8, .f32⟩ : BufTy).Contents (Elt F)),
    reshape main_v123 main_v124 rfl shapeCasts_S50000x8x8_S50000x64 ]

set_option maxHeartbeats 4000000 in
/-- Round 3, first part. -/
abbrev pR3a : List (HloOp τ sig (Elt F)) :=
  [ nullary main_c_26 (constantI S_ 32 0#32),
    unary main_c_26 main_v125 (broadcastInDim S1638400 ![] bcast_S_S1638400 : (⟨S_, .i32⟩ : BufTy).Contents (Elt F) → (⟨S1638400, .i32⟩ : BufTy).Contents (Elt F)),
    binary main_v1 main_v125 main_v126 (cmpi .slt : (⟨S1638400, .i32⟩ : BufTy).Contents (Elt F) → (⟨S1638400, .i32⟩ : BufTy).Contents (Elt F) → (⟨S1638400, .i1⟩ : BufTy).Contents (Elt F)),
    nullary main_c_27 (constantI S_ 32 50000#32),
    unary main_c_27 main_v127 (broadcastInDim S1638400 ![] bcast_S_S1638400 : (⟨S_, .i32⟩ : BufTy).Contents (Elt F) → (⟨S1638400, .i32⟩ : BufTy).Contents (Elt F)),
    binary main_v1 main_v127 main_v128 (addi : (⟨S1638400, .i32⟩ : BufTy).Contents (Elt F) → (⟨S1638400, .i32⟩ : BufTy).Contents (Elt F) → (⟨S1638400, .i32⟩ : BufTy).Contents (Elt F)),
    ternary main_v126 main_v128 main_v1 main_v129 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    unary main_v129 main_v130 (broadcastInDim S1638400x1 ![0] bcast_S1638400_S1638400x1_0 : (⟨S1638400, .i32⟩ : BufTy).Contents (Elt F) → (⟨S1638400x1, .i32⟩ : BufTy).Contents (Elt F)),
    binary main_v124 main_v130 main_v131 ((fun x i => Host.gather gather_S50000x64_S1638400x1_S1638400x64_1_0_n_n_0_1_164 x i) : (⟨S50000x64, .f32⟩ : BufTy).Contents (Elt F) → (⟨S1638400x1, .i32⟩ : BufTy).Contents (Elt F) → (⟨S1638400x64, .f32⟩ : BufTy).Contents (Elt F)),
    reshape main_v131 main_v132 rfl shapeCasts_S1638400x64_S1638400x8x8,
    binary main_v36 main_v132 main_v133 (mulf : (⟨S1638400x8x8, .f32⟩ : BufTy).Contents (Elt F) → (⟨S1638400x8x8, .f32⟩ : BufTy).Contents (Elt F) → (⟨S1638400x8x8, .f32⟩ : BufTy).Contents (Elt F)),
    nullary main_cst_28 (constant S_ .f32 0x00000000#32),
    binary main_v133 main_cst_28 main_v134 ((fun x v => Host.reduceAdd x v reducesTo_S1638400x8x8_S1638400x8_d2 h_S_) : (⟨S1638400x8x8, .f32⟩ : BufTy).Contents (Elt F) → (⟨S_, .f32⟩ : BufTy).Contents (Elt F) → (⟨S1638400x8, .f32⟩ : BufTy).Contents (Elt F)),
    nullary main_cst_29 (constant S_ .f32 0x3F800000#32),
    unary main_cst_29 main_v135 (broadcastInDim S1638400x8 ![] bcast_S_S1638400x8 : (⟨S_, .f32⟩ : BufTy).Contents (Elt F) → (⟨S1638400x8, .f32⟩ : BufTy).Contents (Elt F)),
    binary main_v134 main_v135 main_v136 (Host.divf : (⟨S1638400x8, .f32⟩ : BufTy).Contents (Elt F) → (⟨S1638400x8, .f32⟩ : BufTy).Contents (Elt F) → (⟨S1638400x8, .f32⟩ : BufTy).Contents (Elt F)),
    nullary main_cst_30 (constant S_ .f32 0xFF800000#32),
    binary main_v136 main_cst_30 main_v137 ((fun x v => Host.reduce FloatOps.maximumf x v reducesTo_S1638400x8_S1638400_d1 h_S_) : (⟨S1638400x8, .f32⟩ : BufTy).Contents (Elt F) → (⟨S_, .f32⟩ : BufTy).Contents (Elt F) → (⟨S1638400, .f32⟩ : BufTy).Contents (Elt F)),
    nullary main_cst_31 (constant S_ .f32 0xFF800000#32),
    unary main_cst_31 main_v138 (broadcastInDim S1638400 ![] bcast_S_S1638400 : (⟨S_, .f32⟩ : BufTy).Contents (Elt F) → (⟨S1638400, .f32⟩ : BufTy).Contents (Elt F)),
    binary main_v138 main_v137 main_v139 (maximumf : (⟨S1638400, .f32⟩ : BufTy).Contents (Elt F) → (⟨S1638400, .f32⟩ : BufTy).Contents (Elt F) → (⟨S1638400, .f32⟩ : BufTy).Contents (Elt F)),
    unary main_v139 main_v140 (broadcastInDim S1638400x1 ![0] bcast_S1638400_S1638400x1_0 : (⟨S1638400, .f32⟩ : BufTy).Contents (Elt F) → (⟨S1638400x1, .f32⟩ : BufTy).Contents (Elt F)),
    unary main_v140 main_v141 (broadcastInDim S1638400x8 ![0, 1] bcast_S1638400x1_S1638400x8_0_1 : (⟨S1638400x1, .f32⟩ : BufTy).Contents (Elt F) → (⟨S1638400x8, .f32⟩ : BufTy).Contents (Elt F)),
    binary main_v136 main_v141 main_v142 (subf : (⟨S1638400x8, .f32⟩ : BufTy).Contents (Elt F) → (⟨S1638400x8, .f32⟩ : BufTy).Contents (Elt F) → (⟨S1638400x8, .f32⟩ : BufTy).Contents (Elt F)),
    unary main_v142 main_v143 (Host.exp : (⟨S1638400x8, .f32⟩ : BufTy).Contents (Elt F) → (⟨S1638400x8, .f32⟩ : BufTy).Contents (Elt F)),
    nullary main_cst_32 (constant S_ .f32 0x00000000#32),
    binary main_v143 main_cst_32 main_v144 ((fun x v => Host.reduceAdd x v reducesTo_S1638400x8_S1638400_d1 h_S_) : (⟨S1638400x8, .f32⟩ : BufTy).Contents (Elt F) → (⟨S_, .f32⟩ : BufTy).Contents (Elt F) → (⟨S1638400, .f32⟩ : BufTy).Contents (Elt F)) ]

set_option maxHeartbeats 4000000 in
/-- Round 3, second part. -/
abbrev pR3b : List (HloOp τ sig (Elt F)) :=
  [ unary main_v144 main_v145 (broadcastInDim S1638400x1 ![0] bcast_S1638400_S1638400x1_0 : (⟨S1638400, .f32⟩ : BufTy).Contents (Elt F) → (⟨S1638400x1, .f32⟩ : BufTy).Contents (Elt F)),
    unary main_v145 main_v146 (broadcastInDim S1638400x8 ![0, 1] bcast_S1638400x1_S1638400x8_0_1 : (⟨S1638400x1, .f32⟩ : BufTy).Contents (Elt F) → (⟨S1638400x8, .f32⟩ : BufTy).Contents (Elt F)),
    binary main_v143 main_v146 main_v147 (Host.divf : (⟨S1638400x8, .f32⟩ : BufTy).Contents (Elt F) → (⟨S1638400x8, .f32⟩ : BufTy).Contents (Elt F) → (⟨S1638400x8, .f32⟩ : BufTy).Contents (Elt F)),
    unary main_v147 main_v148 (broadcastInDim S1638400x8x1 ![0, 1] bcast_S1638400x8_S1638400x8x1_0_1 : (⟨S1638400x8, .f32⟩ : BufTy).Contents (Elt F) → (⟨S1638400x8x1, .f32⟩ : BufTy).Contents (Elt F)),
    unary main_v148 main_v149 (broadcastInDim S1638400x8x8 ![0, 1, 2] bcast_S1638400x8x1_S1638400x8x8_0_1_2 : (⟨S1638400x8x1, .f32⟩ : BufTy).Contents (Elt F) → (⟨S1638400x8x8, .f32⟩ : BufTy).Contents (Elt F)),
    binary main_v149 main_v36 main_v150 (mulf : (⟨S1638400x8x8, .f32⟩ : BufTy).Contents (Elt F) → (⟨S1638400x8x8, .f32⟩ : BufTy).Contents (Elt F) → (⟨S1638400x8x8, .f32⟩ : BufTy).Contents (Elt F)),
    reshape main_v150 main_v151 rfl shapeCasts_S1638400x8x8_S1638400x64,
    nullary main_c_33 (constantI S_ 32 0#32),
    unary main_c_33 main_v152 (broadcastInDim S1638400 ![] bcast_S_S1638400 : (⟨S_, .i32⟩ : BufTy).Contents (Elt F) → (⟨S1638400, .i32⟩ : BufTy).Contents (Elt F)),
    binary main_v1 main_v152 main_v153 (cmpi .slt : (⟨S1638400, .i32⟩ : BufTy).Contents (Elt F) → (⟨S1638400, .i32⟩ : BufTy).Contents (Elt F) → (⟨S1638400, .i1⟩ : BufTy).Contents (Elt F)),
    nullary main_c_34 (constantI S_ 32 50000#32),
    unary main_c_34 main_v154 (broadcastInDim S1638400 ![] bcast_S_S1638400 : (⟨S_, .i32⟩ : BufTy).Contents (Elt F) → (⟨S1638400, .i32⟩ : BufTy).Contents (Elt F)),
    binary main_v1 main_v154 main_v155 (addi : (⟨S1638400, .i32⟩ : BufTy).Contents (Elt F) → (⟨S1638400, .i32⟩ : BufTy).Contents (Elt F) → (⟨S1638400, .i32⟩ : BufTy).Contents (Elt F)),
    ternary main_v153 main_v155 main_v1 main_v156 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    unary main_v156 main_v157 (broadcastInDim S1638400x1 ![0] bcast_S1638400_S1638400x1_0 : (⟨S1638400, .i32⟩ : BufTy).Contents (Elt F) → (⟨S1638400x1, .i32⟩ : BufTy).Contents (Elt F)),
    ternary main_v124 main_v157 main_v151 main_v158 ((fun x i u => Host.scatterAdd scatter_S50000x64_S1638400x1_S1638400x64_1_0_0_1 x i u) : (⟨S50000x64, .f32⟩ : BufTy).Contents (Elt F) → (⟨S1638400x1, .i32⟩ : BufTy).Contents (Elt F) → (⟨S1638400x64, .f32⟩ : BufTy).Contents (Elt F) → (⟨S50000x64, .f32⟩ : BufTy).Contents (Elt F)),
    reshape main_v158 main_v159 rfl shapeCasts_S50000x64_S50000x8x8,
    binary main_v159 main_v159 main_v160 (mulf : (⟨S50000x8x8, .f32⟩ : BufTy).Contents (Elt F) → (⟨S50000x8x8, .f32⟩ : BufTy).Contents (Elt F) → (⟨S50000x8x8, .f32⟩ : BufTy).Contents (Elt F)),
    nullary main_cst_35 (constant S_ .f32 0x00000000#32),
    binary main_v160 main_cst_35 main_v161 ((fun x v => Host.reduceAdd x v reducesTo_S50000x8x8_S50000x8_d2 h_S_) : (⟨S50000x8x8, .f32⟩ : BufTy).Contents (Elt F) → (⟨S_, .f32⟩ : BufTy).Contents (Elt F) → (⟨S50000x8, .f32⟩ : BufTy).Contents (Elt F)),
    unary main_v161 main_v162 (broadcastInDim S50000x8x1 ![0, 1] bcast_S50000x8_S50000x8x1_0_1 : (⟨S50000x8, .f32⟩ : BufTy).Contents (Elt F) → (⟨S50000x8x1, .f32⟩ : BufTy).Contents (Elt F)),
    unary main_v162 main_v163 (Host.sqrt : (⟨S50000x8x1, .f32⟩ : BufTy).Contents (Elt F) → (⟨S50000x8x1, .f32⟩ : BufTy).Contents (Elt F)),
    nullary main_cst_36 (constant S_ .f32 0x2B8CBCCC#32),
    unary main_cst_36 main_v164 (broadcastInDim S50000x8x1 ![] bcast_S_S50000x8x1 : (⟨S_, .f32⟩ : BufTy).Contents (Elt F) → (⟨S50000x8x1, .f32⟩ : BufTy).Contents (Elt F)),
    binary main_v163 main_v164 main_v165 (maximumf : (⟨S50000x8x1, .f32⟩ : BufTy).Contents (Elt F) → (⟨S50000x8x1, .f32⟩ : BufTy).Contents (Elt F) → (⟨S50000x8x1, .f32⟩ : BufTy).Contents (Elt F)),
    unary main_v165 main_v166 (broadcastInDim S50000x8x8 ![0, 1, 2] bcast_S50000x8x1_S50000x8x8_0_1_2 : (⟨S50000x8x1, .f32⟩ : BufTy).Contents (Elt F) → (⟨S50000x8x8, .f32⟩ : BufTy).Contents (Elt F)),
    binary main_v159 main_v166 main_v167 (Host.divf : (⟨S50000x8x8, .f32⟩ : BufTy).Contents (Elt F) → (⟨S50000x8x8, .f32⟩ : BufTy).Contents (Elt F) → (⟨S50000x8x8, .f32⟩ : BufTy).Contents (Elt F)),
    reshape main_v167 main_v168 rfl shapeCasts_S50000x8x8_S50000x64 ]

set_option maxHeartbeats 4000000 in
/-- Round 4, first part. -/
abbrev pR4a : List (HloOp τ sig (Elt F)) :=
  [ nullary main_c_37 (constantI S_ 32 0#32),
    unary main_c_37 main_v169 (broadcastInDim S1638400 ![] bcast_S_S1638400 : (⟨S_, .i32⟩ : BufTy).Contents (Elt F) → (⟨S1638400, .i32⟩ : BufTy).Contents (Elt F)),
    binary main_v1 main_v169 main_v170 (cmpi .slt : (⟨S1638400, .i32⟩ : BufTy).Contents (Elt F) → (⟨S1638400, .i32⟩ : BufTy).Contents (Elt F) → (⟨S1638400, .i1⟩ : BufTy).Contents (Elt F)),
    nullary main_c_38 (constantI S_ 32 50000#32),
    unary main_c_38 main_v171 (broadcastInDim S1638400 ![] bcast_S_S1638400 : (⟨S_, .i32⟩ : BufTy).Contents (Elt F) → (⟨S1638400, .i32⟩ : BufTy).Contents (Elt F)),
    binary main_v1 main_v171 main_v172 (addi : (⟨S1638400, .i32⟩ : BufTy).Contents (Elt F) → (⟨S1638400, .i32⟩ : BufTy).Contents (Elt F) → (⟨S1638400, .i32⟩ : BufTy).Contents (Elt F)),
    ternary main_v170 main_v172 main_v1 main_v173 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    unary main_v173 main_v174 (broadcastInDim S1638400x1 ![0] bcast_S1638400_S1638400x1_0 : (⟨S1638400, .i32⟩ : BufTy).Contents (Elt F) → (⟨S1638400x1, .i32⟩ : BufTy).Contents (Elt F)),
    binary main_v168 main_v174 main_v175 ((fun x i => Host.gather gather_S50000x64_S1638400x1_S1638400x64_1_0_n_n_0_1_164 x i) : (⟨S50000x64, .f32⟩ : BufTy).Contents (Elt F) → (⟨S1638400x1, .i32⟩ : BufTy).Contents (Elt F) → (⟨S1638400x64, .f32⟩ : BufTy).Contents (Elt F)),
    reshape main_v175 main_v176 rfl shapeCasts_S1638400x64_S1638400x8x8,
    binary main_v36 main_v176 main_v177 (mulf : (⟨S1638400x8x8, .f32⟩ : BufTy).Contents (Elt F) → (⟨S1638400x8x8, .f32⟩ : BufTy).Contents (Elt F) → (⟨S1638400x8x8, .f32⟩ : BufTy).Contents (Elt F)),
    nullary main_cst_39 (constant S_ .f32 0x00000000#32),
    binary main_v177 main_cst_39 main_v178 ((fun x v => Host.reduceAdd x v reducesTo_S1638400x8x8_S1638400x8_d2 h_S_) : (⟨S1638400x8x8, .f32⟩ : BufTy).Contents (Elt F) → (⟨S_, .f32⟩ : BufTy).Contents (Elt F) → (⟨S1638400x8, .f32⟩ : BufTy).Contents (Elt F)),
    nullary main_cst_40 (constant S_ .f32 0x3F800000#32),
    unary main_cst_40 main_v179 (broadcastInDim S1638400x8 ![] bcast_S_S1638400x8 : (⟨S_, .f32⟩ : BufTy).Contents (Elt F) → (⟨S1638400x8, .f32⟩ : BufTy).Contents (Elt F)),
    binary main_v178 main_v179 main_v180 (Host.divf : (⟨S1638400x8, .f32⟩ : BufTy).Contents (Elt F) → (⟨S1638400x8, .f32⟩ : BufTy).Contents (Elt F) → (⟨S1638400x8, .f32⟩ : BufTy).Contents (Elt F)),
    nullary main_cst_41 (constant S_ .f32 0xFF800000#32),
    binary main_v180 main_cst_41 main_v181 ((fun x v => Host.reduce FloatOps.maximumf x v reducesTo_S1638400x8_S1638400_d1 h_S_) : (⟨S1638400x8, .f32⟩ : BufTy).Contents (Elt F) → (⟨S_, .f32⟩ : BufTy).Contents (Elt F) → (⟨S1638400, .f32⟩ : BufTy).Contents (Elt F)),
    nullary main_cst_42 (constant S_ .f32 0xFF800000#32),
    unary main_cst_42 main_v182 (broadcastInDim S1638400 ![] bcast_S_S1638400 : (⟨S_, .f32⟩ : BufTy).Contents (Elt F) → (⟨S1638400, .f32⟩ : BufTy).Contents (Elt F)),
    binary main_v182 main_v181 main_v183 (maximumf : (⟨S1638400, .f32⟩ : BufTy).Contents (Elt F) → (⟨S1638400, .f32⟩ : BufTy).Contents (Elt F) → (⟨S1638400, .f32⟩ : BufTy).Contents (Elt F)),
    unary main_v183 main_v184 (broadcastInDim S1638400x1 ![0] bcast_S1638400_S1638400x1_0 : (⟨S1638400, .f32⟩ : BufTy).Contents (Elt F) → (⟨S1638400x1, .f32⟩ : BufTy).Contents (Elt F)),
    unary main_v184 main_v185 (broadcastInDim S1638400x8 ![0, 1] bcast_S1638400x1_S1638400x8_0_1 : (⟨S1638400x1, .f32⟩ : BufTy).Contents (Elt F) → (⟨S1638400x8, .f32⟩ : BufTy).Contents (Elt F)),
    binary main_v180 main_v185 main_v186 (subf : (⟨S1638400x8, .f32⟩ : BufTy).Contents (Elt F) → (⟨S1638400x8, .f32⟩ : BufTy).Contents (Elt F) → (⟨S1638400x8, .f32⟩ : BufTy).Contents (Elt F)),
    unary main_v186 main_v187 (Host.exp : (⟨S1638400x8, .f32⟩ : BufTy).Contents (Elt F) → (⟨S1638400x8, .f32⟩ : BufTy).Contents (Elt F)),
    nullary main_cst_43 (constant S_ .f32 0x00000000#32),
    binary main_v187 main_cst_43 main_v188 ((fun x v => Host.reduceAdd x v reducesTo_S1638400x8_S1638400_d1 h_S_) : (⟨S1638400x8, .f32⟩ : BufTy).Contents (Elt F) → (⟨S_, .f32⟩ : BufTy).Contents (Elt F) → (⟨S1638400, .f32⟩ : BufTy).Contents (Elt F)),
    unary main_v188 main_v189 (broadcastInDim S1638400x1 ![0] bcast_S1638400_S1638400x1_0 : (⟨S1638400, .f32⟩ : BufTy).Contents (Elt F) → (⟨S1638400x1, .f32⟩ : BufTy).Contents (Elt F)),
    unary main_v189 main_v190 (broadcastInDim S1638400x8 ![0, 1] bcast_S1638400x1_S1638400x8_0_1 : (⟨S1638400x1, .f32⟩ : BufTy).Contents (Elt F) → (⟨S1638400x8, .f32⟩ : BufTy).Contents (Elt F)),
    binary main_v187 main_v190 main_v191 (Host.divf : (⟨S1638400x8, .f32⟩ : BufTy).Contents (Elt F) → (⟨S1638400x8, .f32⟩ : BufTy).Contents (Elt F) → (⟨S1638400x8, .f32⟩ : BufTy).Contents (Elt F)),
    unary main_v191 main_v192 (broadcastInDim S1638400x8x1 ![0, 1] bcast_S1638400x8_S1638400x8x1_0_1 : (⟨S1638400x8, .f32⟩ : BufTy).Contents (Elt F) → (⟨S1638400x8x1, .f32⟩ : BufTy).Contents (Elt F)),
    unary main_v192 main_v193 (broadcastInDim S1638400x8x8 ![0, 1, 2] bcast_S1638400x8x1_S1638400x8x8_0_1_2 : (⟨S1638400x8x1, .f32⟩ : BufTy).Contents (Elt F) → (⟨S1638400x8x8, .f32⟩ : BufTy).Contents (Elt F)) ]

set_option maxHeartbeats 4000000 in
/-- Round 4, second part. -/
abbrev pR4b : List (HloOp τ sig (Elt F)) :=
  [ binary main_v193 main_v36 main_v194 (mulf : (⟨S1638400x8x8, .f32⟩ : BufTy).Contents (Elt F) → (⟨S1638400x8x8, .f32⟩ : BufTy).Contents (Elt F) → (⟨S1638400x8x8, .f32⟩ : BufTy).Contents (Elt F)),
    reshape main_v194 main_v195 rfl shapeCasts_S1638400x8x8_S1638400x64,
    nullary main_c_44 (constantI S_ 32 0#32),
    unary main_c_44 main_v196 (broadcastInDim S1638400 ![] bcast_S_S1638400 : (⟨S_, .i32⟩ : BufTy).Contents (Elt F) → (⟨S1638400, .i32⟩ : BufTy).Contents (Elt F)),
    binary main_v1 main_v196 main_v197 (cmpi .slt : (⟨S1638400, .i32⟩ : BufTy).Contents (Elt F) → (⟨S1638400, .i32⟩ : BufTy).Contents (Elt F) → (⟨S1638400, .i1⟩ : BufTy).Contents (Elt F)),
    nullary main_c_45 (constantI S_ 32 50000#32),
    unary main_c_45 main_v198 (broadcastInDim S1638400 ![] bcast_S_S1638400 : (⟨S_, .i32⟩ : BufTy).Contents (Elt F) → (⟨S1638400, .i32⟩ : BufTy).Contents (Elt F)),
    binary main_v1 main_v198 main_v199 (addi : (⟨S1638400, .i32⟩ : BufTy).Contents (Elt F) → (⟨S1638400, .i32⟩ : BufTy).Contents (Elt F) → (⟨S1638400, .i32⟩ : BufTy).Contents (Elt F)),
    ternary main_v197 main_v199 main_v1 main_v200 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    unary main_v200 main_v201 (broadcastInDim S1638400x1 ![0] bcast_S1638400_S1638400x1_0 : (⟨S1638400, .i32⟩ : BufTy).Contents (Elt F) → (⟨S1638400x1, .i32⟩ : BufTy).Contents (Elt F)),
    ternary main_v168 main_v201 main_v195 main_v202 ((fun x i u => Host.scatterAdd scatter_S50000x64_S1638400x1_S1638400x64_1_0_0_1 x i u) : (⟨S50000x64, .f32⟩ : BufTy).Contents (Elt F) → (⟨S1638400x1, .i32⟩ : BufTy).Contents (Elt F) → (⟨S1638400x64, .f32⟩ : BufTy).Contents (Elt F) → (⟨S50000x64, .f32⟩ : BufTy).Contents (Elt F)),
    reshape main_v202 main_v203 rfl shapeCasts_S50000x64_S50000x8x8,
    binary main_v203 main_v203 main_v204 (mulf : (⟨S50000x8x8, .f32⟩ : BufTy).Contents (Elt F) → (⟨S50000x8x8, .f32⟩ : BufTy).Contents (Elt F) → (⟨S50000x8x8, .f32⟩ : BufTy).Contents (Elt F)),
    nullary main_cst_46 (constant S_ .f32 0x00000000#32),
    binary main_v204 main_cst_46 main_v205 ((fun x v => Host.reduceAdd x v reducesTo_S50000x8x8_S50000x8_d2 h_S_) : (⟨S50000x8x8, .f32⟩ : BufTy).Contents (Elt F) → (⟨S_, .f32⟩ : BufTy).Contents (Elt F) → (⟨S50000x8, .f32⟩ : BufTy).Contents (Elt F)),
    unary main_v205 main_v206 (broadcastInDim S50000x8x1 ![0, 1] bcast_S50000x8_S50000x8x1_0_1 : (⟨S50000x8, .f32⟩ : BufTy).Contents (Elt F) → (⟨S50000x8x1, .f32⟩ : BufTy).Contents (Elt F)),
    unary main_v206 main_v207 (Host.sqrt : (⟨S50000x8x1, .f32⟩ : BufTy).Contents (Elt F) → (⟨S50000x8x1, .f32⟩ : BufTy).Contents (Elt F)),
    nullary main_cst_47 (constant S_ .f32 0x2B8CBCCC#32),
    unary main_cst_47 main_v208 (broadcastInDim S50000x8x1 ![] bcast_S_S50000x8x1 : (⟨S_, .f32⟩ : BufTy).Contents (Elt F) → (⟨S50000x8x1, .f32⟩ : BufTy).Contents (Elt F)),
    binary main_v207 main_v208 main_v209 (maximumf : (⟨S50000x8x1, .f32⟩ : BufTy).Contents (Elt F) → (⟨S50000x8x1, .f32⟩ : BufTy).Contents (Elt F) → (⟨S50000x8x1, .f32⟩ : BufTy).Contents (Elt F)),
    unary main_v209 main_v210 (broadcastInDim S50000x8x8 ![0, 1, 2] bcast_S50000x8x1_S50000x8x8_0_1_2 : (⟨S50000x8x1, .f32⟩ : BufTy).Contents (Elt F) → (⟨S50000x8x8, .f32⟩ : BufTy).Contents (Elt F)),
    binary main_v203 main_v210 main_v211 (Host.divf : (⟨S50000x8x8, .f32⟩ : BufTy).Contents (Elt F) → (⟨S50000x8x8, .f32⟩ : BufTy).Contents (Elt F) → (⟨S50000x8x8, .f32⟩ : BufTy).Contents (Elt F)),
    reshape main_v211 main_v212 rfl shapeCasts_S50000x8x8_S50000x64 ]

theorem pA_sub : (pA (F := F)).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., reshape_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., reshape_bufs_sub .., reshape_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., reshape_bufs_sub ..⟩
theorem pA_fresh : (pA (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

theorem pB_sub : (pB (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub ..⟩
theorem pB_fresh : (pB (F := F)).Forall fun op => op.fresh = ∅ :=
  ⟨rfl, rfl, rfl, rfl, rfl, rfl, rfl, rfl, rfl, rfl⟩

theorem pR1a_sub : (pR1a (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., binary_bufs_sub .., nullary_bufs_sub ..,
    binary_bufs_sub .., nullary_bufs_sub .., unary_bufs_sub .., binary_bufs_sub .., nullary_bufs_sub ..⟩
theorem pR1a_fresh : (pR1a (F := F)).Forall fun op => op.fresh = ∅ :=
  ⟨rfl, rfl, rfl, rfl, rfl, rfl, rfl, rfl, rfl, rfl, rfl, rfl, rfl, rfl, rfl, rfl, rfl⟩

theorem pR1b_sub : (pR1b (F := F)).Forall fun op => op.bufs ⊆ tcRefs τ sig :=
  ⟨binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., unary_bufs_sub .., unary_bufs_sub .., binary_bufs_sub .., reshape_bufs_sub .., nullary_bufs_sub ..,
    unary_bufs_sub .., binary_bufs_sub .., nullary_bufs_sub .., unary_bufs_sub .., binary_bufs_sub .., ternary_bufs_sub ..,
    unary_bufs_sub .., ternary_bufs_sub .., reshape_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., reshape_bufs_sub ..⟩
theorem pR1b_fresh : (pR1b (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

theorem pR2a_sub : (pR2a (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., binary_bufs_sub .., nullary_bufs_sub ..,
    binary_bufs_sub .., nullary_bufs_sub .., unary_bufs_sub .., binary_bufs_sub .., nullary_bufs_sub .., binary_bufs_sub ..,
    nullary_bufs_sub .., unary_bufs_sub .., binary_bufs_sub .., unary_bufs_sub ..⟩
theorem pR2a_fresh : (pR2a (F := F)).Forall fun op => op.fresh = ∅ :=
  ⟨rfl, rfl, rfl, rfl, rfl, rfl, rfl, rfl, rfl, rfl, rfl, rfl, rfl, rfl, rfl, rfl, rfl, rfl, rfl, rfl,
    rfl, rfl⟩

theorem pR2b_sub : (pR2b (F := F)).Forall fun op => op.bufs ⊆ tcRefs τ sig :=
  ⟨unary_bufs_sub .., binary_bufs_sub .., unary_bufs_sub .., nullary_bufs_sub .., binary_bufs_sub .., unary_bufs_sub ..,
    unary_bufs_sub .., binary_bufs_sub .., unary_bufs_sub .., unary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., ternary_bufs_sub .., reshape_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., reshape_bufs_sub ..⟩
theorem pR2b_fresh : (pR2b (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem pR3a_sub : (pR3a (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., binary_bufs_sub .., nullary_bufs_sub ..,
    binary_bufs_sub .., nullary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub ..⟩
theorem pR3a_fresh : (pR3a (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩

theorem pR3b_sub : (pR3b (F := F)).Forall fun op => op.bufs ⊆ tcRefs τ sig :=
  ⟨unary_bufs_sub .., unary_bufs_sub .., binary_bufs_sub .., unary_bufs_sub .., unary_bufs_sub .., binary_bufs_sub ..,
    reshape_bufs_sub .., nullary_bufs_sub .., unary_bufs_sub .., binary_bufs_sub .., nullary_bufs_sub .., unary_bufs_sub ..,
    binary_bufs_sub .., ternary_bufs_sub .., unary_bufs_sub .., ternary_bufs_sub .., reshape_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub .., reshape_bufs_sub ..⟩
theorem pR3b_fresh : (pR3b (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl⟩

theorem pR4a_sub : (pR4a (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., binary_bufs_sub .., nullary_bufs_sub ..,
    binary_bufs_sub .., nullary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    unary_bufs_sub .., unary_bufs_sub ..⟩
theorem pR4a_fresh : (pR4a (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

theorem pR4b_sub : (pR4b (F := F)).Forall fun op => op.bufs ⊆ tcRefs τ sig :=
  ⟨binary_bufs_sub .., reshape_bufs_sub .., nullary_bufs_sub .., unary_bufs_sub .., binary_bufs_sub .., nullary_bufs_sub ..,
    unary_bufs_sub .., binary_bufs_sub .., ternary_bufs_sub .., unary_bufs_sub .., ternary_bufs_sub .., reshape_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., reshape_bufs_sub ..⟩
theorem pR4b_fresh : (pR4b (F := F)).Forall fun op => op.fresh = ∅ :=
  ⟨rfl, rfl, rfl, rfl, rfl, rfl, rfl, rfl, rfl, rfl, rfl, rfl, rfl, rfl, rfl, rfl, rfl, rfl, rfl, rfl,
    rfl, rfl, rfl⟩

/-! ## @main is the sequence of the pieces -/

/-- The five printed windows, as concatenations of pieces. -/
def ops0 : List (HloOp τ sig (Elt F)) := pA ++ (pB ++ pR1a)
def ops1 : List (HloOp τ sig (Elt F)) := pR1b ++ pR2a
def ops2 : List (HloOp τ sig (Elt F)) := pR2b ++ pR3a
def ops3 : List (HloOp τ sig (Elt F)) := pR3b ++ pR4a
def ops4 : List (HloOp τ sig (Elt F)) := pR4b

/-- All the operations, in order. -/
def allOps : List (HloOp τ sig (Elt F)) :=
  pA ++ (pB ++ (pR1a ++ (pR1b ++ (pR2a ++ (pR2b ++ (pR3a ++ (pR3b ++ (pR4a ++ pR4b))))))))

-- each window is its statements in order, the called function's body in the call's place: both sides are one chain
-- of operation steps, equal once sequencing is evaluated
set_option maxRecDepth 8192 in
set_option maxHeartbeats 4000000 in
theorem part0_eq (c : Dev nD) : main_part0 (F := F) c = seq ops0 := rfl
set_option maxRecDepth 8192 in
set_option maxHeartbeats 4000000 in
theorem part1_eq (c : Dev nD) : main_part1 (F := F) c = seq ops1 := rfl
set_option maxRecDepth 8192 in
set_option maxHeartbeats 4000000 in
theorem part2_eq (c : Dev nD) : main_part2 (F := F) c = seq ops2 := rfl
set_option maxRecDepth 8192 in
set_option maxHeartbeats 4000000 in
theorem part3_eq (c : Dev nD) : main_part3 (F := F) c = seq ops3 := rfl
set_option maxRecDepth 8192 in
set_option maxHeartbeats 4000000 in
theorem part4_eq (c : Dev nD) : main_part4 (F := F) c = seq ops4 := rfl

/-- @main runs the windows in order; sequences run one after the other are their concatenation run as one. -/
theorem main_eq (c : Dev nD) : main (F := F) c = seq allOps := by
  have e : allOps (F := F) = ops0 ++ (ops1 ++ (ops2 ++ (ops3 ++ ops4))) := by
    simp only [allOps, ops0, ops1, ops2, ops3, ops4, List.append_assoc]
  rw [e, seq_append ops0, seq_append ops1, seq_append ops2, seq_append ops3,
    ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem allOps_sub : (allOps (F := F)).Forall fun op => op.bufs ⊆ tcRefs τ sig :=
  List.forall_append.2 ⟨pA_sub, List.forall_append.2 ⟨pB_sub, List.forall_append.2 ⟨pR1a_sub, List.forall_append.2 ⟨pR1b_sub,
    List.forall_append.2 ⟨pR2a_sub, List.forall_append.2 ⟨pR2b_sub, List.forall_append.2 ⟨pR3a_sub, List.forall_append.2 ⟨pR3b_sub,
    List.forall_append.2 ⟨pR4a_sub, pR4b_sub⟩⟩⟩⟩⟩⟩⟩⟩⟩

theorem allOps_fresh : ∀ op ∈ allOps (F := F), op.fresh = ∅ :=
  List.forall_iff_forall_mem.1 (List.forall_append.2 ⟨pA_fresh, List.forall_append.2 ⟨pB_fresh, List.forall_append.2 ⟨pR1a_fresh,
    List.forall_append.2 ⟨pR1b_fresh, List.forall_append.2 ⟨pR2a_fresh, List.forall_append.2 ⟨pR2b_fresh, List.forall_append.2 ⟨pR3a_fresh,
    List.forall_append.2 ⟨pR3b_fresh, List.forall_append.2 ⟨pR4a_fresh, pR4b_fresh⟩⟩⟩⟩⟩⟩⟩⟩⟩)

end Line

/-! ## The contents after each piece -/

section Contents

variable (V : Valuation τ sig (Elt Ideal))

theorem pA_arg0 : after (pA (F := Ideal)) V (main_arg0 : DevRef τ sig) = V (main_arg0 : DevRef τ sig) := by after_results_simp
theorem pA_arg1 : after (pA (F := Ideal)) V (main_arg1 : DevRef τ sig) = V (main_arg1 : DevRef τ sig) := by after_results_simp
theorem pA_arg2 : after (pA (F := Ideal)) V (main_arg2 : DevRef τ sig) = V (main_arg2 : DevRef τ sig) := by after_results_simp
theorem pA_arg3 : after (pA (F := Ideal)) V (main_arg3 : DevRef τ sig) = V (main_arg3 : DevRef τ sig) := by after_results_simp
theorem pB_arg0 : after (pB (F := Ideal)) V (main_arg0 : DevRef τ sig) = V (main_arg0 : DevRef τ sig) := by after_results_simp
theorem pB_arg1 : after (pB (F := Ideal)) V (main_arg1 : DevRef τ sig) = V (main_arg1 : DevRef τ sig) := by after_results_simp
theorem pB_arg2 : after (pB (F := Ideal)) V (main_arg2 : DevRef τ sig) = V (main_arg2 : DevRef τ sig) := by after_results_simp
theorem pB_arg3 : after (pB (F := Ideal)) V (main_arg3 : DevRef τ sig) = V (main_arg3 : DevRef τ sig) := by after_results_simp
theorem pR1a_arg0 : after (pR1a (F := Ideal)) V (main_arg0 : DevRef τ sig) = V (main_arg0 : DevRef τ sig) := by after_results_simp
theorem pR1a_arg1 : after (pR1a (F := Ideal)) V (main_arg1 : DevRef τ sig) = V (main_arg1 : DevRef τ sig) := by after_results_simp
theorem pR1a_arg2 : after (pR1a (F := Ideal)) V (main_arg2 : DevRef τ sig) = V (main_arg2 : DevRef τ sig) := by after_results_simp
theorem pR1a_arg3 : after (pR1a (F := Ideal)) V (main_arg3 : DevRef τ sig) = V (main_arg3 : DevRef τ sig) := by after_results_simp
theorem pR1b_arg0 : after (pR1b (F := Ideal)) V (main_arg0 : DevRef τ sig) = V (main_arg0 : DevRef τ sig) := by after_results_simp
theorem pR1b_arg1 : after (pR1b (F := Ideal)) V (main_arg1 : DevRef τ sig) = V (main_arg1 : DevRef τ sig) := by after_results_simp
theorem pR1b_arg2 : after (pR1b (F := Ideal)) V (main_arg2 : DevRef τ sig) = V (main_arg2 : DevRef τ sig) := by after_results_simp
theorem pR1b_arg3 : after (pR1b (F := Ideal)) V (main_arg3 : DevRef τ sig) = V (main_arg3 : DevRef τ sig) := by after_results_simp
theorem pR2a_arg0 : after (pR2a (F := Ideal)) V (main_arg0 : DevRef τ sig) = V (main_arg0 : DevRef τ sig) := by after_results_simp
theorem pR2a_arg1 : after (pR2a (F := Ideal)) V (main_arg1 : DevRef τ sig) = V (main_arg1 : DevRef τ sig) := by after_results_simp
theorem pR2a_arg2 : after (pR2a (F := Ideal)) V (main_arg2 : DevRef τ sig) = V (main_arg2 : DevRef τ sig) := by after_results_simp
theorem pR2a_arg3 : after (pR2a (F := Ideal)) V (main_arg3 : DevRef τ sig) = V (main_arg3 : DevRef τ sig) := by after_results_simp
theorem pR2b_arg0 : after (pR2b (F := Ideal)) V (main_arg0 : DevRef τ sig) = V (main_arg0 : DevRef τ sig) := by after_results_simp
theorem pR2b_arg1 : after (pR2b (F := Ideal)) V (main_arg1 : DevRef τ sig) = V (main_arg1 : DevRef τ sig) := by after_results_simp
theorem pR2b_arg2 : after (pR2b (F := Ideal)) V (main_arg2 : DevRef τ sig) = V (main_arg2 : DevRef τ sig) := by after_results_simp
theorem pR2b_arg3 : after (pR2b (F := Ideal)) V (main_arg3 : DevRef τ sig) = V (main_arg3 : DevRef τ sig) := by after_results_simp
theorem pR3a_arg0 : after (pR3a (F := Ideal)) V (main_arg0 : DevRef τ sig) = V (main_arg0 : DevRef τ sig) := by after_results_simp
theorem pR3a_arg1 : after (pR3a (F := Ideal)) V (main_arg1 : DevRef τ sig) = V (main_arg1 : DevRef τ sig) := by after_results_simp
theorem pR3a_arg2 : after (pR3a (F := Ideal)) V (main_arg2 : DevRef τ sig) = V (main_arg2 : DevRef τ sig) := by after_results_simp
theorem pR3a_arg3 : after (pR3a (F := Ideal)) V (main_arg3 : DevRef τ sig) = V (main_arg3 : DevRef τ sig) := by after_results_simp
theorem pR3b_arg0 : after (pR3b (F := Ideal)) V (main_arg0 : DevRef τ sig) = V (main_arg0 : DevRef τ sig) := by after_results_simp
theorem pR3b_arg1 : after (pR3b (F := Ideal)) V (main_arg1 : DevRef τ sig) = V (main_arg1 : DevRef τ sig) := by after_results_simp
theorem pR3b_arg2 : after (pR3b (F := Ideal)) V (main_arg2 : DevRef τ sig) = V (main_arg2 : DevRef τ sig) := by after_results_simp
theorem pR3b_arg3 : after (pR3b (F := Ideal)) V (main_arg3 : DevRef τ sig) = V (main_arg3 : DevRef τ sig) := by after_results_simp
theorem pR4a_arg0 : after (pR4a (F := Ideal)) V (main_arg0 : DevRef τ sig) = V (main_arg0 : DevRef τ sig) := by after_results_simp
theorem pR4a_arg1 : after (pR4a (F := Ideal)) V (main_arg1 : DevRef τ sig) = V (main_arg1 : DevRef τ sig) := by after_results_simp
theorem pR4a_arg2 : after (pR4a (F := Ideal)) V (main_arg2 : DevRef τ sig) = V (main_arg2 : DevRef τ sig) := by after_results_simp
theorem pR4a_arg3 : after (pR4a (F := Ideal)) V (main_arg3 : DevRef τ sig) = V (main_arg3 : DevRef τ sig) := by after_results_simp
theorem pR4b_arg0 : after (pR4b (F := Ideal)) V (main_arg0 : DevRef τ sig) = V (main_arg0 : DevRef τ sig) := by after_results_simp
theorem pR4b_arg1 : after (pR4b (F := Ideal)) V (main_arg1 : DevRef τ sig) = V (main_arg1 : DevRef τ sig) := by after_results_simp
theorem pR4b_arg2 : after (pR4b (F := Ideal)) V (main_arg2 : DevRef τ sig) = V (main_arg2 : DevRef τ sig) := by after_results_simp
theorem pR4b_arg3 : after (pR4b (F := Ideal)) V (main_arg3 : DevRef τ sig) = V (main_arg3 : DevRef τ sig) := by after_results_simp

/-- After the first piece the twice-normalised dense features are in their buffer. -/
theorem pA_v28 : after (pA (F := Ideal)) V (main_v28 : DevRef τ sig)
    = Chains.dense (V (main_arg0 : DevRef τ sig)) (V (main_arg2 : DevRef τ sig)) (V (main_arg3 : DevRef τ sig)) := by
  after_results_simp
  rfl
/-- … and the edge list's row 0, the targets. -/
theorem pA_v1 : after (pA (F := Ideal)) V (main_v1 : DevRef τ sig) = Chains.trgOf (V (main_arg1 : DevRef τ sig)) := by
  after_results_simp
  rfl
/-- … and its row 1, the sources. -/
theorem pA_v3 : after (pA (F := Ideal)) V (main_v3 : DevRef τ sig) = Chains.srcOf (V (main_arg1 : DevRef τ sig)) := by
  after_results_simp
  rfl

/-- After the second piece: the source rows in capsule form. -/
theorem pB_v36 : after (pB (F := Ideal)) V (main_v36 : DevRef τ sig)
    = shapeCast S1638400x8x8 (Chains.rowsAt (V (main_v28 : DevRef τ sig)) (Chains.wrap (V (main_v3 : DevRef τ sig)))) shapeCasts_S1638400x64_S1638400x8x8 := by
  after_results_simp
  rfl
theorem pB_v28 : after (pB (F := Ideal)) V (main_v28 : DevRef τ sig) = V (main_v28 : DevRef τ sig) := by after_results_simp
theorem pB_v1 : after (pB (F := Ideal)) V (main_v1 : DevRef τ sig) = V (main_v1 : DevRef τ sig) := by after_results_simp

/-- Round 1: from contents whose capsule-form source rows are those of `Z`, the round's result buffer holds one routing
    round of the features it read, with the targets read from their buffer. -/
theorem r1_out (Z : FVec Ideal S1638400x64 .f32)
    (hZ : V (main_v36 : DevRef τ sig) = shapeCast S1638400x8x8 Z shapeCasts_S1638400x64_S1638400x8x8) :
    after (pR1b (F := Ideal)) (after (pR1a (F := Ideal)) V) (main_v80 : DevRef τ sig) = Chains.round Z (V (main_v1 : DevRef τ sig)) (V (main_v28 : DevRef τ sig)) := by
  after_results_simp
  rw [hZ]
  rfl
theorem r1_v36 : after (pR1b (F := Ideal)) (after (pR1a (F := Ideal)) V) (main_v36 : DevRef τ sig) = V (main_v36 : DevRef τ sig) := by after_results_simp
theorem r1_v1 : after (pR1b (F := Ideal)) (after (pR1a (F := Ideal)) V) (main_v1 : DevRef τ sig) = V (main_v1 : DevRef τ sig) := by after_results_simp

/-- Round 2: from contents whose capsule-form source rows are those of `Z`, the round's result buffer holds one routing
    round of the features it read, with the targets read from their buffer. -/
theorem r2_out (Z : FVec Ideal S1638400x64 .f32)
    (hZ : V (main_v36 : DevRef τ sig) = shapeCast S1638400x8x8 Z shapeCasts_S1638400x64_S1638400x8x8) :
    after (pR2b (F := Ideal)) (after (pR2a (F := Ideal)) V) (main_v124 : DevRef τ sig) = Chains.round Z (V (main_v1 : DevRef τ sig)) (V (main_v80 : DevRef τ sig)) := by
  after_results_simp
  rw [hZ]
  rfl
theorem r2_v36 : after (pR2b (F := Ideal)) (after (pR2a (F := Ideal)) V) (main_v36 : DevRef τ sig) = V (main_v36 : DevRef τ sig) := by after_results_simp
theorem r2_v1 : after (pR2b (F := Ideal)) (after (pR2a (F := Ideal)) V) (main_v1 : DevRef τ sig) = V (main_v1 : DevRef τ sig) := by after_results_simp

/-- Round 3: from contents whose capsule-form source rows are those of `Z`, the round's result buffer holds one routing
    round of the features it read, with the targets read from their buffer. -/
theorem r3_out (Z : FVec Ideal S1638400x64 .f32)
    (hZ : V (main_v36 : DevRef τ sig) = shapeCast S1638400x8x8 Z shapeCasts_S1638400x64_S1638400x8x8) :
    after (pR3b (F := Ideal)) (after (pR3a (F := Ideal)) V) (main_v168 : DevRef τ sig) = Chains.round Z (V (main_v1 : DevRef τ sig)) (V (main_v124 : DevRef τ sig)) := by
  after_results_simp
  rw [hZ]
  rfl
theorem r3_v36 : after (pR3b (F := Ideal)) (after (pR3a (F := Ideal)) V) (main_v36 : DevRef τ sig) = V (main_v36 : DevRef τ sig) := by after_results_simp
theorem r3_v1 : after (pR3b (F := Ideal)) (after (pR3a (F := Ideal)) V) (main_v1 : DevRef τ sig) = V (main_v1 : DevRef τ sig) := by after_results_simp

/-- Round 4: from contents whose capsule-form source rows are those of `Z`, the round's result buffer holds one routing
    round of the features it read, with the targets read from their buffer. -/
theorem r4_out (Z : FVec Ideal S1638400x64 .f32)
    (hZ : V (main_v36 : DevRef τ sig) = shapeCast S1638400x8x8 Z shapeCasts_S1638400x64_S1638400x8x8) :
    after (pR4b (F := Ideal)) (after (pR4a (F := Ideal)) V) (main_v212 : DevRef τ sig) = Chains.round Z (V (main_v1 : DevRef τ sig)) (V (main_v168 : DevRef τ sig)) := by
  after_results_simp
  rw [hZ]
  rfl
theorem r4_v36 : after (pR4b (F := Ideal)) (after (pR4a (F := Ideal)) V) (main_v36 : DevRef τ sig) = V (main_v36 : DevRef τ sig) := by after_results_simp
theorem r4_v1 : after (pR4b (F := Ideal)) (after (pR4a (F := Ideal)) V) (main_v1 : DevRef τ sig) = V (main_v1 : DevRef τ sig) := by after_results_simp

/-! ## The whole line -/

/-- The six stages composed, over the contents between them: from contents holding the dense features, the targets and the
    sources, the source rows are gathered once and four rounds follow, each reading the previous round's result;
    that is the whole reference. -/
theorem compose (x : FVec Ideal S50000x256 .f32) (st : IVec S2x1638400 32) (w : FVec Ideal S256x64 .f32) (b : FVec Ideal S64 .f32)
    (V1 V2 V3 V4 V5 V6 : Valuation τ sig (Elt Ideal))
    (a28 : V1 (main_v28 : DevRef τ sig) = Chains.dense x w b) (a1 : V1 (main_v1 : DevRef τ sig) = Chains.trgOf st)
    (a3 : V1 (main_v3 : DevRef τ sig) = Chains.srcOf st)
    (h2 : V2 = after (pB (F := Ideal)) V1) (h3 : V3 = after (pR1b (F := Ideal)) (after (pR1a (F := Ideal)) V2))
    (h4 : V4 = after (pR2b (F := Ideal)) (after (pR2a (F := Ideal)) V3)) (h5 : V5 = after (pR3b (F := Ideal)) (after (pR3a (F := Ideal)) V4))
    (h6 : V6 = after (pR4b (F := Ideal)) (after (pR4a (F := Ideal)) V5)) :
    V6 (main_v212 : DevRef τ sig) = Chains.final x st w b := by
  have b36 : V2 (main_v36 : DevRef τ sig) = shapeCast S1638400x8x8 (Chains.rowsAt (Chains.dense x w b) (Chains.wrap (Chains.srcOf st))) shapeCasts_S1638400x64_S1638400x8x8 := by
    rw [h2, pB_v36, a28, a3]
  have b28 : V2 (main_v28 : DevRef τ sig) = Chains.dense x w b := by rw [h2, pB_v28, a28]
  have b1 : V2 (main_v1 : DevRef τ sig) = Chains.trgOf st := by rw [h2, pB_v1, a1]
  have c : V3 (main_v80 : DevRef τ sig) = Chains.round (Chains.rowsAt (Chains.dense x w b) (Chains.wrap (Chains.srcOf st))) (Chains.trgOf st) (Chains.dense x w b) := by
    rw [h3, r1_out V2 _ b36, b1, b28]
  have c36 : V3 (main_v36 : DevRef τ sig) = shapeCast S1638400x8x8 (Chains.rowsAt (Chains.dense x w b) (Chains.wrap (Chains.srcOf st))) shapeCasts_S1638400x64_S1638400x8x8 := by
    rw [h3, r1_v36, b36]
  have c1 : V3 (main_v1 : DevRef τ sig) = Chains.trgOf st := by rw [h3, r1_v1, b1]
  have d : V4 (main_v124 : DevRef τ sig) = Chains.round (Chains.rowsAt (Chains.dense x w b) (Chains.wrap (Chains.srcOf st))) (Chains.trgOf st) (Chains.round (Chains.rowsAt (Chains.dense x w b) (Chains.wrap (Chains.srcOf st))) (Chains.trgOf st) (Chains.dense x w b)) := by
    rw [h4, r2_out V3 _ c36, c1, c]
  have d36 : V4 (main_v36 : DevRef τ sig) = shapeCast S1638400x8x8 (Chains.rowsAt (Chains.dense x w b) (Chains.wrap (Chains.srcOf st))) shapeCasts_S1638400x64_S1638400x8x8 := by
    rw [h4, r2_v36, c36]
  have d1 : V4 (main_v1 : DevRef τ sig) = Chains.trgOf st := by rw [h4, r2_v1, c1]
  have e : V5 (main_v168 : DevRef τ sig) = Chains.round (Chains.rowsAt (Chains.dense x w b) (Chains.wrap (Chains.srcOf st))) (Chains.trgOf st) (Chains.round (Chains.rowsAt (Chains.dense x w b) (Chains.wrap (Chains.srcOf st))) (Chains.trgOf st) (Chains.round (Chains.rowsAt (Chains.dense x w b) (Chains.wrap (Chains.srcOf st))) (Chains.trgOf st) (Chains.dense x w b))) := by
    rw [h5, r3_out V4 _ d36, d1, d]
  have e36 : V5 (main_v36 : DevRef τ sig) = shapeCast S1638400x8x8 (Chains.rowsAt (Chains.dense x w b) (Chains.wrap (Chains.srcOf st))) shapeCasts_S1638400x64_S1638400x8x8 := by
    rw [h5, r3_v36, d36]
  have e1 : V5 (main_v1 : DevRef τ sig) = Chains.trgOf st := by rw [h5, r3_v1, d1]
  rw [h6, r4_out V5 _ e36, e1, e]
  rfl

/-- The contents after two lines in a row. -/
theorem after_app : ∀ (l₁ l₂ : List (HloOp τ sig (Elt Ideal))) (W : Valuation τ sig (Elt Ideal)),
    after (l₁ ++ l₂) W = after l₂ (after l₁ W)
  | [], _, _ => rfl
  | op :: l₁, l₂, W => by rw [List.cons_append, after_cons, after_cons, after_app l₁ l₂]

/-- The result buffer after the whole line holds the whole reference of the arguments' contents. -/
theorem out_eq : after (allOps (F := Ideal)) V (main_v212 : DevRef τ sig)
    = Chains.final (V (main_arg0 : DevRef τ sig)) (V (main_arg1 : DevRef τ sig)) (V (main_arg2 : DevRef τ sig)) (V (main_arg3 : DevRef τ sig)) := by
  simp only [allOps, after_app]
  exact compose _ _ _ _ (after (pA (F := Ideal)) V) _ _ _ _ _ (pA_v28 V) (pA_v1 V) (pA_v3 V) rfl rfl rfl rfl rfl

theorem arg0_eq : after (allOps (F := Ideal)) V (main_arg0 : DevRef τ sig) = V (main_arg0 : DevRef τ sig) := by
  simp only [allOps, after_app]
  rw [pR4b_arg0, pR4a_arg0, pR3b_arg0, pR3a_arg0, pR2b_arg0, pR2a_arg0, pR1b_arg0, pR1a_arg0, pB_arg0, pA_arg0]
theorem arg1_eq : after (allOps (F := Ideal)) V (main_arg1 : DevRef τ sig) = V (main_arg1 : DevRef τ sig) := by
  simp only [allOps, after_app]
  rw [pR4b_arg1, pR4a_arg1, pR3b_arg1, pR3a_arg1, pR2b_arg1, pR2a_arg1, pR1b_arg1, pR1a_arg1, pB_arg1, pA_arg1]
theorem arg2_eq : after (allOps (F := Ideal)) V (main_arg2 : DevRef τ sig) = V (main_arg2 : DevRef τ sig) := by
  simp only [allOps, after_app]
  rw [pR4b_arg2, pR4a_arg2, pR3b_arg2, pR3a_arg2, pR2b_arg2, pR2a_arg2, pR1b_arg2, pR1a_arg2, pB_arg2, pA_arg2]
theorem arg3_eq : after (allOps (F := Ideal)) V (main_arg3 : DevRef τ sig) = V (main_arg3 : DevRef τ sig) := by
  simp only [allOps, after_app]
  rw [pR4b_arg3, pR4a_arg3, pR3b_arg3, pR3a_arg3, pR2b_arg3, pR2a_arg3, pR1b_arg3, pR1a_arg3, pB_arg3, pA_arg3]

end Contents

variable (m : (ℓ : Loc nD τ sig) → Buf (Elt Ideal) ℓ) (ρ : Dev nD → PrngReg)

/-- Every weakly fair execution of the reference terminates with the result at its composed term. -/
theorem run : θ_run (defs (F := Ideal)) (onTc (τ := τ) (main (F := Ideal))) ⟨m, fun _ => 0, ρ⟩ (fun r => ∀ c : Dev nD,
      r.2.mem ((c.tc : Thread nD τ).loc main_v212)
        = Chains.final (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c => ⟨(h c main_v212).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq (defs (F := Ideal)) (main (F := Ideal)) (fun _ => allOps) main_eq (fun _ => allOps_sub) m ρ
      (fun _ => allOps_fresh))

end Cert.ReferenceIdeal.HandRun

end
-- ==== Proof.RefNorm.lean ====
/-
  The reference's ten operations of one normalisation are the capsule normalisation of every row.
-/
import proofs.«413496_j69939247448112_2_alg».proof.Proof.RefChains
import proofs.«413496_j69939247448112_2_alg».proof.Proof.Caps
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.Chains

open Idealize.ShloMosaic Idealize.ShloMosaic.ValueIdx Cert.ReferenceIdeal

namespace NormAt

/-! ## The capsule layout: a row of 64 lanes is 8 capsules of 8 -/

section Layout
variable {α : Type} {n : ℕ}

/-- A row of 64 lanes read as 8 capsules of 8: entry (r, k, d) is lane 8k + d of row r. -/
theorem toCaps_apply (x : (⟨2, ![n, 64]⟩ : Shape).Idx → α)
    (h : (⟨2, ![n, 64]⟩ : Shape).ShapeCasts ⟨3, ![n, 8, 8]⟩) (r : Fin n) (k d : Fin 8) :
    shapeCast ⟨3, ![n, 8, 8]⟩ x h (ix3 r k d) = x (ix2 r (Caps.lane k d)) :=
  shapeCast_apply x h _ _ (by
    rw [Shape.rowMajor_val_two, Shape.rowMajor_val_three]
    show r.val * 64 + (8 * k.val + d.val) = (r.val * 8 + k.val) * 8 + d.val
    omega)

/-- … and back: lane q of row r is entry (r, q / 8, q % 8). -/
theorem ofCaps_apply (x : (⟨3, ![n, 8, 8]⟩ : Shape).Idx → α)
    (h : (⟨3, ![n, 8, 8]⟩ : Shape).ShapeCasts ⟨2, ![n, 64]⟩) (r : Fin n) (q : Fin 64) :
    shapeCast ⟨2, ![n, 64]⟩ x h (ix2 r q)
      = x (ix3 r (Caps.capOf q) (⟨q.val % 8, Nat.mod_lt _ (by omega)⟩ : Fin 8)) :=
  shapeCast_apply x h _ _ (by
    rw [Shape.rowMajor_val_two, Shape.rowMajor_val_three]
    show (r.val * 8 + q.val / 8) * 8 + q.val % 8 = r.val * 64 + q.val
    omega)

/-- A trailing unit axis added: entry (r, k, 0) of the [n, 8, 1] array is entry (r, k) of the [n, 8] one. -/
theorem keep_apply (x : (⟨2, ![n, 8]⟩ : Shape).Idx → α)
    (h : (⟨2, ![n, 8]⟩ : Shape).BroadcastsInDim ⟨3, ![n, 8, 1]⟩ (![0, 1] : Fin 2 → Fin 3))
    (r : Fin n) (k : Fin 8) (u : Fin 1) :
    broadcastInDim ⟨3, ![n, 8, 1]⟩ (![0, 1] : Fin 2 → Fin 3) h x (ix3 r k u) = x (ix2 r k) :=
  broadcastInDim_apply _ h x _ _ (fun a => match a with
    | ⟨0, _⟩ => by
        show r.val = if n = 1 then 0 else r.val
        have := r.isLt
        split <;> omega
    | ⟨1, _⟩ => rfl)

/-- The unit axis spread over a capsule's 8 lanes: entry (r, k, d) reads entry (r, k, 0). -/
theorem spread_apply (x : (⟨3, ![n, 8, 1]⟩ : Shape).Idx → α)
    (h : (⟨3, ![n, 8, 1]⟩ : Shape).BroadcastsInDim ⟨3, ![n, 8, 8]⟩ (![0, 1, 2] : Fin 3 → Fin 3))
    (r : Fin n) (k d : Fin 8) :
    broadcastInDim ⟨3, ![n, 8, 8]⟩ (![0, 1, 2] : Fin 3 → Fin 3) h x (ix3 r k d) = x (ix3 r k (0 : Fin 1)) :=
  broadcastInDim_apply _ h x _ _ (fun a => match a with
    | ⟨0, _⟩ => by
        show r.val = if n = 1 then 0 else r.val
        have := r.isLt
        split <;> omega
    | ⟨1, _⟩ => rfl
    | ⟨2, _⟩ => rfl)

/-- The sum over a capsule's lanes from the zero word: at (r, k) it is the sum over d of entry (r, k, d). -/
theorem capSum_apply (v : (⟨3, ![n, 8, 8]⟩ : Shape).Idx → EReal)
    (h' : (⟨3, ![n, 8, 8]⟩ : Shape).ReducesTo [2] ⟨2, ![n, 8]⟩)
    (h : (⟨3, ![n, 8, 8]⟩ : Shape).Reduces [2] ⟨2, ![n, 8]⟩) (r : Fin n) (k : Fin 8) :
    Ideal.hostReduceAdd h' v (Ideal.ofBits .f32 0x00000000#32) (ix2 r k) = ∑ d : Fin 8, v (ix3 r k d) := by
  refine (Ideal.hostReduceAdd_single h' h v _ (ix2 r k)).trans ?_
  rw [Ideal.ofBits_zero_f32, zero_add]
  show (∑ d : Fin 8, v (h.lift (ix2 r k) d)) = _
  refine Finset.sum_congr rfl fun d _ => congrArg v ?_
  funext a
  match a with
  | ⟨0, _⟩ => rfl
  | ⟨1, _⟩ => rfl
  | ⟨2, _⟩ => rfl

end Layout

/-- A square root at an index is the square root of the element. -/
theorem sqrt_at {s : Shape} (a : FVec Ideal s .f32) (i : s.Idx) : Host.sqrt a i = Ideal.sqrt (a i) := rfl

/-- A quotient at an index is the quotient of the elements. -/
theorem divf_at {s : Shape} (a b : FVec Ideal s .f32) (i : s.Idx) : Host.divf a b i = Ideal.div (a i) (b i) := rfl

/-- The host's sum from a rank-zero initial word is the exact sum from that word's value. -/
theorem reduceAdd_at {s t u : Shape} {axes : List (Fin s.rank)} (x : FVec Ideal s .f32) (w : BitVec 32)
    (h' : s.ReducesTo axes t) (hu : 0 < u.numel) :
    Host.reduceAdd (F := Ideal) x (constant (F := Ideal) u .f32 w) h' hu = Ideal.hostReduceAdd h' x (Ideal.ofBits .f32 w) := rfl

/-- A rank-zero word spread over a shape reads, everywhere, the value the word encodes. -/
theorem floor_at {t : Shape} (w : BitVec 32) (h : S_.BroadcastsInDim t (![] : Fin 0 → Fin t.rank)) (i : t.Idx) :
    broadcastInDim t ![] h (constant (F := Ideal) S_ .f32 w) i = Ideal.ofBits .f32 w := rfl

end NormAt

open NormAt

theorem norm_eq (s : FVec Ideal S50000x64 .f32) : norm s = Caps.normArr s := by
  funext i
  obtain ⟨r, q, rfl⟩ : ∃ (r : Fin 50000) (q : Fin 64), i = ix2 r q := ⟨i 0, i 1, eq_ix2 i⟩
  rw [Caps.normArr_apply]
  unfold norm
  dsimp only
  -- the last reshape: lane q is entry (q / 8, q % 8) of the capsule array
  refine (ofCaps_apply _ _ r q).trans ?_
  -- the quotient, the spread of the denominator, the floor, the square root, the unit axis: all read at that entry
  rw [divf_at, toCaps_apply, Caps.lane_capOf, spread_apply, maximumf_apply, sqrt_at, keep_apply, reduceAdd_at, floor_at]
  -- what remains is the sum of the capsule's squares
  refine congrArg (fun t => Ideal.div (s (ix2 r q)) (max (Ideal.sqrt t) Caps.epsE)) ?_
  refine (capSum_apply _ _ (by decide) r (Caps.capOf q)).trans ?_
  refine Finset.sum_congr rfl fun d _ => ?_
  show _ = s (ix2 r (Caps.lane (Caps.capOf q) d)) * s (ix2 r (Caps.lane (Caps.capOf q) d))
  rw [mulf_apply, toCaps_apply]

end Cert.ReferenceIdeal.Chains

end
-- ==== Proof.RefRoute.lean ====
/-
  The reference's operations of one round's messages are, edge by edge, the softmax-weighted source capsules.
-/
import proofs.«413496_j69939247448112_2_alg».proof.Proof.RefChains
import proofs.«413496_j69939247448112_2_alg».proof.Proof.Caps
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.Chains

open Idealize.ShloMosaic Idealize.ShloMosaic.ValueIdx Cert.ReferenceIdeal

/-! ## The two reshapes at an index -/

/-- A row of 64 lanes read as 8 capsules of 8: capsule `k`, lane `d` is lane `8 k + d` of the row. -/
private theorem toCaps_apply {α : Type} (X : S1638400x64.Idx → α) (h : S1638400x64.ShapeCasts S1638400x8x8)
    (e : Fin 1638400) (k d : Fin 8) :
    shapeCast S1638400x8x8 X h (ix3 e k d) = X (ix2 e (Caps.lane k d)) :=
  shapeCast_apply X h _ _ (by
    rw [Shape.rowMajor_val_two, Shape.rowMajor_val_three]
    show e.val * 64 + (8 * k.val + d.val) = (e.val * 8 + k.val) * 8 + d.val
    omega)

/-- The capsules read back as a row: lane `q` is lane `q % 8` of capsule `q / 8`. -/
private theorem ofCaps_apply {α : Type} (Y : S1638400x8x8.Idx → α) (h : S1638400x8x8.ShapeCasts S1638400x64)
    (e : Fin 1638400) (q : Fin 64) :
    shapeCast S1638400x64 Y h (ix2 e q)
      = Y (ix3 e (Caps.capOf q) (⟨q.val % 8, Nat.mod_lt _ (by decide)⟩ : Fin 8)) :=
  shapeCast_apply Y h _ _ (by
    rw [Shape.rowMajor_val_three, Shape.rowMajor_val_two]
    show (e.val * 8 + q.val / 8) * 8 + q.val % 8 = e.val * 64 + q.val
    omega)

/-! ## The two sums and the maximum at an index -/

/-- The capsule index (e, k) with lane `d` put back on the last axis is (e, k, d). -/
private theorem lift_lane (h : S1638400x8x8.Reduces [2] S1638400x8) (e : Fin 1638400) (k : Fin 8)
    (d : Fin (S1638400x8x8.size 2)) : h.lift (ix2 e k) d = ix3 e k (⟨d.val, d.isLt⟩ : Fin 8) := by
  funext c; apply Fin.ext
  fin_cases c <;> rfl

/-- The edge index e with capsule `k` put back on the last axis is (e, k). -/
private theorem lift_cap (h : S1638400x8.Reduces [1] S1638400) (e : Fin 1638400)
    (k : Fin (S1638400x8.size 1)) : h.lift (ix1 e) k = ix2 e (⟨k.val, k.isLt⟩ : Fin 8) := by
  funext c; apply Fin.ext
  fin_cases c <;> rfl

/-- The sum over the lanes of a capsule, from the initial value. -/
private theorem laneSum_apply (x : FVec Ideal S1638400x8x8 .f32) (init : S_.Idx → Ideal .f32)
    (h' : S1638400x8x8.ReducesTo [2] S1638400x8) (hu : 0 < S_.numel) (e : Fin 1638400) (k : Fin 8) :
    Host.reduceAdd x init h' hu (ix2 e k) = init (Shape.Idx.first hu) + ∑ d : Fin 8, x (ix3 e k d) := by
  have h : S1638400x8x8.Reduces [2] S1638400x8 := by decide
  refine (Ideal.hostReduceAdd_single h' h x (init (Shape.Idx.first hu)) (ix2 e k)).trans ?_
  exact congrArg (fun f : Fin 8 → EReal => init (Shape.Idx.first hu) + ∑ d : Fin 8, f d)
    (funext fun d => congrArg x (lift_lane h e k d))

/-- The sum over the capsules of an edge, from the initial value. -/
private theorem capSum_apply (x : FVec Ideal S1638400x8 .f32) (init : S_.Idx → Ideal .f32)
    (h' : S1638400x8.ReducesTo [1] S1638400) (hu : 0 < S_.numel) (e : Fin 1638400) :
    Host.reduceAdd x init h' hu (ix1 e) = init (Shape.Idx.first hu) + ∑ k : Fin 8, x (ix2 e k) := by
  have h : S1638400x8.Reduces [1] S1638400 := by decide
  refine (Ideal.hostReduceAdd_single h' h x (init (Shape.Idx.first hu)) (ix1 e)).trans ?_
  exact congrArg (fun f : Fin 8 → EReal => init (Shape.Idx.first hu) + ∑ k : Fin 8, f k)
    (funext fun k => congrArg x (lift_cap h e k))

/-- The maximum over the capsules of an edge, from the initial value: the fold of `max` over the 8 capsules. -/
private theorem capMax_apply (x : FVec Ideal S1638400x8 .f32) (init : S_.Idx → Ideal .f32)
    (h' : S1638400x8.ReducesTo [1] S1638400) (hu : 0 < S_.numel) (e : Fin 1638400) :
    Host.reduce FloatOps.maximumf x init h' hu (ix1 e)
      = (Finset.univ : Finset (Fin 8)).fold max (init (Shape.Idx.first hu)) (fun k => x (ix2 e k)) := by
  have h : S1638400x8.Reduces [1] S1638400 := by decide
  refine (Host.reduce_eq_fold_single FloatOps.maximumf x init h' h hu (ix1 e)).trans ?_
  exact congrArg (fun f : Fin 8 → EReal => (Finset.univ : Finset (Fin 8)).fold max (init (Shape.Idx.first hu)) f)
    (funext fun k => congrArg x (lift_cap h e k))

/-! ## The broadcasts at an index -/

/-- A scalar spread over any shape reads the scalar everywhere. -/
private theorem splat_apply {T : Shape} {α : Type} (h : S_.BroadcastsInDim T ![]) (x : S_.Idx → α) (j : T.Idx) :
    broadcastInDim T ![] h x j = x ix0 :=
  broadcastInDim_apply _ h x j ix0 (fun a => a.elim0)

/-- A per-edge value as a one-entry column reads that edge's value. -/
private theorem col_apply {α : Type} (h : S1638400.BroadcastsInDim S1638400x1 ![0]) (v : S1638400.Idx → α)
    (e : Fin 1638400) (u : Fin 1) : broadcastInDim S1638400x1 ![0] h v (ix2 e u) = v (ix1 e) :=
  broadcastInDim_apply _ h v _ (ix1 e) (fun a => match a with | ⟨0, _⟩ => rfl)

/-- The column spread over the 8 capsules reads the column's one entry. -/
private theorem colSpread_apply {α : Type} (h : S1638400x1.BroadcastsInDim S1638400x8 ![0, 1]) (v : S1638400x1.Idx → α)
    (e : Fin 1638400) (k : Fin 8) : broadcastInDim S1638400x8 ![0, 1] h v (ix2 e k) = v (ix2 e (0 : Fin 1)) :=
  broadcastInDim_apply _ h v _ (ix2 e (0 : Fin 1)) (fun a => match a with | ⟨0, _⟩ => rfl | ⟨1, _⟩ => rfl)

/-- A per-capsule value with a unit lane axis reads that capsule's value. -/
private theorem capCol_apply {α : Type} (h : S1638400x8.BroadcastsInDim S1638400x8x1 ![0, 1]) (v : S1638400x8.Idx → α)
    (e : Fin 1638400) (k : Fin 8) (u : Fin 1) : broadcastInDim S1638400x8x1 ![0, 1] h v (ix3 e k u) = v (ix2 e k) :=
  broadcastInDim_apply _ h v _ (ix2 e k) (fun a => match a with | ⟨0, _⟩ => rfl | ⟨1, _⟩ => rfl)

/-- The unit lane axis spread over the 8 lanes reads the one entry. -/
private theorem capSpread_apply {α : Type} (h : S1638400x8x1.BroadcastsInDim S1638400x8x8 ![0, 1, 2])
    (v : S1638400x8x1.Idx → α) (e : Fin 1638400) (k d : Fin 8) :
    broadcastInDim S1638400x8x8 ![0, 1, 2] h v (ix3 e k d) = v (ix3 e k (0 : Fin 1)) :=
  broadcastInDim_apply _ h v _ (ix3 e k (0 : Fin 1))
    (fun a => match a with | ⟨0, _⟩ => rfl | ⟨1, _⟩ => rfl | ⟨2, _⟩ => rfl)

/-! ## The host's quotient and exponential at an index -/

private theorem hdiv_apply {s : Shape} (a b : FVec Ideal s .f32) (i : s.Idx) :
    Host.divf a b i = Ideal.div (a i) (b i) := rfl

private theorem hexp_apply {s : Shape} (a : FVec Ideal s .f32) (i : s.Idx) :
    Host.exp a i = Ideal.exp (a i) := rfl

/-! ## The three groups of operations -/

section Groups

open Cert.ReferenceIdeal.Facts₀

/-- The scores: per capsule, the inner product of the two rows' capsules over the temperature. -/
private theorem score_apply (Z CT : FVec Ideal S1638400x64 .f32) (e : Fin 1638400) (k : Fin 8) :
    Host.divf
        (Host.reduceAdd
          (mulf (shapeCast S1638400x8x8 Z shapeCasts_S1638400x64_S1638400x8x8)
            (shapeCast S1638400x8x8 CT shapeCasts_S1638400x64_S1638400x8x8))
          (constant S_ .f32 0x00000000#32) reducesTo_S1638400x8x8_S1638400x8_d2 h_S_)
        (broadcastInDim S1638400x8 ![] bcast_S_S1638400x8 (constant S_ .f32 0x3F800000#32)) (ix2 e k)
      = Caps.score (Caps.rowOf Z e) (Caps.rowOf CT e) k := by
  rw [hdiv_apply, laneSum_apply, splat_apply]
  unfold Caps.score
  simp only [mulf_apply, toCaps_apply, constant_apply, Ideal.ofBits_zero_f32, zero_add]
  rfl

/-- The largest score of an edge (never below −∞), spread back over its capsules. -/
private abbrev rowMax (p : FVec Ideal S1638400x8 .f32) : FVec Ideal S1638400x8 .f32 :=
  broadcastInDim S1638400x8 ![0, 1] bcast_S1638400x1_S1638400x8_0_1
    (broadcastInDim S1638400x1 ![0] bcast_S1638400_S1638400x1_0
      (maximumf (broadcastInDim S1638400 ![] bcast_S_S1638400 (constant S_ .f32 0xFF800000#32))
        (Host.reduce FloatOps.maximumf p (constant S_ .f32 0xFF800000#32) reducesTo_S1638400x8_S1638400_d1 h_S_)))

private theorem rowMax_apply (p : FVec Ideal S1638400x8 .f32) (e : Fin 1638400) (k : Fin 8) :
    rowMax p (ix2 e k) = Caps.scoreMax (fun k' => p (ix2 e k')) := by
  unfold rowMax
  rw [colSpread_apply, col_apply, maximumf_apply, splat_apply, capMax_apply]
  rfl

/-- The softmax over the capsules: the exponential of a score less the largest, over the sum of those. -/
private theorem weight_apply (p : FVec Ideal S1638400x8 .f32) (e : Fin 1638400) (k : Fin 8) (s : Fin 8 → EReal)
    (hs : ∀ k' : Fin 8, p (ix2 e k') = s k') :
    Host.divf
        (Host.exp (subf p (rowMax p)))
        (broadcastInDim S1638400x8 ![0, 1] bcast_S1638400x1_S1638400x8_0_1
          (broadcastInDim S1638400x1 ![0] bcast_S1638400_S1638400x1_0
            (Host.reduceAdd (Host.exp (subf p (rowMax p))) (constant S_ .f32 0x00000000#32)
              reducesTo_S1638400x8_S1638400_d1 h_S_)))
        (ix2 e k)
      = Caps.weight s k := by
  have hp : (fun k' : Fin 8 => p (ix2 e k')) = s := funext hs
  rw [hdiv_apply, colSpread_apply, col_apply, capSum_apply]
  unfold Caps.weight
  simp only [hexp_apply, subf_apply, rowMax_apply, constant_apply, Ideal.ofBits_zero_f32, zero_add, hp, hs]

/-- The messages: every lane of the source row scaled by its capsule's weight. -/
private theorem message_apply (wt : FVec Ideal S1638400x8 .f32) (Z : FVec Ideal S1638400x64 .f32)
    (e : Fin 1638400) (q : Fin 64) :
    shapeCast S1638400x64
        (mulf
          (broadcastInDim S1638400x8x8 ![0, 1, 2] bcast_S1638400x8x1_S1638400x8x8_0_1_2
            (broadcastInDim S1638400x8x1 ![0, 1] bcast_S1638400x8_S1638400x8x1_0_1 wt))
          (shapeCast S1638400x8x8 Z shapeCasts_S1638400x64_S1638400x8x8))
        shapeCasts_S1638400x8x8_S1638400x64 (ix2 e q)
      = wt (ix2 e (Caps.capOf q)) * Z (ix2 e q) := by
  rw [ofCaps_apply, mulf_apply, capSpread_apply, capCol_apply, toCaps_apply, Caps.lane_capOf]

end Groups

theorem route_eq (Z CT : FVec Ideal S1638400x64 .f32) : route Z CT = Caps.routeArr Z CT := by
  funext i
  obtain ⟨e, q, rfl⟩ : ∃ (e : Fin 1638400) (q : Fin 64), i = ix2 e q := ⟨i 0, i 1, eq_ix2 i⟩
  rw [Caps.routeArr_apply]
  refine (message_apply _ Z e q).trans ?_
  exact congrArg (· * Z (ix2 e q)) (weight_apply _ e (Caps.capOf q) _ (score_apply Z CT e))

end Cert.ReferenceIdeal.Chains

end
-- ==== Proof.RefDense.lean ====
/-
  The reference's dense stage is, row by row, the dense row function: the host's matrix product read as a sum,
  the bias broadcast over the rows, the slope, and two normalisations.
-/
import proofs.«413496_j69939247448112_2_alg».proof.Proof.RefChains
import proofs.«413496_j69939247448112_2_alg».proof.Proof.Caps
import Idealize.ShloMosaic.PureOps.Ideal.Laws
import Idealize.ShloMosaic.Lib.ValueIdx
import Idealize.ShloMosaic.Lib.Pipeline.Value
import Idealize.ShloMosaic.Lib.ValueLayout
import proofs.«413496_j69939247448112_2_alg».proof.Proof.RefNorm

noncomputable section

namespace Cert.ReferenceIdeal.Chains

open Idealize.ShloMosaic Idealize.ShloMosaic.ValueIdx Cert.ReferenceIdeal

/-! ### The matrix product's operand indices, axis by axis -/

theorem lhs_dot_0 (j : S50000x64.Idx) (k : dot_S50000x256_S256x64_S50000x64_1_0_0_1_n_n.contr.Idx) :
    (dot_S50000x256_S256x64_S50000x64_1_0_0_1_n_n.lhsIdx j k 0 : ℕ) = j 0 := by
  unfold DotDims.lhsIdx
  rw [dif_neg (show ¬ (0 : Fin S50000x256.rank) ∈ dot_S50000x256_S256x64_S50000x64_1_0_0_1_n_n.lhsBatch by decide),
    dif_pos (show (0 : Fin S50000x256.rank) ∈ dot_S50000x256_S256x64_S50000x64_1_0_0_1_n_n.lhsNonContracting by decide)]
  rfl

theorem lhs_dot_1 (j : S50000x64.Idx) (k : dot_S50000x256_S256x64_S50000x64_1_0_0_1_n_n.contr.Idx) :
    (dot_S50000x256_S256x64_S50000x64_1_0_0_1_n_n.lhsIdx j k 1 : ℕ) = k ⟨0, by decide⟩ :=
  DotDims.lhsIdx_val_of_single (d := dot_S50000x256_S256x64_S50000x64_1_0_0_1_n_n) (cl := 1) rfl j k

theorem rhs_dot_0 (j : S50000x64.Idx) (k : dot_S50000x256_S256x64_S50000x64_1_0_0_1_n_n.contr.Idx) :
    (dot_S50000x256_S256x64_S50000x64_1_0_0_1_n_n.rhsIdx j k 0 : ℕ) = k ⟨0, by decide⟩ :=
  DotDims.rhsIdx_val_of_single (d := dot_S50000x256_S256x64_S50000x64_1_0_0_1_n_n) (cr := 0) rfl j k

theorem rhs_dot_1 (j : S50000x64.Idx) (k : dot_S50000x256_S256x64_S50000x64_1_0_0_1_n_n.contr.Idx) :
    (dot_S50000x256_S256x64_S50000x64_1_0_0_1_n_n.rhsIdx j k 1 : ℕ) = j 1 := by
  unfold DotDims.rhsIdx
  rw [dif_neg (show ¬ (1 : Fin S256x64.rank) ∈ dot_S50000x256_S256x64_S50000x64_1_0_0_1_n_n.rhsBatch by decide),
    dif_pos (show (1 : Fin S256x64.rank) ∈ dot_S50000x256_S256x64_S50000x64_1_0_0_1_n_n.rhsNonContracting by decide)]
  rfl

/-- The host's matrix product at (r, q) is the sum over the 256 shared positions. -/
theorem dot_apply (x : FVec Ideal S50000x256 .f32) (w : FVec Ideal S256x64 .f32) (r : Fin 50000) (q : Fin 64) :
    Host.dotGeneral (F := Ideal) dot_S50000x256_S256x64_S50000x64_1_0_0_1_n_n none x w (ix2 r q)
      = ∑ k : Fin 256, x (ix2 r k) * w (ix2 k q) := by
  simp only [Host.dotGeneral]
  rw [Ideal.dotGeneral_apply,
    ← Equiv.sum_comp (contrEquiv1 dot_S50000x256_S256x64_S50000x64_1_0_0_1_n_n 256 rfl rfl).symm]
  refine Finset.sum_congr rfl fun k _ => ?_
  have hl : dot_S50000x256_S256x64_S50000x64_1_0_0_1_n_n.lhsIdx (ix2 r q)
      ((contrEquiv1 dot_S50000x256_S256x64_S50000x64_1_0_0_1_n_n 256 rfl rfl).symm k) = ix2 r k := by
    funext a
    match a with
    | ⟨0, _⟩ => exact Fin.ext (lhs_dot_0 _ _)
    | ⟨1, _⟩ => exact Fin.ext ((lhs_dot_1 _ _).trans (contrEquiv1_symm_val _ 256 rfl rfl k))
  have hr : dot_S50000x256_S256x64_S50000x64_1_0_0_1_n_n.rhsIdx (ix2 r q)
      ((contrEquiv1 dot_S50000x256_S256x64_S50000x64_1_0_0_1_n_n 256 rfl rfl).symm k) = ix2 k q := by
    funext a
    match a with
    | ⟨0, _⟩ => exact Fin.ext ((rhs_dot_0 _ _).trans (contrEquiv1_symm_val _ 256 rfl rfl k))
    | ⟨1, _⟩ => exact Fin.ext (rhs_dot_1 _ _)
  rw [hl, hr]

/-- The bias, made a one-row matrix and then repeated down the rows, reads at (r, q) the bias at q. -/
theorem bias_apply (h1 : S64.BroadcastsInDim S1x64 (![1] : Fin 1 → Fin S1x64.rank))
    (h2 : S1x64.BroadcastsInDim S50000x64 (![0, 1] : Fin 2 → Fin S50000x64.rank))
    (b : FVec Ideal S64 .f32) (r : Fin 50000) (q : Fin 64) :
    broadcastInDim S50000x64 ![0, 1] h2 (broadcastInDim S1x64 ![1] h1 b) (ix2 r q) = b (ix1 q) := by
  refine (broadcastInDim_apply ![0, 1] h2 _ (ix2 r q) (ix2 (0 : Fin 1) q) ?_).trans
    (broadcastInDim_apply ![1] h1 b (ix2 (0 : Fin 1) q) (ix1 q) ?_)
  · intro a
    match a with
    | ⟨0, _⟩ => rfl
    | ⟨1, _⟩ => rfl
  · intro a
    match a with
    | ⟨0, _⟩ => rfl

/-- The slope stage at an entry: the entry where it is at least zero, the slope times it elsewhere. -/
theorem leakyRelu_apply (a : FVec Ideal S50000x64 .f32) (i : S50000x64.Idx) :
    leakyRelu a i = Caps.leaky (a i) := rfl

theorem dense_eq (x : FVec Ideal S50000x256 .f32) (w : FVec Ideal S256x64 .f32) (b : FVec Ideal S64 .f32) :
    dense x w b = Caps.denseArr x w (fun j => b (ix1 j)) := by
  dsimp only [dense]
  rw [norm_eq, norm_eq]
  funext i
  obtain ⟨r, q, rfl⟩ : ∃ (r : Fin 50000) (q : Fin 64), i = ix2 r q := ⟨i 0, i 1, eq_ix2 i⟩
  rw [Caps.denseArr_apply, Caps.normArr_apply]
  unfold Caps.denseRow
  congr 1
  funext q'
  show Caps.normArr _ (ix2 r q') = _
  rw [Caps.normArr_apply]
  congr 1
  funext q''
  show leakyRelu _ (ix2 r q'') = _
  rw [leakyRelu_apply, addf_apply, dot_apply, bias_apply]
  rfl

end Cert.ReferenceIdeal.Chains

end
-- ==== Proof.Pre.lean ====
/-
  What the precondition says of the edge list, and what it buys: every entry of the edge list is a row number
  (at least 0, below 50000, read as a signed integer); so both rows of it are; and at such indices a take's range
  test passes on every edge, so the take is the plain gather at the prepared indices.
-/
import proofs.«413496_j69939247448112_2_alg».proof.Pre_finite_inputs
import proofs.«413496_j69939247448112_2_alg».proof.Proof.Gen.Pre_finite_inputs
import proofs.«413496_j69939247448112_2_alg».proof.Proof.KerChains
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Domain

open Idealize.ShloMosaic Idealize.ShloMosaic.ValueIdx Cert.KernelIdeal

/-- Every entry of an index vector is a row number. -/
def InRows {s : Shape} (idx : IVec s 32) : Prop := ∀ e : s.Idx, (0 : Int) ≤ (idx e).toInt ∧ (idx e).toInt < 50000

/-! ## Words: the literals read as integers, and the two range tests at a row number -/

theorem toInt_zero32 : (0#32 : BitVec 32).toInt = 0 := by decide
theorem toInt_rows32 : (50000#32 : BitVec 32).toInt = 50000 := by decide
theorem toInt_last32 : (49999#32 : BitVec 32).toInt = 49999 := by decide

/-- A word that tests at least 0 and below 50000, both signed, is a row number. -/
theorem rowNumber_of_tests (w : BitVec 32) (hge : IntOp.cmpi .sge w 0#32 = 1#1) (hlt : IntOp.cmpi .slt w 50000#32 = 1#1) :
    (0 : Int) ≤ w.toInt ∧ w.toInt < 50000 := by
  rw [IntOp.cmpi_sge, toInt_zero32] at hge
  rw [IntOp.cmpi_slt, toInt_rows32] at hlt
  exact ⟨hge, hlt⟩

/-- A nonnegative word does not test negative. -/
theorem slt_zero_of_nonneg (w : BitVec 32) (h : (0 : Int) ≤ w.toInt) : IntOp.cmpi .slt w 0#32 = 0#1 := by
  apply eq_zero_of_ne_one
  rw [IntOp.cmpi_slt, toInt_zero32]
  omega

/-- A fold by `and` from 1 over words that are all 1 is 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, hi => hi
  | a :: l, init, hi => by
    rw [List.foldl_cons]
    exact foldl_andi_ones f hf l _ (IntOp.andi_eq_one.2 ⟨hi, hf a⟩)

/-! ## The precondition decoded -/

/-- The precondition's last conjunct, decoded: every entry of the edge list is a row number. -/
theorem inRows_of_pre (x : FVec Ideal S50000x256 .f32) (st : IVec S2x1638400 32) (w : FVec Ideal S256x64 .f32) (b : FVec Ideal S64 .f32)
    (h : Cert.Pre_finite_inputs.fn (F := Ideal) x st w b = fun _ => 1#1) : InRows st := by
  intro e
  have h0 := congrFun h ValueIdx.ix0
  dsimp only [Cert.Pre_finite_inputs.fn, Cert.Pre_finite_inputs.fn_part1] at h0
  -- the whole predicate is the finiteness conjuncts and-ed with the all-reduction of the two range tests
  obtain ⟨-, hall⟩ := IntOp.andi_eq_one.1 h0
  haveI : Subsingleton Cert.Pre_finite_inputs.S_.Idx := ⟨fun a b => funext fun d => d.elim0⟩
  -- an all-reduction that is 1 met a 1 at every entry
  have he := Host.reduce_andi_all _ _ _ _ _ hall e
  -- at entry e the two tests are both 1; the literals they compare with are broadcast scalars
  obtain ⟨hge, hlt⟩ := IntOp.andi_eq_one.1 he
  exact rowNumber_of_tests (st e) hge hlt

/-! ## Both rows of the edge list -/

/-- The targets are row numbers when the edge list's entries are. -/
theorem inRows_trgOf (st : IVec S2x1638400 32) (h : InRows st) : InRows (Chains.trgOf st) := by
  intro e
  -- a slice and a shape cast read at an index are the operand at some index
  obtain ⟨k, hk⟩ : ∃ k, Chains.trgOf st e = st k := ⟨_, rfl⟩
  rw [hk]; exact h k

/-- The sources are row numbers when the edge list's entries are. -/
theorem inRows_srcOf (st : IVec S2x1638400 32) (h : InRows st) : InRows (Chains.srcOf st) := by
  intro e
  obtain ⟨k, hk⟩ : ∃ k, Chains.srcOf st e = st k := ⟨_, rfl⟩
  rw [hk]; exact h k

/-! ## The take at row numbers -/

/-- The index preparation leaves row numbers as they are: a nonnegative index is not moved. -/
theorem inRows_wrap (idx : IVec S1638400 32) (h : InRows idx) : InRows (Chains.wrap idx) := by
  intro j
  -- the prepared index at j is the choice, at some edge k, between the index moved up and the index itself
  obtain ⟨k, hk⟩ : ∃ k, Chains.wrap idx j
      = Scalar.select (IntOp.cmpi .slt (idx k) 0#32) (IntOp.addi (idx k) 50000#32) (idx k) := ⟨_, rfl⟩
  rw [hk, slt_zero_of_nonneg _ (h k).1, select_zero]
  exact h k

/-- The range test of a take passes on every edge whose prepared index is a row number. -/
theorem inRange_eq_one (i : IVec S1638400x1 32) (h : InRows i) (e : S1638400.Idx) : Chains.inRange i e = 1#1 := by
  unfold Chains.inRange
  dsimp only
  rw [Host.reduce_eq_foldl]
  refine foldl_andi_ones _ (fun m => ?_) _ _ rfl
  -- at every entry both tests are 1: 0 ≤ i m and i m ≤ 49999, signed
  show IntOp.andi (IntOp.cmpi .sge (i m) 0#32) (IntOp.cmpi .sle (i m) 49999#32) = 1#1
  refine IntOp.andi_eq_one.2 ⟨?_, ?_⟩
  · rw [IntOp.cmpi_sge, toInt_zero32]; exact (h m).1
  · rw [IntOp.cmpi_sle, toInt_last32]; have := (h m).2; omega

/-- A broadcast of a mask that is 1 everywhere is 1 everywhere. -/
theorem bcast_ones {s t : Shape} (dims : Fin s.rank → Fin t.rank) (hb : s.BroadcastsInDim t dims) (x : IVec s 1)
    (hx : ∀ e, x e = 1#1) (j : t.Idx) : broadcastInDim t dims hb x j = 1#1 := by
  unfold broadcastInDim
  exact hx _

/-- At row numbers a take is the gather at the prepared indices: the range test passes on every edge. -/
theorem take_eq (A : FVec Ideal S50000x64 .f32) (idx : IVec S1638400 32) (h : InRows idx) :
    Chains.take A idx = Chains.rowsAt A (Chains.wrap idx) := by
  funext j
  have hok : ∀ e, Chains.inRange (Chains.wrap idx) e = 1#1 := inRange_eq_one _ (inRows_wrap idx h)
  -- the take at j chooses, by the range test broadcast along the row, between the gathered entry and the fixed word
  unfold Chains.take
  dsimp only
  rw [select_apply, bcast_ones _ _ _ hok, select_one]

end Cert.KernelIdeal.Domain

end
-- ==== Proof.Bridge.lean ====
/-
  The two programs' composed terms are one function of the arguments when every edge-list entry is a row number.
  Piece by piece: the dense stage (the kernel's bias row is the bias), the index preparation and the accumulating
  scatter (the same operations in both programs), a take (the plain gather, at row numbers), a round's messages and
  the normalisation (each the row-by-row array function on both sides).
-/
import proofs.«413496_j69939247448112_2_alg».proof.Proof.RefChains
import proofs.«413496_j69939247448112_2_alg».proof.Proof.KerChains
import proofs.«413496_j69939247448112_2_alg».proof.Proof.RefNorm
import proofs.«413496_j69939247448112_2_alg».proof.Proof.RefRoute
import proofs.«413496_j69939247448112_2_alg».proof.Proof.RefDense
import proofs.«413496_j69939247448112_2_alg».proof.Proof.Pre
import proofs.«413496_j69939247448112_2_alg».proof.Proof.Caps
import Idealize.ShloMosaic.Lib.Pipeline.Value
import Idealize.ShloMosaic.Lib.ValueLayout

noncomputable section

namespace Cert.Bridge

open Idealize.ShloMosaic Idealize.ShloMosaic.ValueIdx Cert.KernelIdeal.Domain

/-- The kernel's one-row bias array, read at lane `j` of its row, is the bias at `j`: a reshape keeps the
    row-major position, and lane `j` of the single row is position `j`. -/
theorem biasRow_apply (b : FVec Ideal Cert.KernelIdeal.S64 .f32) (j : Fin 64) :
    Cert.KernelIdeal.Chains.biasRow b (ix2 0 j) = b (ix1 j) := by
  unfold Cert.KernelIdeal.Chains.biasRow
  refine shapeCast_apply b _ (ix2 0 j) (ix1 j) ?_
  rw [Shape.rowMajor_val_one, Shape.rowMajor_val_two]
  simp [ix1, ix2]

/-- The dense stage: the kernel's first region leaves what the reference's operations compute. -/
theorem dense_eq (x : FVec Ideal Cert.KernelIdeal.S50000x256 .f32) (w : FVec Ideal Cert.KernelIdeal.S256x64 .f32)
    (b : FVec Ideal Cert.KernelIdeal.S64 .f32) :
    Cert.KernelIdeal.Chains.dense x w b = Cert.ReferenceIdeal.Chains.dense x w b := by
  rw [Cert.ReferenceIdeal.Chains.dense_eq]
  unfold Cert.KernelIdeal.Chains.dense
  exact congrArg (Cert.Caps.denseArr x w) (funext fun j => biasRow_apply b j)

/-- One round: at row-number targets the kernel's take is the reference's gather, the messages and the normalisation
    are the same array functions, and the index preparation and the scatter are the same operations. -/
theorem round_eq (Z : FVec Ideal Cert.KernelIdeal.S1638400x64 .f32) (trg : IVec Cert.KernelIdeal.S1638400 32)
    (c : FVec Ideal Cert.KernelIdeal.S50000x64 .f32) (h : InRows trg) :
    Cert.KernelIdeal.Chains.round Z trg c = Cert.ReferenceIdeal.Chains.round Z trg c := by
  unfold Cert.KernelIdeal.Chains.round Cert.ReferenceIdeal.Chains.round
  rw [take_eq c trg h, Cert.ReferenceIdeal.Chains.norm_eq, Cert.ReferenceIdeal.Chains.route_eq]
  rfl

/-- The whole: at row numbers the kernel program's composed term is the reference's. -/
theorem final_eq (x : FVec Ideal Cert.KernelIdeal.S50000x256 .f32) (st : IVec Cert.KernelIdeal.S2x1638400 32)
    (w : FVec Ideal Cert.KernelIdeal.S256x64 .f32) (b : FVec Ideal Cert.KernelIdeal.S64 .f32) (h : InRows st) :
    Cert.KernelIdeal.Chains.final x st w b = Cert.ReferenceIdeal.Chains.final x st w b := by
  have hs := inRows_srcOf st h
  have ht := inRows_trgOf st h
  unfold Cert.KernelIdeal.Chains.final Cert.ReferenceIdeal.Chains.final
  dsimp only
  rw [take_eq _ _ hs, dense_eq,
    round_eq _ _ _ ht, round_eq _ _ _ ht, round_eq _ _ _ ht, round_eq _ _ _ ht]
  rfl

end Cert.Bridge

end
-- ==== Proof.lean ====
/-
  Capsule routing over a graph: a dense stage (matrix product, bias, a slope on the negative side, two capsule
  normalisations), the source rows gathered once, then four rounds, each gathering the target rows, forming every
  edge's message (per-capsule inner products, a softmax over the eight capsules, the source capsules scaled),
  adding the messages into their targets' rows, and normalising every capsule. The kernel program computes the dense
  stage, the messages and the normalisations in nine tiled kernel regions and gathers with a range test; the reference
  computes all of it with whole-array operations and gathers directly.

  Both programs run to their ends (the kernel program's frames are the generated ones; the reference is a straight
  line of host operations). Over the extended reals each kernel region's output array is the same row-by-row function
  the reference's operations compute, the host operations between the regions are the reference's own, and where
  every edge-list entry is a row number (the precondition) the range test passes everywhere, so the results are equal.
  No operation was rewritten by the idealization, so that conjunct is empty.
-/
import proofs.«413496_j69939247448112_2_alg».proof.Defs
import proofs.«413496_j69939247448112_2_alg».proof.Proof.Gen.Kernel
import proofs.«413496_j69939247448112_2_alg».proof.Proof.Gen.Kernel.Frame
import proofs.«413496_j69939247448112_2_alg».proof.Proof.Gen.KernelIdeal
import proofs.«413496_j69939247448112_2_alg».proof.Proof.Gen.KernelIdeal.Frame
import proofs.«413496_j69939247448112_2_alg».proof.Proof.Gen.ReferenceIdeal
import proofs.«413496_j69939247448112_2_alg».proof.Proof.Gen.Pre_finite_inputs
import proofs.«413496_j69939247448112_2_alg».proof.Proof.KerRun
import proofs.«413496_j69939247448112_2_alg».proof.Proof.KerFold
import proofs.«413496_j69939247448112_2_alg».proof.Proof.RefRun
import proofs.«413496_j69939247448112_2_alg».proof.Proof.Bridge
import Idealize.ShloMosaic.Adequacy
import Idealize.ShloMosaic.Init

noncomputable section

namespace Cert.Proof

open Idealize.ShloMosaic Idealize.SL.Sem

/-- The word-level kernel program terminates with its arguments unchanged. -/
theorem frame_k : Cert.frame_Kernel := fun m ρ _ => Cert.Kernel.Gen.frame m ρ

/-- The idealized kernel program terminates with its arguments unchanged. -/
theorem frame_ki : Cert.frame_KernelIdeal := fun m ρ _ => Cert.KernelIdeal.Gen.frame m ρ

/-- The reference terminates with its arguments unchanged: its run, the result dropped. -/
theorem frame_ri : Cert.frame_ReferenceIdeal := fun m ρ _ =>
  (θ_run Cert.ReferenceIdeal.defs _ _).mono (fun _ h c => (h c).2) (Cert.ReferenceIdeal.HandRun.run m ρ)

/-- Both programs end at the kernel program's composed term of the arguments: the kernel program by its run and the walk
    back through its segments, the reference by its run and the equality of the two composed terms at row numbers. -/
theorem algebraic : Cert.algebraic_KernelIdeal_ReferenceIdeal := by
  intro m ρ m' ρ' hpre hagree
  refine ⟨fun c => Cert.KernelIdeal.Chains.final
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Fold.result m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.HandRun.run m' ρ')
    rw [(hagree c).1, (hagree c).2.1, (hagree c).2.2.1, (hagree c).2.2.2]
    exact (Cert.Bridge.final_eq _ _ _ _ (Cert.KernelIdeal.Domain.inRows_of_pre _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
